-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S4x8x2048x128 : Shape := ⟨4, ![4, 8, 2048, 128]⟩
abbrev S1x1024x1024 : Shape := ⟨3, ![1, 1024, 1024]⟩
abbrev S1024x128 : Shape := ⟨2, ![1024, 128]⟩
abbrev S1x128 : Shape := ⟨2, ![1, 128]⟩
abbrev S1x1x1024x128 : Shape := ⟨4, ![1, 1, 1024, 128]⟩
abbrev S1x1x512x128 : Shape := ⟨4, ![1, 1, 512, 128]⟩
abbrev S1x1x2048x128 : Shape := ⟨4, ![1, 1, 2048, 128]⟩
abbrev S2048x128 : Shape := ⟨2, ![2048, 128]⟩
abbrev S512x128 : Shape := ⟨2, ![512, 128]⟩
abbrev S512x64 : Shape := ⟨2, ![512, 64]⟩
abbrev S2048x64 : Shape := ⟨2, ![2048, 64]⟩
abbrev S2048x512 : Shape := ⟨2, ![2048, 512]⟩
abbrev S512 : Shape := ⟨1, ![512]⟩
abbrev S1x512 : Shape := ⟨2, ![1, 512]⟩
abbrev S4x2048x8x128 : Shape := ⟨4, ![4, 2048, 8, 128]⟩
abbrev S8192x1024 : Shape := ⟨2, ![8192, 1024]⟩

abbrev nBuf : Space → Nat
  | .hbm => 25
  | .vmem => 35
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x8x2048x128, .bf16⟩
  | .hbm, ⟨17, _⟩ => ⟨S4x8x2048x128, .bf16⟩
  | .hbm, ⟨18, _⟩ => ⟨S4x8x2048x128, .bf16⟩
  | .hbm, ⟨19, _⟩ => ⟨S4x8x2048x128, .bf16⟩
  | .hbm, ⟨20, _⟩ => ⟨S4x2048x8x128, .bf16⟩
  | .hbm, ⟨21, _⟩ => ⟨S8192x1024, .bf16⟩
  | .hbm, ⟨22, _⟩ => ⟨S1x1024, .f32⟩
  | .hbm, ⟨23, _⟩ => ⟨S8192x1024, .f32⟩
  | .hbm, ⟨24, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S1x128, .f32⟩
  | .local _ .vmem, ⟨14, _⟩ => ⟨S1x1x1024x128, .bf16⟩
  | .local _ .vmem, ⟨15, _⟩ => ⟨S1x1x1024x128, .bf16⟩
  | .local _ .vmem, ⟨16, _⟩ => ⟨S1x1x1024x128, .bf16⟩
  | .local _ .vmem, ⟨17, _⟩ => ⟨S1x1x1024x128, .bf16⟩
  | .local _ .vmem, ⟨18, _⟩ => ⟨S1x1x1024x128, .bf16⟩
  | .local _ .vmem, ⟨19, _⟩ => ⟨S1x1x1024x128, .bf16⟩
  | .local _ .vmem, ⟨20, _⟩ => ⟨S1x1x512x128, .bf16⟩
  | .local _ .vmem, ⟨21, _⟩ => ⟨S1x1x512x128, .bf16⟩
  | .local _ .vmem, ⟨22, _⟩ => ⟨S1x1x2048x128, .bf16⟩
  | .local _ .vmem, ⟨23, _⟩ => ⟨S1x1x2048x128, .bf16⟩
  | .local _ .vmem, ⟨24, _⟩ => ⟨S1x1x512x128, .bf16⟩
  | .local _ .vmem, ⟨25, _⟩ => ⟨S1x1x512x128, .bf16⟩
  | .local _ .vmem, ⟨26, _⟩ => ⟨S1x1x2048x128, .bf16⟩
  | .local _ .vmem, ⟨27, _⟩ => ⟨S1x1x2048x128, .bf16⟩
  | .local _ .vmem, ⟨28, _⟩ => ⟨S2048x128, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_25 : BitVec 32 := 0#32
  let v51 : BitVec 1 := Scalar.cmpi .ne v50 c0_i32_25
  v51

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  packedbf16_S1x1x1024x128_S1x1x1024x128_0_0_0_0 : (Rect.unit (s := S1x1x1024x128) ![0, 0, 0, 0] S1x1x1024x128.size inb_S1x1x1024x128_S1x1x1024x128_0_0_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  slices_S512x128_o0_0_S512x64 : S512x128.Slices ![0, 0] S512x64
  slices_S2048x128_o0_0_S2048x64 : S2048x128.Slices ![0, 0] S2048x64
  reduces_S2048x512_S512 : S2048x512.Reduces [0] S512
  shapeCasts_S512_S1x512 : S512.ShapeCasts S1x512
  broadcasts_S1x512_S2048x512 : S1x512.Broadcasts S2048x512
  slices_S512x128_o0_64_S512x64 : S512x128.Slices ![0, 64] S512x64
  slices_S2048x128_o0_64_S2048x64 : S2048x128.Slices ![0, 64] S2048x64
  concatenates_S2048x64_S2048x64_S2048x128_d1 : Shape.Concatenates [S2048x64, S2048x64] S2048x128 1
  shapeCasts_S2048x128_S1x1x2048x128 : S2048x128.ShapeCasts S1x1x2048x128
  packedbf16_S1x1x2048x128_S1x1x2048x128_0_0_0_0 : (Rect.unit (s := S1x1x2048x128) ![0, 0, 0, 0] S1x1x2048x128.size inb_S1x1x2048x128_S1x1x2048x128_0_0_0_0).PackedRows (EltTy.packing .bf16)
  transposes_S4x8x2048x128_S4x2048x8x128_0_2_1_3 : S4x8x2048x128.Transposes [0, 2, 1, 3] S4x2048x8x128
  shapeCasts_S4x2048x8x128_S8192x1024 : S4x2048x8x128.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x128_S1024x128_1_0_0_1_n_n_wf : DotDims.WF S1024x1024 S1024x128 S1024x128 [1] [0] [0] [1] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .bf16 = 32 ∨ (Rect.block (s := S1024x1024) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x1024.size a
  hwx0_3 : ∀ i : grid0.Coords, EltTy.bits .bf16 = 32 ∨ (Rect.block (s := S1024x1024) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x1024.size a
  hwx0_5 : ∀ i : grid0.Coords, EltTy.bits .bf16 = 32 ∨ (Rect.block (s := S1024x1024) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .f32 = 32 ∨ (Rect.block (s := S1x1024) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024x128.size a ≤ S4x8x2048x128.size a
  hwx0_7 : ∀ i : grid0.Coords, EltTy.bits .bf16 = 32 ∨ (Rect.block (s := S4x8x2048x128) S1x1x1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024x128.size a ≤ S4x8x2048x128.size a
  hwx0_8 : ∀ i : grid0.Coords, EltTy.bits .bf16 = 32 ∨ (Rect.block (s := S4x8x2048x128) S1x1x1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024x128.size a ≤ S4x8x2048x128.size a
  hwx0_9 : ∀ i : grid0.Coords, EltTy.bits .bf16 = 32 ∨ (Rect.block (s := S4x8x2048x128) S1x1x1024x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x128.size a ≤ S4x8x2048x128.size a
  hwx1_0 : ∀ i : grid1.Coords, EltTy.bits .bf16 = 32 ∨ (Rect.block (s := S4x8x2048x128) S1x1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x128.size a ≤ S4x8x2048x128.size a
  hwx1_1 : ∀ i : grid1.Coords, EltTy.bits .bf16 = 32 ∨ (Rect.block (s := S4x8x2048x128) S1x1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x128.size a ≤ S4x8x2048x128.size a
  hwx1_2 : ∀ i : grid1.Coords, EltTy.bits .bf16 = 32 ∨ (Rect.block (s := S4x8x2048x128) S1x1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x128.size a ≤ S4x8x2048x128.size a
  hwx1_3 : ∀ i : grid1.Coords, EltTy.bits .bf16 = 32 ∨ (Rect.block (s := S4x8x2048x128) S1x1x2048x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x1x1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1x1x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7_0) S1x1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_2_2_3_3_01_01_wf : DotDims.WF S4x16x2048x2048 S4x16x2048x64 S4x16x2048x64 [2] [2] [3] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_2_2_3_3_01_01 : DotDims S4x16x2048x2048 S4x16x2048x64 S4x16x2048x64 where
  lhsContracting := [2]
  rhsContracting := [2]
  lhsNonContracting := [3]
  rhsNonContracting := [3]
  lhsBatch := [0, 1]
  rhsBatch := [0, 1]
  wf := dot_S4x16x2048x2048_S4x16x2048x64_S4x16x2048x64_2_2_3_3_01_01_wf

class Facts : Prop extends Facts₀ where

variable [Facts]
-- ==== Proof.KReg0.lean ====
import proofs.«403051_j18691697672859_3_alg».proof.Proof.Gen.Kernel.Launch
import proofs.«403051_j18691697672859_3_alg».proof.Proof.Gen.Kernel.Skeleton
import proofs.«403051_j18691697672859_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: the fused q, k, v projection (pipeline 0), at the entry contents `V`

Ten windows: the activation block (window 0), then a weight block and a bias row for each of q, k, v
(windows 1–6), then the three projected outputs (windows 7, 8, 9). At each grid point the body reads the
seven input blocks whole and stores each output block whole, once: `x ↦ bf16 (bf16 x · w + b)`. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched only where the last grid coordinate is 0), for ANY
    proof data whose array is `V`'s (`hA`) and whose body leaves the block in place (`hafter`): where the window
    is not fetched its block index has not moved, so the block already staged is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY
    proof data whose array is `V`'s (`hA`) and whose body leaves the block in place (`hafter`): where the window
    is not fetched its block index has not moved, so the block already staged is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY
    proof data whose array is `V`'s (`hA`) and whose body leaves the block in place (`hafter`): where the window
    is not fetched its block index has not moved, so the block already staged is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY
    proof data whose array is `V`'s (`hA`) and whose body leaves the block in place (`hafter`): where the window
    is not fetched its block index has not moved, so the block already staged is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY
    proof data whose array is `V`'s (`hA`) and whose body leaves the block in place (`hafter`): where the window
    is not fetched its block index has not moved, so the block already staged is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY
    proof data whose array is `V`'s (`hA`) and whose body leaves the block in place (`hafter`): where the window
    is not fetched its block index has not moved, so the block already staged is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY
    proof data whose array is `V`'s (`hA`) and whose body leaves the block in place (`hafter`): where the window
    is not fetched its block index has not moved, so the block already staged is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of each block shape: every load and store of the body is of a whole staging buffer. -/
abbrev r0_x : Rect S1x1024x1024 := Rect.unit (s := S1x1024x1024) ![0, 0, 0] S1x1024x1024.size inb_S1x1024x1024_S1x1024x1024_0_0_0
abbrev r0_w : Rect S1024x128 := Rect.unit (s := S1024x128) ![0, 0] S1024x128.size inb_S1024x128_S1024x128_0_0
abbrev r0_b : Rect S1x128 := Rect.unit (s := S1x128) ![0, 0] S1x128.size inb_S1x128_S1x128_0_0
abbrev r0_o : Rect S1x1x1024x128 := Rect.unit (s := S1x1x1024x128) ![0, 0, 0, 0] S1x1x1024x128.size inb_S1x1x1024x128_S1x1x1024x128_0_0_0_0

/-! ## What the body leaves in each output window's buffer -/

/-- Window 7's staging buffer after the body (the q projection), from the activation block, q's weight block and
    q's bias row: its one whole store, the payload the skeleton's. -/
def out0_7 (x0 : Vec F S1x1024x1024 .f32) (x1 : Vec F S1024x128 .bf16) (x2 : Vec F S1x128 .f32) : Vec F S1x1x1024x128 .bf16 :=
  View.canon [⟨r0_o, k0_pay3 (View.ld x0 r0_x) (View.ld x1 r0_w) (View.ld x2 r0_b)⟩]

/-- Window 8's staging buffer after the body (the k projection), from the activation block, k's weight block and
    k's bias row. -/
def out0_8 (x0 : Vec F S1x1024x1024 .f32) (x3 : Vec F S1024x128 .bf16) (x4 : Vec F S1x128 .f32) : Vec F S1x1x1024x128 .bf16 :=
  View.canon [⟨r0_o, k0_pay4 (View.ld x0 r0_x) (View.ld x3 r0_w) (View.ld x4 r0_b)⟩]

/-- Window 9's staging buffer after the body (the v projection), from the activation block, v's weight block and
    v's bias row: the product is formed in the body's first part, the bias added and the result rounded after it. -/
def out0_9 (x0 : Vec F S1x1024x1024 .f32) (x5 : Vec F S1024x128 .bf16) (x6 : Vec F S1x128 .f32) : Vec F S1x1x1024x128 .bf16 :=
  View.canon [⟨r0_o, k0_pay1 (k0_pay5 (View.ld x0 r0_x) (View.ld x5 r0_w)) (View.ld x6 r0_b)⟩]

/-- A single whole store tiles the buffer (checked by evaluation), so it covers it. -/
theorem cover0_7 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y
theorem cover0_8 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y
theorem cover0_9 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y

/-! ## The body's triple -/

set_option maxHeartbeats 4000000 in
/-- The kernel body on whole staging memrefs, the inputs' at read contents `xW` and the outputs' at anything, runs to
    the continuation holding the inputs' as they were and each output's at `out0_W` of the inputs it is computed
    from. The grid point `i` is not read. -/
theorem sound_kernel0 (c : Dev nD) (E : Set ℕ) (i : grid0.Coords)
    (arg3 : Memref sig .tc .vmem S1x1024x1024 .f32) (harg3 : arg3.IsWhole)
    (arg4 : Memref sig .tc .vmem S1024x128 .bf16) (harg4 : arg4.IsWhole) (arg5 : Memref sig .tc .vmem S1x128 .f32) (harg5 : arg5.IsWhole)
    (arg6 : Memref sig .tc .vmem S1024x128 .bf16) (harg6 : arg6.IsWhole) (arg7 : Memref sig .tc .vmem S1x128 .f32) (harg7 : arg7.IsWhole)
    (arg8 : Memref sig .tc .vmem S1024x128 .bf16) (harg8 : arg8.IsWhole) (arg9 : Memref sig .tc .vmem S1x128 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x128 .bf16) (harg12 : arg12.IsWhole)
    (x0 : Vec F S1x1024x1024 .f32) (x1 : Vec F S1024x128 .bf16) (x2 : Vec F S1x128 .f32) (x3 : Vec F S1024x128 .bf16) (x4 : Vec F S1x128 .f32)
    (x5 : Vec F S1024x128 .bf16) (x6 : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (out0_7 x0 x1 x2) ∗ owns (c : Thread nD τ) arg11 fullShare (out0_8 x0 x3 x4)
            ∗ owns (c : Thread nD τ) arg12 fullShare (out0_9 x0 x5 x6)) -∗ K ⟨⟩))
      ⊢ wp frame (wpE (defs₀ (F := F)) Variants.none c none) E
          (cc0__qkv_kernel i arg3 harg3 arg4 harg4 arg5 harg5 arg6 harg6 arg7 harg7 arg8 harg8 arg9 harg9 arg10 harg10 arg11 harg11 arg12 harg12) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and each output's at `out0_W` of the input blocks it is computed from;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1.lean ====
import proofs.«403051_j18691697672859_3_alg».proof.Proof.Gen.Kernel.Launch
import proofs.«403051_j18691697672859_3_alg».proof.Proof.Gen.Kernel.Skeleton
import proofs.«403051_j18691697672859_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! # Region 1: the attention core on its grid of 128 points -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, for any proof data over the entry contents whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (fetched only where its block index moves) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes at a point -/

/-- The value the body adds to the accumulator at a point: the two heads' attention outputs side by side, each
    the softmax (over the key axis) of the scaled scores times the value block's half. -/
def contrib1 (xq : Vec F S1x1x512x128 .bf16) (xk : Vec F S1x1x2048x128 .bf16) (xv : Vec F S1x1x512x128 .bf16) : Vec F S2048x128 .f32 :=
  concatenate S2048x128 1
    [⟨S2048x64, k1_pay7 xq xk xv⟩,
     ⟨S2048x64,
        matmul dot_S2048x512_S512x64_S2048x64_1_0_0_1_n_n none
          (truncf .bf16
            (divf (exp (subf (k1_pay9 xq xk) (broadcastTo S2048x512 (k1_pay10 xq xk) broadcasts_S1x512_S2048x512)))
              (broadcastTo S2048x512
                (shapeCast S1x512
                  (multiReduction .add [0] S512
                    (exp (subf (k1_pay9 xq xk) (broadcastTo S2048x512 (k1_pay10 xq xk) broadcasts_S1x512_S2048x512)))
                    0x00000000#32 reduces_S2048x512_S512 (.inl rfl) rfl)
                  shapeCasts_S512_S1x512)
                broadcasts_S1x512_S2048x512))
            bitsLt_bf16_f32)
          (k1_pay8 xv) (constant S2048x64 .f32 0x00000000#32)⟩]
    concatenates_S2048x64_S2048x64_S2048x128_d1

/-- The accumulator after the body's one accumulating store, from what it held before: the skeleton's payload at
    the blocks' payloads. -/
def step1 (acc : Vec F S2048x128 .f32) (xq : Vec F S1x1x512x128 .bf16) (xk : Vec F S1x1x2048x128 .bf16) (xv : Vec F S1x1x512x128 .bf16) : Vec F S2048x128 .f32 :=
  k1_pay1 (k1_pay7 xq xk xv) (k1_pay8 xv) (k1_pay9 xq xk) (k1_pay10 xq xk) acc

/-- The accumulating store adds the point's contribution (the same-shape cast around the sum is the identity). -/
theorem step1_eq (acc : Vec F S2048x128 .f32) (xq : Vec F S1x1x512x128 .bf16) (xk : Vec F S1x1x2048x128 .bf16) (xv : Vec F S1x1x512x128 .bf16) :
    step1 acc xq xk xv = addf acc (contrib1 xq xk xv) :=
  shapeCast_self (addf acc (contrib1 xq xk xv)) shapeCasts_S2048x128_S2048x128

/-- The accumulator's contents after point `n`: reset to zero where the last grid coordinate is 0, then this
    point's contribution added to what the point before left. -/
def accAt1 (c : Dev nD) : (n : ℕ) → n < cfg1.N → Vec F S2048x128 .f32
  | 0, hn => step1 (k1_pay3 (F := F)) (iblk1 V c 0 ⟨0, hn⟩) (iblk1 V c 1 ⟨0, hn⟩) (iblk1 V c 2 ⟨0, hn⟩)
  | n + 1, hn =>
    if (n + 1) % 4 = 0 then
      step1 (k1_pay3 (F := F)) (iblk1 V c 0 ⟨n + 1, hn⟩) (iblk1 V c 1 ⟨n + 1, hn⟩) (iblk1 V c 2 ⟨n + 1, hn⟩)
    else
      step1 (accAt1 c n (Nat.lt_of_succ_lt hn)) (iblk1 V c 0 ⟨n + 1, hn⟩) (iblk1 V c 1 ⟨n + 1, hn⟩) (iblk1 V c 2 ⟨n + 1, hn⟩)

/-- `accAt1` at a point where the accumulator is reset, as one step from zero. -/
theorem accAt1_reset (c : Dev nD) (n : ℕ) (hn : n < cfg1.N) (h0 : n % 4 = 0) :
    accAt1 V c n hn = step1 (k1_pay3 (F := F)) (iblk1 V c 0 ⟨n, hn⟩) (iblk1 V c 1 ⟨n, hn⟩) (iblk1 V c 2 ⟨n, hn⟩) := by
  cases n with
  | zero => rfl
  | succ n => exact if_pos h0

/-- `accAt1` at any other point, as one step from what the point before left. -/
theorem accAt1_step (c : Dev nD) (n : ℕ) (hn : n < cfg1.N) (h0 : n % 4 ≠ 0) :
    accAt1 V c n hn = step1 (accAt1 V c (n - 1) (Nat.lt_of_le_of_lt (Nat.sub_le _ _) hn))
      (iblk1 V c 0 ⟨n, hn⟩) (iblk1 V c 1 ⟨n, hn⟩) (iblk1 V c 2 ⟨n, hn⟩) := by
  cases n with
  | zero => exact absurd (Nat.zero_mod _) h0
  | succ n => exact if_neg h0

/-- At a point where the accumulator is reset: zero plus the point's contribution. -/
theorem accAt1_zero (c : Dev nD) (n : ℕ) (hn : n < cfg1.N) (h0 : n % 4 = 0) :
    accAt1 V c n hn = addf (k1_pay3 (F := F)) (contrib1 (iblk1 V c 0 ⟨n, hn⟩) (iblk1 V c 1 ⟨n, hn⟩) (iblk1 V c 2 ⟨n, hn⟩)) :=
  (accAt1_reset V c n hn h0).trans (step1_eq _ _ _ _)

/-- At any other point: what the point before left plus the point's contribution. -/
theorem accAt1_succ (c : Dev nD) (n : ℕ) (hn : n < cfg1.N) (h0 : n % 4 ≠ 0) :
    accAt1 V c n hn = addf (accAt1 V c (n - 1) (Nat.lt_of_le_of_lt (Nat.sub_le _ _) hn))
      (contrib1 (iblk1 V c 0 ⟨n, hn⟩) (iblk1 V c 1 ⟨n, hn⟩) (iblk1 V c 2 ⟨n, hn⟩)) :=
  (accAt1_step V c n hn h0).trans (step1_eq _ _ _ _)

/-- What the body stores into the output buffer where it stores it: the accumulator rounded to bf16, as a block. -/
def out1_3 (acc : Vec F S2048x128 .f32) : Vec F S1x1x2048x128 .bf16 :=
  k1_pay2 acc

theorem out1_3_eq (acc : Vec F S2048x128 .f32) :
    out1_3 acc = shapeCast S1x1x2048x128 (truncf .bf16 acc bitsLt_bf16_f32) shapeCasts_S2048x128_S1x1x2048x128 := rfl

/-! ## The invariant: the accumulator carried between points -/

/-- The accumulator, the kernel's own scoped buffer, as a whole memref. -/
abbrev scM1 : Memref sig .tc .vmem S2048x128 .f32 := Memref.whole cc1_scratch0

/-- The class's invariant with the accumulator split off as a memref owned at some contents. -/
theorem PhiA1_eq (c : Dev nD) :
    (Pipeline.ΦA spec1 c : sProp 𝕄)
      = iprop(iprop(iprop(∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The region invariant before position `n`: before the first point the class's; afterwards the accumulator at
    what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The proof data of pipeline 1 on core `c`: the arrays as the region finds them; after the body at point `t`
    each input's buffer at its block and the output's at the accumulator after `t`, rounded; the invariant carries
    the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- `accAt1` at a point of the grid where the accumulator is reset. -/
theorem accAt1_A (c : Dev nD) (t : Fin cfg1.N) (h0 : t.val % 4 = 0) :
    accAt1 V c t.val t.isLt = step1 (k1_pay3 (F := F)) (iblk1 V c 0 t) (iblk1 V c 1 t) (iblk1 V c 2 t) :=
  accAt1_reset V c t.val t.isLt h0

/-- `accAt1` at any other point of the grid. -/
theorem accAt1_B (c : Dev nD) (t : Fin cfg1.N) (h0 : ¬t.val % 4 = 0) :
    accAt1 V c t.val t.isLt = step1 (accAt1 V c (t.val - 1) (Nat.lt_of_le_of_lt (Nat.sub_le _ _) t.isLt))
      (iblk1 V c 0 t) (iblk1 V c 1 t) (iblk1 V c 2 t) :=
  accAt1_step V c t.val t.isLt h0

/-! ## The body's branch conditions, and where the output window is idle -/

/-- The condition of the body's first conditional (the reset), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the output's store). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output its window is idle and not written back; where it does, live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The kernel body on any whole staging memrefs, case by case -/

theorem hz2 : (![0, 0] : Fin 2 → Nat) = fun _ => 0 := funext fun a => by fin_cases a <;> rfl
theorem hz4 : (![0, 0, 0, 0] : Fin 4 → Nat) = fun _ => 0 := funext fun a => by fin_cases a <;> rfl

set_option maxHeartbeats 1000000 in
/-- Where the accumulator is reset and the output not stored: the body zeroes the accumulator, reads the zero back,
    adds the point's contribution; the inputs' and the output's buffers are handed back as found. -/
theorem kernelRun1_A (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : cond1_0 i) (hc1 : ¬cond1_1 i)
    (xq : Vec F S1x1x512x128 .bf16) (xk : Vec F S1x1x2048x128 .bf16) (xv : Vec F S1x1x512x128 .bf16) (xi : Vec F S1x1x2048x128 .bf16)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xi ∗ (∃ d, owns (c : Thread nD τ) arg7 fullShare d)
        ∗ (iprop(owns (c : Thread nD τ) arg3 fullShare xq ∗ owns (c : Thread nD τ) arg4 fullShare xk ∗ owns (c : Thread nD τ) arg5 fullShare xv
            ∗ owns (c : Thread nD τ) arg6 fullShare xi ∗ owns (c : Thread nD τ) arg7 fullShare (step1 (k1_pay3 (F := F)) xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  rw [View.readCov_unit_zero _ hz2]
  simp only [View.readAt_eq_ld, harg3.read_unread, harg4.read_unread, harg5.read_unread, View.ld_unit_zero (S := S1x1x512x128) hz4, View.ld_unit_zero (S := S1x1x2048x128) hz4]
  try rfl

set_option maxHeartbeats 1000000 in
/-- Where neither conditional is taken: the body adds the point's contribution to what the accumulator held. -/
theorem kernelRun1_B (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : ¬cond1_0 i) (hc1 : ¬cond1_1 i)
    (xq : Vec F S1x1x512x128 .bf16) (xk : Vec F S1x1x2048x128 .bf16) (xv : Vec F S1x1x512x128 .bf16) (xi : Vec F S1x1x2048x128 .bf16) (acc : Vec F S2048x128 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xi ∗ owns (c : Thread nD τ) arg7 fullShare acc
        ∗ (iprop(owns (c : Thread nD τ) arg3 fullShare xq ∗ owns (c : Thread nD τ) arg4 fullShare xk ∗ owns (c : Thread nD τ) arg5 fullShare xv
            ∗ owns (c : Thread nD τ) arg6 fullShare xi ∗ owns (c : Thread nD τ) arg7 fullShare (step1 acc xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  simp only [View.readAt_eq_ld, harg3.read_unread, harg4.read_unread, harg5.read_unread, harg7.read_unread, View.ld_unit_zero (S := S1x1x512x128) hz4, View.ld_unit_zero (S := S1x1x2048x128) hz4, View.ld_unit_zero (S := S2048x128) hz2]
  try rfl

set_option maxHeartbeats 1000000 in
/-- Where the output is stored: the body adds the point's contribution to what the accumulator held, reads the sum
    back and stores it, rounded, over the whole output buffer. -/
theorem kernelRun1_C (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : ¬cond1_0 i) (hc1 : cond1_1 i)
    (xq : Vec F S1x1x512x128 .bf16) (xk : Vec F S1x1x2048x128 .bf16) (xv : Vec F S1x1x512x128 .bf16) (acc : Vec F S2048x128 .f32)
    (E : Set ℕ) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ owns (c : Thread nD τ) arg7 fullShare acc
        ∗ (iprop(owns (c : Thread nD τ) arg3 fullShare xq ∗ owns (c : Thread nD τ) arg4 fullShare xk ∗ owns (c : Thread nD τ) arg5 fullShare xv
            ∗ owns (c : Thread nD τ) arg6 fullShare (out1_3 (step1 acc xq xk xv)) ∗ owns (c : Thread nD τ) arg7 fullShare (step1 acc xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hacc : k1_pay1 (F := F)
      (k1_pay7 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk))
        (View.readAt (Elt F) arg5.view (Rect.unit ![0, 0, 0, 0] S1x1x512x128.size inb_S1x1x512x128_S1x1x512x128_0_0_0_0).toLoadRect (harg5.unread xv)))
      (k1_pay8 (View.readAt (Elt F) arg5.view (Rect.unit ![0, 0, 0, 0] S1x1x512x128.size inb_S1x1x512x128_S1x1x512x128_0_0_0_0).toLoadRect (harg5.unread xv)))
      (k1_pay9 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk)))
      (k1_pay10 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk)))
      (View.readAt (Elt F) arg7.view (Rect.unit ![0, 0] S2048x128.size inb_S2048x128_S2048x128_0_0).toLoadRect (harg7.unread acc))
      = step1 acc xq xk xv := by
    simp only [View.readAt_eq_ld, harg3.read_unread, harg4.read_unread, harg5.read_unread, harg7.read_unread, View.ld_unit_zero (S := S1x1x512x128) hz4, View.ld_unit_zero (S := S1x1x2048x128) hz4, View.ld_unit_zero (S := S2048x128) hz2]
    try rfl
  isplitl [H6]
  · iexists _; isplitr
    swap; · iexact H6
    ipureintro
    sl_unfold_words
    rw [View.read_writes_eq_canon _ _ _ (fun y => ⟨_, List.Mem.head _, View.mem_set_unit_zero hz4 inb_S1x1x2048x128_S1x1x2048x128_0_0_0_0 y⟩)]
    rw [View.canon_cons_unit_zero hz4]
    rw [View.readCov_unit_zero _ hz2, hacc]
    try rfl
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  exact hacc

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position along the last grid axis says
    which case it is in; the invariant hands the body the accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_A V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [accAt1_B V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt1_B V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_B c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.KReg2.lean ====
import proofs.«403051_j18691697672859_3_alg».proof.Proof.Gen.Kernel.Launch
import proofs.«403051_j18691697672859_3_alg».proof.Proof.Gen.Kernel.Skeleton
import proofs.«403051_j18691697672859_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the program: the linear output projection, at the entry contents `V`

The third pipeline (grid of 8 points) multiplies a block of 1024 rows of the activations by the whole weight matrix and
adds the bias row. Its body loads its three input blocks whole, computes, and stores the output block whole once: what
it leaves in the output buffer is a closed function of the three input blocks at the point. This module states that
function, proves the body's triple, and packages the per-point obligation of the pipeline. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight matrix) is fetched at the first point only; its block index never moves, so its
    buffer holds the same block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole bias row) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 buffer as one rectangle. -/
abbrev r2_0 : Rect S1024x1024 := Rect.unit (s := S1024x1024) ![0, 0] S1024x1024.size inb_S1024x1024_S1024x1024_0_0
/-- The whole 1×1024 buffer as one rectangle. -/
abbrev r2_1 : Rect S1x1024 := Rect.unit (s := S1x1024) ![0, 0] S1x1024.size inb_S1x1024_S1x1024_0_0

/-! ## What the body leaves in the output window's buffer -/

/-- Window 3's staging buffer after the body, from the input windows' blocks: its one store as one piece, the
    payload being the matrix product of the row block and the weights plus the broadcast bias. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

/-- The one store tiles the buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. The body also reads
    the output buffer before overwriting it whole; the value read is never used. -/
theorem sound_kernel2 (c : Dev nD) (E : Set ℕ) (i : grid2.Coords)
    (arg0 : Memref sig .tc .vmem S1024x1024 .bf16) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KRun.lean ====
import proofs.«403051_j18691697672859_3_alg».proof.Proof.Gen.Kernel.Launch
import proofs.«403051_j18691697672859_3_alg».proof.Proof.Gen.Kernel.Skeleton
import proofs.«403051_j18691697672859_3_alg».proof.Proof.Gen.Kernel.Points
import proofs.«403051_j18691697672859_3_alg».proof.Proof.Gen.Kernel.Regions
import proofs.«403051_j18691697672859_3_alg».proof.Proof.KReg0
import proofs.«403051_j18691697672859_3_alg».proof.Proof.KReg1
import proofs.«403051_j18691697672859_3_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the program: its six items from the launch to the return

The program is a stretch of seven host operations (four conversions of the weight matrices and three reshapes of the
bias rows), the fused projection (pipeline 0), the attention core (pipeline 1) entered directly after it, a stretch of
three host operations (a transposition and two reshapes), the output projection (pipeline 2) and a last reshape. This
module folds the contents of every unscoped buffer through these six items: a host stretch maps a valuation to the
valuation after its operations, a pipeline replaces its windows' arrays by what its write-backs leave and keeps every
other buffer. Each pipeline's proof data are taken at the contents its region is entered with. Over this fold the three
regions are stated as segments between thread states "every unscoped buffer whole at the boundary's contents, the
generator register at some state, nothing owed", the program is shown to be the run of its segments, and the launch
theorem gives: every weakly fair execution terminates and every final memory holds each unscoped buffer at the last
valuation of the fold. No item writes an argument array, so the arguments end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through the program -/

/-- Core `c`'s buffers at launch. -/
abbrev St0 : Dev nD → Valuation τ sig (Elt F) := fun c b => (s₀ m ρ).mem ((c : Dev nD), b)
/-- After the first host stretch (pipeline 0's entry). -/
abbrev St1 : Dev nD → Valuation τ sig (Elt F) := fun c => StableHlo.after hostOps0 (St0 m ρ c)
/-- The same read at the TensorCore's references (what pipeline 0's proof data take). -/
abbrev En0 : (c : Dev nD) → (b : Ref sig .tc) → Buf (Elt F) ((c : Thread nD τ).loc b) := fun c b => St1 m ρ c b

/-- At pipeline 0's exit: its arrays at what the pipeline leaves (the inputs as entered, each output's write-backs
    folded), every other buffer as entered. -/
def St2 (c : Dev nD) : Valuation τ sig (Elt F) :=
  Pipeline.withArrays spec0 c (St1 m ρ c) fun w => (dat0 (En0 m ρ) c).arrAt w cfg0.N
theorem St2_arr (c : Dev nD) (w : Fin cfg0.W) :
    St2 m ρ c (Proc.devRef .tc (Pipeline.arrRef spec0 w)) = (dat0 (En0 m ρ) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m ρ c (Proc.devRef .tc b) = St1 m ρ c (Proc.devRef .tc b) := by
  unfold St2; exact Pipeline.withArrays_of_ne spec0 c _ _ b hb
/-- The same read at the TensorCore's references (pipeline 0's exit contents). -/
abbrev Ex0 : (c : Dev nD) → (b : Ref sig .tc) → Buf (Elt F) ((c : Thread nD τ).loc b) := fun c b => St2 m ρ c b
/-- At pipeline 0's exit each of its arrays holds what the pipeline leaves and every other buffer what it held at
    entry. -/
theorem hF0 (c : Dev nD) (w : Fin cfg0.W) : (dat0 (En0 m ρ) c).arrAt w cfg0.N = Ex0 m ρ c (Pipeline.arrRef spec0 w) :=
  (St2_arr m ρ c w).symm
theorem hrest0 (c : Dev nD) : ∀ b, b ∉ Finset.univ.image (Pipeline.arrRef spec0) → Ex0 m ρ c b = En0 m ρ c b :=
  fun b hb => St2_of_ne m ρ c b fun w e => hb (Finset.mem_image.mpr ⟨w, Finset.mem_univ _, e⟩)

/-- Pipeline 1 is entered directly after pipeline 0: its entry contents are pipeline 0's exit contents. -/
abbrev En1 : (c : Dev nD) → (b : Ref sig .tc) → Buf (Elt F) ((c : Thread nD τ).loc b) := fun c b => St2 m ρ c b

/-- At pipeline 1's exit: its arrays at what the pipeline leaves (the inputs as entered, each output's write-backs
    folded), every other buffer as entered. -/
def St3 (c : Dev nD) : Valuation τ sig (Elt F) :=
  Pipeline.withArrays spec1 c (St2 m ρ c) fun w => (dat1 (En1 m ρ) c).arrAt w cfg1.N
theorem St3_arr (c : Dev nD) (w : Fin cfg1.W) :
    St3 m ρ c (Proc.devRef .tc (Pipeline.arrRef spec1 w)) = (dat1 (En1 m ρ) c).arrAt w cfg1.N := by
  unfold St3; exact Pipeline.withArrays_arr spec1 launch1.win.arr_inj c _ _ w
theorem St3_of_ne (c : Dev nD) (b : Ref sig .tc) (hb : ∀ w, Pipeline.arrRef spec1 w ≠ b) :
    St3 m ρ c (Proc.devRef .tc b) = St2 m ρ c (Proc.devRef .tc b) := by
  unfold St3; exact Pipeline.withArrays_of_ne spec1 c _ _ b hb
/-- The same read at the TensorCore's references (pipeline 1's exit contents). -/
abbrev Ex1 : (c : Dev nD) → (b : Ref sig .tc) → Buf (Elt F) ((c : Thread nD τ).loc b) := fun c b => St3 m ρ c b
/-- At pipeline 1's exit each of its arrays holds what the pipeline leaves and every other buffer what it held at
    entry. -/
theorem hF1 (c : Dev nD) (w : Fin cfg1.W) : (dat1 (En1 m ρ) c).arrAt w cfg1.N = Ex1 m ρ c (Pipeline.arrRef spec1 w) :=
  (St3_arr m ρ c w).symm
theorem hrest1 (c : Dev nD) : ∀ b, b ∉ Finset.univ.image (Pipeline.arrRef spec1) → Ex1 m ρ c b = En1 m ρ c b :=
  fun b hb => St3_of_ne m ρ c b fun w e => hb (Finset.mem_image.mpr ⟨w, Finset.mem_univ _, e⟩)

/-- After the second host stretch (pipeline 2's entry). -/
abbrev St4 : Dev nD → Valuation τ sig (Elt F) := fun c => StableHlo.after hostOps2 (St3 m ρ c)
/-- The same read at the TensorCore's references (what pipeline 2's proof data take). -/
abbrev En2 : (c : Dev nD) → (b : Ref sig .tc) → Buf (Elt F) ((c : Thread nD τ).loc b) := fun c b => St4 m ρ c b

/-- At pipeline 2's exit: its arrays at what the pipeline leaves (the inputs as entered, each output's write-backs
    folded), every other buffer as entered. -/
def St5 (c : Dev nD) : Valuation τ sig (Elt F) :=
  Pipeline.withArrays spec2 c (St4 m ρ c) fun w => (dat2 (En2 m ρ) c).arrAt w cfg2.N
theorem St5_arr (c : Dev nD) (w : Fin cfg2.W) :
    St5 m ρ c (Proc.devRef .tc (Pipeline.arrRef spec2 w)) = (dat2 (En2 m ρ) c).arrAt w cfg2.N := by
  unfold St5; exact Pipeline.withArrays_arr spec2 launch2.win.arr_inj c _ _ w
theorem St5_of_ne (c : Dev nD) (b : Ref sig .tc) (hb : ∀ w, Pipeline.arrRef spec2 w ≠ b) :
    St5 m ρ c (Proc.devRef .tc b) = St4 m ρ c (Proc.devRef .tc b) := by
  unfold St5; exact Pipeline.withArrays_of_ne spec2 c _ _ b hb
/-- The same read at the TensorCore's references (pipeline 2's exit contents). -/
abbrev Ex2 : (c : Dev nD) → (b : Ref sig .tc) → Buf (Elt F) ((c : Thread nD τ).loc b) := fun c b => St5 m ρ c b
/-- At pipeline 2's exit each of its arrays holds what the pipeline leaves and every other buffer what it held at
    entry. -/
theorem hF2 (c : Dev nD) (w : Fin cfg2.W) : (dat2 (En2 m ρ) c).arrAt w cfg2.N = Ex2 m ρ c (Pipeline.arrRef spec2 w) :=
  (St5_arr m ρ c w).symm
theorem hrest2 (c : Dev nD) : ∀ b, b ∉ Finset.univ.image (Pipeline.arrRef spec2) → Ex2 m ρ c b = En2 m ρ c b :=
  fun b hb => St5_of_ne m ρ c b fun w e => hb (Finset.mem_image.mpr ⟨w, Finset.mem_univ _, e⟩)

/-- After the last host stretch: what the program returns with. -/
abbrev St6 : Dev nD → Valuation τ sig (Elt F) := fun c => StableHlo.after hostOps3 (St5 m ρ c)

/-! ### What a host stretch keeps: a reference none of its operations writes -/

theorem St1_keep (c : Dev nD) (r : Ref sig .tc) (h : r ∉ hostOps0_W) :
    St1 m ρ c (Proc.devRef .tc r) = St0 m ρ c (Proc.devRef .tc r) :=
  StableHlo.after_of_writes_sub hostOps0 _ hostOps0_writes h
theorem St4_keep (c : Dev nD) (r : Ref sig .tc) (h : r ∉ hostOps2_W) :
    St4 m ρ c (Proc.devRef .tc r) = St3 m ρ c (Proc.devRef .tc r) :=
  StableHlo.after_of_writes_sub hostOps2 _ hostOps2_writes h
theorem St6_keep (c : Dev nD) (r : Ref sig .tc) (h : r ∉ hostOps3_W) :
    St6 m ρ c (Proc.devRef .tc r) = St5 m ρ c (Proc.devRef .tc r) :=
  StableHlo.after_of_writes_sub hostOps3 _ hostOps3_writes h

/-! ### The arguments end as launched: no host operation writes one, and a pipeline reads the first through an input
    window and bypasses the others, so the fold at an argument's buffer walks back to the launch memory -/

theorem St6_main_arg0 (c : Dev nD) : St6 m ρ c (Proc.devRef .tc main_arg0) = m ((c : Thread nD τ).loc main_arg0) :=
  calc St6 m ρ c (Proc.devRef .tc main_arg0)
    _ = St5 m ρ c (Proc.devRef .tc main_arg0) := St6_keep m ρ c main_arg0 (by decide)
    _ = St4 m ρ c (Proc.devRef .tc main_arg0) := St5_of_ne m ρ c main_arg0 (by decide)
    _ = St3 m ρ c (Proc.devRef .tc main_arg0) := St4_keep m ρ c main_arg0 (by decide)
    _ = St2 m ρ c (Proc.devRef .tc main_arg0) := St3_of_ne m ρ c main_arg0 (by decide)
    _ = St1 m ρ c (Proc.devRef .tc main_arg0) := (St2_arr m ρ c 0).trans (((dat0 (En0 m ρ) c).arrAt_in 0 rfl _).trans (A_eq0 (En0 m ρ) c 0))
    _ = St0 m ρ c (Proc.devRef .tc main_arg0) := St1_keep m ρ c main_arg0 (by decide)
    _ = m ((c : Thread nD τ).loc main_arg0) := rfl

theorem St6_main_arg1 (c : Dev nD) : St6 m ρ c (Proc.devRef .tc main_arg1) = m ((c : Thread nD τ).loc main_arg1) :=
  calc St6 m ρ c (Proc.devRef .tc main_arg1)
    _ = St5 m ρ c (Proc.devRef .tc main_arg1) := St6_keep m ρ c main_arg1 (by decide)
    _ = St4 m ρ c (Proc.devRef .tc main_arg1) := St5_of_ne m ρ c main_arg1 (by decide)
    _ = St3 m ρ c (Proc.devRef .tc main_arg1) := St4_keep m ρ c main_arg1 (by decide)
    _ = St2 m ρ c (Proc.devRef .tc main_arg1) := St3_of_ne m ρ c main_arg1 (by decide)
    _ = St1 m ρ c (Proc.devRef .tc main_arg1) := St2_of_ne m ρ c main_arg1 (by decide)
    _ = St0 m ρ c (Proc.devRef .tc main_arg1) := St1_keep m ρ c main_arg1 (by decide)
    _ = m ((c : Thread nD τ).loc main_arg1) := rfl

theorem St6_main_arg2 (c : Dev nD) : St6 m ρ c (Proc.devRef .tc main_arg2) = m ((c : Thread nD τ).loc main_arg2) :=
  calc St6 m ρ c (Proc.devRef .tc main_arg2)
    _ = St5 m ρ c (Proc.devRef .tc main_arg2) := St6_keep m ρ c main_arg2 (by decide)
    _ = St4 m ρ c (Proc.devRef .tc main_arg2) := St5_of_ne m ρ c main_arg2 (by decide)
    _ = St3 m ρ c (Proc.devRef .tc main_arg2) := St4_keep m ρ c main_arg2 (by decide)
    _ = St2 m ρ c (Proc.devRef .tc main_arg2) := St3_of_ne m ρ c main_arg2 (by decide)
    _ = St1 m ρ c (Proc.devRef .tc main_arg2) := St2_of_ne m ρ c main_arg2 (by decide)
    _ = St0 m ρ c (Proc.devRef .tc main_arg2) := St1_keep m ρ c main_arg2 (by decide)
    _ = m ((c : Thread nD τ).loc main_arg2) := rfl

theorem St6_main_arg3 (c : Dev nD) : St6 m ρ c (Proc.devRef .tc main_arg3) = m ((c : Thread nD τ).loc main_arg3) :=
  calc St6 m ρ c (Proc.devRef .tc main_arg3)
    _ = St5 m ρ c (Proc.devRef .tc main_arg3) := St6_keep m ρ c main_arg3 (by decide)
    _ = St4 m ρ c (Proc.devRef .tc main_arg3) := St5_of_ne m ρ c main_arg3 (by decide)
    _ = St3 m ρ c (Proc.devRef .tc main_arg3) := St4_keep m ρ c main_arg3 (by decide)
    _ = St2 m ρ c (Proc.devRef .tc main_arg3) := St3_of_ne m ρ c main_arg3 (by decide)
    _ = St1 m ρ c (Proc.devRef .tc main_arg3) := St2_of_ne m ρ c main_arg3 (by decide)
    _ = St0 m ρ c (Proc.devRef .tc main_arg3) := St1_keep m ρ c main_arg3 (by decide)
    _ = m ((c : Thread nD τ).loc main_arg3) := rfl

theorem St6_main_arg4 (c : Dev nD) : St6 m ρ c (Proc.devRef .tc main_arg4) = m ((c : Thread nD τ).loc main_arg4) :=
  calc St6 m ρ c (Proc.devRef .tc main_arg4)
    _ = St5 m ρ c (Proc.devRef .tc main_arg4) := St6_keep m ρ c main_arg4 (by decide)
    _ = St4 m ρ c (Proc.devRef .tc main_arg4) := St5_of_ne m ρ c main_arg4 (by decide)
    _ = St3 m ρ c (Proc.devRef .tc main_arg4) := St4_keep m ρ c main_arg4 (by decide)
    _ = St2 m ρ c (Proc.devRef .tc main_arg4) := St3_of_ne m ρ c main_arg4 (by decide)
    _ = St1 m ρ c (Proc.devRef .tc main_arg4) := St2_of_ne m ρ c main_arg4 (by decide)
    _ = St0 m ρ c (Proc.devRef .tc main_arg4) := St1_keep m ρ c main_arg4 (by decide)
    _ = m ((c : Thread nD τ).loc main_arg4) := rfl

theorem St6_main_arg5 (c : Dev nD) : St6 m ρ c (Proc.devRef .tc main_arg5) = m ((c : Thread nD τ).loc main_arg5) :=
  calc St6 m ρ c (Proc.devRef .tc main_arg5)
    _ = St5 m ρ c (Proc.devRef .tc main_arg5) := St6_keep m ρ c main_arg5 (by decide)
    _ = St4 m ρ c (Proc.devRef .tc main_arg5) := St5_of_ne m ρ c main_arg5 (by decide)
    _ = St3 m ρ c (Proc.devRef .tc main_arg5) := St4_keep m ρ c main_arg5 (by decide)
    _ = St2 m ρ c (Proc.devRef .tc main_arg5) := St3_of_ne m ρ c main_arg5 (by decide)
    _ = St1 m ρ c (Proc.devRef .tc main_arg5) := St2_of_ne m ρ c main_arg5 (by decide)
    _ = St0 m ρ c (Proc.devRef .tc main_arg5) := St1_keep m ρ c main_arg5 (by decide)
    _ = m ((c : Thread nD τ).loc main_arg5) := rfl

theorem St6_main_arg6 (c : Dev nD) : St6 m ρ c (Proc.devRef .tc main_arg6) = m ((c : Thread nD τ).loc main_arg6) :=
  calc St6 m ρ c (Proc.devRef .tc main_arg6)
    _ = St5 m ρ c (Proc.devRef .tc main_arg6) := St6_keep m ρ c main_arg6 (by decide)
    _ = St4 m ρ c (Proc.devRef .tc main_arg6) := St5_of_ne m ρ c main_arg6 (by decide)
    _ = St3 m ρ c (Proc.devRef .tc main_arg6) := St4_keep m ρ c main_arg6 (by decide)
    _ = St2 m ρ c (Proc.devRef .tc main_arg6) := St3_of_ne m ρ c main_arg6 (by decide)
    _ = St1 m ρ c (Proc.devRef .tc main_arg6) := St2_of_ne m ρ c main_arg6 (by decide)
    _ = St0 m ρ c (Proc.devRef .tc main_arg6) := St1_keep m ρ c main_arg6 (by decide)
    _ = m ((c : Thread nD τ).loc main_arg6) := rfl

theorem St6_main_arg7 (c : Dev nD) : St6 m ρ c (Proc.devRef .tc main_arg7) = m ((c : Thread nD τ).loc main_arg7) :=
  calc St6 m ρ c (Proc.devRef .tc main_arg7)
    _ = St5 m ρ c (Proc.devRef .tc main_arg7) := St6_keep m ρ c main_arg7 (by decide)
    _ = St4 m ρ c (Proc.devRef .tc main_arg7) := St5_of_ne m ρ c main_arg7 (by decide)
    _ = St3 m ρ c (Proc.devRef .tc main_arg7) := St4_keep m ρ c main_arg7 (by decide)
    _ = St2 m ρ c (Proc.devRef .tc main_arg7) := St3_of_ne m ρ c main_arg7 (by decide)
    _ = St1 m ρ c (Proc.devRef .tc main_arg7) := St2_of_ne m ρ c main_arg7 (by decide)
    _ = St0 m ρ c (Proc.devRef .tc main_arg7) := St1_keep m ρ c main_arg7 (by decide)
    _ = m ((c : Thread nD τ).loc main_arg7) := rfl

theorem St6_main_arg8 (c : Dev nD) : St6 m ρ c (Proc.devRef .tc main_arg8) = m ((c : Thread nD τ).loc main_arg8) :=
  calc St6 m ρ c (Proc.devRef .tc main_arg8)
    _ = St5 m ρ c (Proc.devRef .tc main_arg8) := St6_keep m ρ c main_arg8 (by decide)
    _ = St4 m ρ c (Proc.devRef .tc main_arg8) := St5_of_ne m ρ c main_arg8 (by decide)
    _ = St3 m ρ c (Proc.devRef .tc main_arg8) := St4_keep m ρ c main_arg8 (by decide)
    _ = St2 m ρ c (Proc.devRef .tc main_arg8) := St3_of_ne m ρ c main_arg8 (by decide)
    _ = St1 m ρ c (Proc.devRef .tc main_arg8) := St2_of_ne m ρ c main_arg8 (by decide)
    _ = St0 m ρ c (Proc.devRef .tc main_arg8) := St1_keep m ρ c main_arg8 (by decide)
    _ = m ((c : Thread nD τ).loc main_arg8) := rfl

/-! ## The proof data family and the thread state -/

/-- Every pipeline's proof data, each at its region's entry contents: a literal `match`, so that the family at a
    numeral reduces to that pipeline's data. -/
def pdats : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a pipeline's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents after its operations, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (St6 m ρ c) ∗ ∃ r, prngReg c r)

/-- The last host stretch's exit state is the last thread state beside the core owing nothing. -/
theorem last_link (c : Dev nD) :
    iprop(StableHlo.held (c : Thread nD τ) (Pipeline.ucRefs τ sig) (St6 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

-- a library lemma stated over the pinned configuration unifies with the printed one only when unification may
-- unfold plain definitions in a metavariable's type
set_option backward.isDefEq.respectTransparency.types false in
/-- PIPELINE 0 (the fused projection) over the thread state: entered from every unscoped buffer at `St1`, left at
    `St2`. Its arrays are split out of the unscoped buffers and put back at the exit contents; the generator register
    goes into the class's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (St1 m ρ c) ∗ R c)
  post c := iprop(StableHlo.held (c : Thread nD τ) (Pipeline.ucRefs τ sig) (St2 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun w => A_eq0 (En0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- PIPELINE 1 (the attention core) over the thread state: entered from every unscoped buffer at `St2`, left at `St3`.
    Its invariant carries the accumulator between points; the class's invariant makes it before the first point and
    is given back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (St2 m ρ c) ∗ R c)
  post c := iprop(StableHlo.held (c : Thread nD τ) (Pipeline.ucRefs τ sig) (St3 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun w => A_eq1 (En1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (En1 m ρ) c).Φ 0 from rfl]
    have h := hin1 (En1 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (En1 m ρ) c).Φ (Fin.last cfg1.N) from rfl]
    have h := hout1 (En1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- PIPELINE 2 (the output projection) over the thread state: entered from every unscoped buffer at `St4`, left at
    `St5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ L lv 2 fun _ _ => rfl
  pre c := iprop(StableHlo.held (c : Thread nD τ) (Pipeline.ucRefs τ sig) (St4 m ρ c) ∗ R c)
  post c := iprop(StableHlo.held (c : Thread nD τ) (Pipeline.ucRefs τ sig) (St5 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En2 m ρ c) fun w => A_eq2 (En2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 6 segments in order: a host segment per stretch from its boundary's contents, a region per pipeline. -/
abbrev segs : List (Pipeline.Seg (pcfgs (F := F)) adm (pdats m ρ) () defs₀ 𝒱₀ L lv) :=
  [ .host (hseg hostOps0 hostOps0_sub hostOps0_fresh (St0 m ρ)),
    .region (reg0 m ρ),
    .region (reg1 m ρ),
    .host (hseg hostOps2 hostOps2_sub hostOps2_fresh (St3 m ρ)),
    .region (reg2 m ρ),
    .host (hseg hostOps3 hostOps3_sub hostOps3_fresh (St5 m ρ)) ]
/-- The program IS the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of the program on the
    TensorCores terminates, nothing faulting, and every final state holds each unscoped buffer at the last valuation
    of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ R c)) (Tₙ := Tₙ m ρ)
    (hch := ⟨fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St6 m ρ c b)
    (hfin := fun c s' => by
      iintro ⟨⟨Hh, -⟩, HSI⟩
      unfold StableHlo.held
      imodintro
      iapply (pointsTo_read_all (Pipeline.ucRefs τ sig) (fun b => (((c : Thread nD τ)).1, b)) (St6 m ρ c) s')
      isplitl [Hh] <;> iassumption)
    (hQ := fun _ h => h)

/-- THE FRAME: the program runs (terminates, no fault) and its nine argument arrays end holding their launch contents:
    each argument's buffer is unscoped, so the run's post reads it at the last valuation, which has it as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (St6_main_arg0 m ρ c),
     (h c _ (mem_uc main_arg1 (by decide))).trans (St6_main_arg1 m ρ c),
     (h c _ (mem_uc main_arg2 (by decide))).trans (St6_main_arg2 m ρ c),
     (h c _ (mem_uc main_arg3 (by decide))).trans (St6_main_arg3 m ρ c),
     (h c _ (mem_uc main_arg4 (by decide))).trans (St6_main_arg4 m ρ c),
     (h c _ (mem_uc main_arg5 (by decide))).trans (St6_main_arg5 m ρ c),
     (h c _ (mem_uc main_arg6 (by decide))).trans (St6_main_arg6 m ρ c),
     (h c _ (mem_uc main_arg7 (by decide))).trans (St6_main_arg7 m ρ c),
     (h c _ (mem_uc main_arg8 (by decide))).trans (St6_main_arg8 m ρ c)⟩) (run_all m ρ)

end Cert.Kernel.Hand

end
-- ==== Proof.KIReg0.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: the fused q, k, v projection (pipeline 0), at the entry contents `V`

Ten windows: the activation block (window 0), then a weight block and a bias row for each of q, k, v
(windows 1–6), then the three projected outputs (windows 7, 8, 9). At each grid point the body reads the
seven input blocks whole and stores each output block whole, once: `x ↦ bf16 (bf16 x · w + b)`. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (it is fetched only where the last grid coordinate is 0), for ANY
    proof data whose array is `V`'s (`hA`) and whose body leaves the block in place (`hafter`): where the window
    is not fetched its block index has not moved, so the block already staged is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY
    proof data whose array is `V`'s (`hA`) and whose body leaves the block in place (`hafter`): where the window
    is not fetched its block index has not moved, so the block already staged is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY
    proof data whose array is `V`'s (`hA`) and whose body leaves the block in place (`hafter`): where the window
    is not fetched its block index has not moved, so the block already staged is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY
    proof data whose array is `V`'s (`hA`) and whose body leaves the block in place (`hafter`): where the window
    is not fetched its block index has not moved, so the block already staged is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY
    proof data whose array is `V`'s (`hA`) and whose body leaves the block in place (`hafter`): where the window
    is not fetched its block index has not moved, so the block already staged is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY
    proof data whose array is `V`'s (`hA`) and whose body leaves the block in place (`hafter`): where the window
    is not fetched its block index has not moved, so the block already staged is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY
    proof data whose array is `V`'s (`hA`) and whose body leaves the block in place (`hafter`): where the window
    is not fetched its block index has not moved, so the block already staged is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of each block shape: every load and store of the body is of a whole staging buffer. -/
abbrev r0_x : Rect S1x1024x1024 := Rect.unit (s := S1x1024x1024) ![0, 0, 0] S1x1024x1024.size inb_S1x1024x1024_S1x1024x1024_0_0_0
abbrev r0_w : Rect S1024x128 := Rect.unit (s := S1024x128) ![0, 0] S1024x128.size inb_S1024x128_S1024x128_0_0
abbrev r0_b : Rect S1x128 := Rect.unit (s := S1x128) ![0, 0] S1x128.size inb_S1x128_S1x128_0_0
abbrev r0_o : Rect S1x1x1024x128 := Rect.unit (s := S1x1x1024x128) ![0, 0, 0, 0] S1x1x1024x128.size inb_S1x1x1024x128_S1x1x1024x128_0_0_0_0

/-! ## What the body leaves in each output window's buffer -/

/-- Window 7's staging buffer after the body (the q projection), from the activation block, q's weight block and
    q's bias row: its one whole store, the payload the skeleton's. -/
def out0_7 (x0 : Vec F S1x1024x1024 .f32) (x1 : Vec F S1024x128 .bf16) (x2 : Vec F S1x128 .f32) : Vec F S1x1x1024x128 .bf16 :=
  View.canon [⟨r0_o, k0_pay3 (View.ld x0 r0_x) (View.ld x1 r0_w) (View.ld x2 r0_b)⟩]

/-- Window 8's staging buffer after the body (the k projection), from the activation block, k's weight block and
    k's bias row. -/
def out0_8 (x0 : Vec F S1x1024x1024 .f32) (x3 : Vec F S1024x128 .bf16) (x4 : Vec F S1x128 .f32) : Vec F S1x1x1024x128 .bf16 :=
  View.canon [⟨r0_o, k0_pay4 (View.ld x0 r0_x) (View.ld x3 r0_w) (View.ld x4 r0_b)⟩]

/-- Window 9's staging buffer after the body (the v projection), from the activation block, v's weight block and
    v's bias row: the product is formed in the body's first part, the bias added and the result rounded after it. -/
def out0_9 (x0 : Vec F S1x1024x1024 .f32) (x5 : Vec F S1024x128 .bf16) (x6 : Vec F S1x128 .f32) : Vec F S1x1x1024x128 .bf16 :=
  View.canon [⟨r0_o, k0_pay1 (k0_pay5 (View.ld x0 r0_x) (View.ld x5 r0_w)) (View.ld x6 r0_b)⟩]

/-- A single whole store tiles the buffer (checked by evaluation), so it covers it. -/
theorem cover0_7 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y
theorem cover0_8 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y
theorem cover0_9 (p0 : Vec F S1x1x1024x128 .bf16) (y : S1x1x1024x128.Idx) :
    ∃ pc ∈ ([⟨r0_o, p0⟩] : List (View.Piece (Elt F) S1x1x1024x128 .bf16)), y ∈ pc.1.set :=
  View.cover_of_tiled [⟨r0_o, p0⟩] S1x1x1024x128.size (by rfl) y

/-! ## The body's triple -/

set_option maxHeartbeats 4000000 in
/-- The kernel body on whole staging memrefs, the inputs' at read contents `xW` and the outputs' at anything, runs to
    the continuation holding the inputs' as they were and each output's at `out0_W` of the inputs it is computed
    from. The grid point `i` is not read. -/
theorem sound_kernel0 (c : Dev nD) (E : Set ℕ) (i : grid0.Coords)
    (arg3 : Memref sig .tc .vmem S1x1024x1024 .f32) (harg3 : arg3.IsWhole)
    (arg4 : Memref sig .tc .vmem S1024x128 .bf16) (harg4 : arg4.IsWhole) (arg5 : Memref sig .tc .vmem S1x128 .f32) (harg5 : arg5.IsWhole)
    (arg6 : Memref sig .tc .vmem S1024x128 .bf16) (harg6 : arg6.IsWhole) (arg7 : Memref sig .tc .vmem S1x128 .f32) (harg7 : arg7.IsWhole)
    (arg8 : Memref sig .tc .vmem S1024x128 .bf16) (harg8 : arg8.IsWhole) (arg9 : Memref sig .tc .vmem S1x128 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x128 .bf16) (harg12 : arg12.IsWhole)
    (x0 : Vec F S1x1024x1024 .f32) (x1 : Vec F S1024x128 .bf16) (x2 : Vec F S1x128 .f32) (x3 : Vec F S1024x128 .bf16) (x4 : Vec F S1x128 .f32)
    (x5 : Vec F S1024x128 .bf16) (x6 : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (out0_7 x0 x1 x2) ∗ owns (c : Thread nD τ) arg11 fullShare (out0_8 x0 x3 x4)
            ∗ owns (c : Thread nD τ) arg12 fullShare (out0_9 x0 x5 x6)) -∗ K ⟨⟩))
      ⊢ wp frame (wpE (defs₀ (F := F)) Variants.none c none) E
          (cc0__qkv_kernel i arg3 harg3 arg4 harg4 arg5 harg5 arg6 harg6 arg7 harg7 arg8 harg8 arg9 harg9 arg10 harg10 arg11 harg11 arg12 harg12) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and each output's at `out0_W` of the input blocks it is computed from;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIReg1.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! # Region 1: the attention core on its grid of 128 points -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, for any proof data over the entry contents whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (fetched only where its block index moves) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes at a point -/

/-- The value the body adds to the accumulator at a point: the two heads' attention outputs side by side, each
    the softmax (over the key axis) of the scaled scores times the value block's half. -/
def contrib1 (xq : Vec F S1x1x512x128 .bf16) (xk : Vec F S1x1x2048x128 .bf16) (xv : Vec F S1x1x512x128 .bf16) : Vec F S2048x128 .f32 :=
  concatenate S2048x128 1
    [⟨S2048x64, k1_pay7 xq xk xv⟩,
     ⟨S2048x64,
        matmul dot_S2048x512_S512x64_S2048x64_1_0_0_1_n_n none
          (truncf .bf16
            (divf (exp (subf (k1_pay9 xq xk) (broadcastTo S2048x512 (k1_pay10 xq xk) broadcasts_S1x512_S2048x512)))
              (broadcastTo S2048x512
                (shapeCast S1x512
                  (multiReduction .add [0] S512
                    (exp (subf (k1_pay9 xq xk) (broadcastTo S2048x512 (k1_pay10 xq xk) broadcasts_S1x512_S2048x512)))
                    0x00000000#32 reduces_S2048x512_S512 (.inl rfl) rfl)
                  shapeCasts_S512_S1x512)
                broadcasts_S1x512_S2048x512))
            bitsLt_bf16_f32)
          (k1_pay8 xv) (constant S2048x64 .f32 0x00000000#32)⟩]
    concatenates_S2048x64_S2048x64_S2048x128_d1

/-- The accumulator after the body's one accumulating store, from what it held before: the skeleton's payload at
    the blocks' payloads. -/
def step1 (acc : Vec F S2048x128 .f32) (xq : Vec F S1x1x512x128 .bf16) (xk : Vec F S1x1x2048x128 .bf16) (xv : Vec F S1x1x512x128 .bf16) : Vec F S2048x128 .f32 :=
  k1_pay1 (k1_pay7 xq xk xv) (k1_pay8 xv) (k1_pay9 xq xk) (k1_pay10 xq xk) acc

/-- The accumulating store adds the point's contribution (the same-shape cast around the sum is the identity). -/
theorem step1_eq (acc : Vec F S2048x128 .f32) (xq : Vec F S1x1x512x128 .bf16) (xk : Vec F S1x1x2048x128 .bf16) (xv : Vec F S1x1x512x128 .bf16) :
    step1 acc xq xk xv = addf acc (contrib1 xq xk xv) :=
  shapeCast_self (addf acc (contrib1 xq xk xv)) shapeCasts_S2048x128_S2048x128

/-- The accumulator's contents after point `n`: reset to zero where the last grid coordinate is 0, then this
    point's contribution added to what the point before left. -/
def accAt1 (c : Dev nD) : (n : ℕ) → n < cfg1.N → Vec F S2048x128 .f32
  | 0, hn => step1 (k1_pay3 (F := F)) (iblk1 V c 0 ⟨0, hn⟩) (iblk1 V c 1 ⟨0, hn⟩) (iblk1 V c 2 ⟨0, hn⟩)
  | n + 1, hn =>
    if (n + 1) % 4 = 0 then
      step1 (k1_pay3 (F := F)) (iblk1 V c 0 ⟨n + 1, hn⟩) (iblk1 V c 1 ⟨n + 1, hn⟩) (iblk1 V c 2 ⟨n + 1, hn⟩)
    else
      step1 (accAt1 c n (Nat.lt_of_succ_lt hn)) (iblk1 V c 0 ⟨n + 1, hn⟩) (iblk1 V c 1 ⟨n + 1, hn⟩) (iblk1 V c 2 ⟨n + 1, hn⟩)

/-- `accAt1` at a point where the accumulator is reset, as one step from zero. -/
theorem accAt1_reset (c : Dev nD) (n : ℕ) (hn : n < cfg1.N) (h0 : n % 4 = 0) :
    accAt1 V c n hn = step1 (k1_pay3 (F := F)) (iblk1 V c 0 ⟨n, hn⟩) (iblk1 V c 1 ⟨n, hn⟩) (iblk1 V c 2 ⟨n, hn⟩) := by
  cases n with
  | zero => rfl
  | succ n => exact if_pos h0

/-- `accAt1` at any other point, as one step from what the point before left. -/
theorem accAt1_step (c : Dev nD) (n : ℕ) (hn : n < cfg1.N) (h0 : n % 4 ≠ 0) :
    accAt1 V c n hn = step1 (accAt1 V c (n - 1) (Nat.lt_of_le_of_lt (Nat.sub_le _ _) hn))
      (iblk1 V c 0 ⟨n, hn⟩) (iblk1 V c 1 ⟨n, hn⟩) (iblk1 V c 2 ⟨n, hn⟩) := by
  cases n with
  | zero => exact absurd (Nat.zero_mod _) h0
  | succ n => exact if_neg h0

/-- At a point where the accumulator is reset: zero plus the point's contribution. -/
theorem accAt1_zero (c : Dev nD) (n : ℕ) (hn : n < cfg1.N) (h0 : n % 4 = 0) :
    accAt1 V c n hn = addf (k1_pay3 (F := F)) (contrib1 (iblk1 V c 0 ⟨n, hn⟩) (iblk1 V c 1 ⟨n, hn⟩) (iblk1 V c 2 ⟨n, hn⟩)) :=
  (accAt1_reset V c n hn h0).trans (step1_eq _ _ _ _)

/-- At any other point: what the point before left plus the point's contribution. -/
theorem accAt1_succ (c : Dev nD) (n : ℕ) (hn : n < cfg1.N) (h0 : n % 4 ≠ 0) :
    accAt1 V c n hn = addf (accAt1 V c (n - 1) (Nat.lt_of_le_of_lt (Nat.sub_le _ _) hn))
      (contrib1 (iblk1 V c 0 ⟨n, hn⟩) (iblk1 V c 1 ⟨n, hn⟩) (iblk1 V c 2 ⟨n, hn⟩)) :=
  (accAt1_step V c n hn h0).trans (step1_eq _ _ _ _)

/-- What the body stores into the output buffer where it stores it: the accumulator rounded to bf16, as a block. -/
def out1_3 (acc : Vec F S2048x128 .f32) : Vec F S1x1x2048x128 .bf16 :=
  k1_pay2 acc

theorem out1_3_eq (acc : Vec F S2048x128 .f32) :
    out1_3 acc = shapeCast S1x1x2048x128 (truncf .bf16 acc bitsLt_bf16_f32) shapeCasts_S2048x128_S1x1x2048x128 := rfl

/-! ## The invariant: the accumulator carried between points -/

/-- The accumulator, the kernel's own scoped buffer, as a whole memref. -/
abbrev scM1 : Memref sig .tc .vmem S2048x128 .f32 := Memref.whole cc1_scratch0

/-- The class's invariant with the accumulator split off as a memref owned at some contents. -/
theorem PhiA1_eq (c : Dev nD) :
    (Pipeline.ΦA spec1 c : sProp 𝕄)
      = iprop(iprop(iprop(∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- The region invariant before position `n`: before the first point the class's; afterwards the accumulator at
    what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The proof data of pipeline 1 on core `c`: the arrays as the region finds them; after the body at point `t`
    each input's buffer at its block and the output's at the accumulator after `t`, rounded; the invariant carries
    the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- `accAt1` at a point of the grid where the accumulator is reset. -/
theorem accAt1_A (c : Dev nD) (t : Fin cfg1.N) (h0 : t.val % 4 = 0) :
    accAt1 V c t.val t.isLt = step1 (k1_pay3 (F := F)) (iblk1 V c 0 t) (iblk1 V c 1 t) (iblk1 V c 2 t) :=
  accAt1_reset V c t.val t.isLt h0

/-- `accAt1` at any other point of the grid. -/
theorem accAt1_B (c : Dev nD) (t : Fin cfg1.N) (h0 : ¬t.val % 4 = 0) :
    accAt1 V c t.val t.isLt = step1 (accAt1 V c (t.val - 1) (Nat.lt_of_le_of_lt (Nat.sub_le _ _) t.isLt))
      (iblk1 V c 0 t) (iblk1 V c 1 t) (iblk1 V c 2 t) :=
  accAt1_step V c t.val t.isLt h0

/-! ## The body's branch conditions, and where the output window is idle -/

/-- The condition of the body's first conditional (the reset), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the output's store). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output its window is idle and not written back; where it does, live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The kernel body on any whole staging memrefs, case by case -/

theorem hz2 : (![0, 0] : Fin 2 → Nat) = fun _ => 0 := funext fun a => by fin_cases a <;> rfl
theorem hz4 : (![0, 0, 0, 0] : Fin 4 → Nat) = fun _ => 0 := funext fun a => by fin_cases a <;> rfl

set_option maxHeartbeats 1000000 in
/-- Where the accumulator is reset and the output not stored: the body zeroes the accumulator, reads the zero back,
    adds the point's contribution; the inputs' and the output's buffers are handed back as found. -/
theorem kernelRun1_A (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : cond1_0 i) (hc1 : ¬cond1_1 i)
    (xq : Vec F S1x1x512x128 .bf16) (xk : Vec F S1x1x2048x128 .bf16) (xv : Vec F S1x1x512x128 .bf16) (xi : Vec F S1x1x2048x128 .bf16)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xi ∗ (∃ d, owns (c : Thread nD τ) arg7 fullShare d)
        ∗ (iprop(owns (c : Thread nD τ) arg3 fullShare xq ∗ owns (c : Thread nD τ) arg4 fullShare xk ∗ owns (c : Thread nD τ) arg5 fullShare xv
            ∗ owns (c : Thread nD τ) arg6 fullShare xi ∗ owns (c : Thread nD τ) arg7 fullShare (step1 (k1_pay3 (F := F)) xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  rw [View.readCov_unit_zero _ hz2]
  simp only [View.readAt_eq_ld, harg3.read_unread, harg4.read_unread, harg5.read_unread, View.ld_unit_zero (S := S1x1x512x128) hz4, View.ld_unit_zero (S := S1x1x2048x128) hz4]
  try rfl

set_option maxHeartbeats 1000000 in
/-- Where neither conditional is taken: the body adds the point's contribution to what the accumulator held. -/
theorem kernelRun1_B (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : ¬cond1_0 i) (hc1 : ¬cond1_1 i)
    (xq : Vec F S1x1x512x128 .bf16) (xk : Vec F S1x1x2048x128 .bf16) (xv : Vec F S1x1x512x128 .bf16) (xi : Vec F S1x1x2048x128 .bf16) (acc : Vec F S2048x128 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xi ∗ owns (c : Thread nD τ) arg7 fullShare acc
        ∗ (iprop(owns (c : Thread nD τ) arg3 fullShare xq ∗ owns (c : Thread nD τ) arg4 fullShare xk ∗ owns (c : Thread nD τ) arg5 fullShare xv
            ∗ owns (c : Thread nD τ) arg6 fullShare xi ∗ owns (c : Thread nD τ) arg7 fullShare (step1 acc xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  simp only [View.readAt_eq_ld, harg3.read_unread, harg4.read_unread, harg5.read_unread, harg7.read_unread, View.ld_unit_zero (S := S1x1x512x128) hz4, View.ld_unit_zero (S := S1x1x2048x128) hz4, View.ld_unit_zero (S := S2048x128) hz2]
  try rfl

set_option maxHeartbeats 1000000 in
/-- Where the output is stored: the body adds the point's contribution to what the accumulator held, reads the sum
    back and stores it, rounded, over the whole output buffer. -/
theorem kernelRun1_C (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x2048x128 .bf16) (harg6 : arg6.IsWhole) (arg7 : Memref sig .tc .vmem S2048x128 .f32) (harg7 : arg7.IsWhole)
    (hc0 : ¬cond1_0 i) (hc1 : cond1_1 i)
    (xq : Vec F S1x1x512x128 .bf16) (xk : Vec F S1x1x2048x128 .bf16) (xv : Vec F S1x1x512x128 .bf16) (acc : Vec F S2048x128 .f32)
    (E : Set ℕ) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ owns (c : Thread nD τ) arg7 fullShare acc
        ∗ (iprop(owns (c : Thread nD τ) arg3 fullShare xq ∗ owns (c : Thread nD τ) arg4 fullShare xk ∗ owns (c : Thread nD τ) arg5 fullShare xv
            ∗ owns (c : Thread nD τ) arg6 fullShare (out1_3 (step1 acc xq xk xv)) ∗ owns (c : Thread nD τ) arg7 fullShare (step1 acc xq xk xv)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hacc : k1_pay1 (F := F)
      (k1_pay7 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk))
        (View.readAt (Elt F) arg5.view (Rect.unit ![0, 0, 0, 0] S1x1x512x128.size inb_S1x1x512x128_S1x1x512x128_0_0_0_0).toLoadRect (harg5.unread xv)))
      (k1_pay8 (View.readAt (Elt F) arg5.view (Rect.unit ![0, 0, 0, 0] S1x1x512x128.size inb_S1x1x512x128_S1x1x512x128_0_0_0_0).toLoadRect (harg5.unread xv)))
      (k1_pay9 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk)))
      (k1_pay10 (View.readAt (Elt F) arg3.view (Rect.unit ![0, 0, 0, 0] S1x1x512x128.size inb_S1x1x512x128_S1x1x512x128_0_0_0_0).toLoadRect (harg3.unread xq))
        (View.readAt (Elt F) arg4.view (Rect.unit ![0, 0, 0, 0] S1x1x2048x128.size inb_S1x1x2048x128_S1x1x2048x128_0_0_0_0).toLoadRect (harg4.unread xk)))
      (View.readAt (Elt F) arg7.view (Rect.unit ![0, 0] S2048x128.size inb_S2048x128_S2048x128_0_0).toLoadRect (harg7.unread acc))
      = step1 acc xq xk xv := by
    simp only [View.readAt_eq_ld, harg3.read_unread, harg4.read_unread, harg5.read_unread, harg7.read_unread, View.ld_unit_zero (S := S1x1x512x128) hz4, View.ld_unit_zero (S := S1x1x2048x128) hz4, View.ld_unit_zero (S := S2048x128) hz2]
    try rfl
  isplitl [H6]
  · iexists _; isplitr
    swap; · iexact H6
    ipureintro
    sl_unfold_words
    rw [View.read_writes_eq_canon _ _ _ (fun y => ⟨_, List.Mem.head _, View.mem_set_unit_zero hz4 inb_S1x1x2048x128_S1x1x2048x128_0_0_0_0 y⟩)]
    rw [View.canon_cons_unit_zero hz4]
    rw [View.readCov_unit_zero _ hz2, hacc]
    try rfl
  iexists _; isplitr
  swap; · iexact H7
  ipureintro
  sl_unfold_words
  rw [View.read_writes_eq_canon _ _ _ (fun y => ⟨_, List.Mem.head _, View.mem_set_unit_zero hz2 inb_S2048x128_S2048x128_0_0 y⟩)]
  rw [View.canon_cons_unit_zero hz2]
  exact hacc

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position along the last grid axis says
    which case it is in; the invariant hands the body the accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_A V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [accAt1_B V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt1_B V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (kernelRun1_B c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.KIReg2.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of the program: the linear output projection, at the entry contents `V`

The third pipeline (grid of 8 points) multiplies a block of 1024 rows of the activations by the whole weight matrix and
adds the bias row. Its body loads its three input blocks whole, computes, and stores the output block whole once: what
it leaves in the output buffer is a closed function of the three input blocks at the point. This module states that
function, proves the body's triple, and packages the per-point obligation of the pipeline. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight matrix) is fetched at the first point only; its block index never moves, so its
    buffer holds the same block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole bias row) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024×1024 buffer as one rectangle. -/
abbrev r2_0 : Rect S1024x1024 := Rect.unit (s := S1024x1024) ![0, 0] S1024x1024.size inb_S1024x1024_S1024x1024_0_0
/-- The whole 1×1024 buffer as one rectangle. -/
abbrev r2_1 : Rect S1x1024 := Rect.unit (s := S1x1024) ![0, 0] S1x1024.size inb_S1x1024_S1x1024_0_0

/-! ## What the body leaves in the output window's buffer -/

/-- Window 3's staging buffer after the body, from the input windows' blocks: its one store as one piece, the
    payload being the matrix product of the row block and the weights plus the broadcast bias. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

/-- The one store tiles the buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. The body also reads
    the output buffer before overwriting it whole; the value read is never used. -/
theorem sound_kernel2 (c : Dev nD) (E : Set ℕ) (i : grid2.Coords)
    (arg0 : Memref sig .tc .vmem S1024x1024 .bf16) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIRun.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import proofs.«403051_j18691697672859_3_alg».proof.Proof.Gen.KernelIdeal.Regions
import proofs.«403051_j18691697672859_3_alg».proof.Proof.KIReg0
import proofs.«403051_j18691697672859_3_alg».proof.Proof.KIReg1
import proofs.«403051_j18691697672859_3_alg».proof.Proof.KIReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the program: its six items from the launch to the return

The program is a stretch of seven host operations (four conversions of the weight matrices and three reshapes of the
bias rows), the fused projection (pipeline 0), the attention core (pipeline 1) entered directly after it, a stretch of
three host operations (a transposition and two reshapes), the output projection (pipeline 2) and a last reshape. This
module folds the contents of every unscoped buffer through these six items: a host stretch maps a valuation to the
valuation after its operations, a pipeline replaces its windows' arrays by what its write-backs leave and keeps every
other buffer. Each pipeline's proof data are taken at the contents its region is entered with. Over this fold the three
regions are stated as segments between thread states "every unscoped buffer whole at the boundary's contents, the
generator register at some state, nothing owed", the program is shown to be the run of its segments, and the launch
theorem gives: every weakly fair execution terminates and every final memory holds each unscoped buffer at the last
valuation of the fold. No item writes an argument array, so the arguments end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through the program -/

/-- Core `c`'s buffers at launch. -/
abbrev St0 : Dev nD → Valuation τ sig (Elt F) := fun c b => (s₀ m ρ).mem ((c : Dev nD), b)
/-- After the first host stretch (pipeline 0's entry). -/
abbrev St1 : Dev nD → Valuation τ sig (Elt F) := fun c => StableHlo.after hostOps0 (St0 m ρ c)
/-- The same read at the TensorCore's references (what pipeline 0's proof data take). -/
abbrev En0 : (c : Dev nD) → (b : Ref sig .tc) → Buf (Elt F) ((c : Thread nD τ).loc b) := fun c b => St1 m ρ c b

/-- At pipeline 0's exit: its arrays at what the pipeline leaves (the inputs as entered, each output's write-backs
    folded), every other buffer as entered. -/
def St2 (c : Dev nD) : Valuation τ sig (Elt F) :=
  Pipeline.withArrays spec0 c (St1 m ρ c) fun w => (dat0 (En0 m ρ) c).arrAt w cfg0.N
theorem St2_arr (c : Dev nD) (w : Fin cfg0.W) :
    St2 m ρ c (Proc.devRef .tc (Pipeline.arrRef spec0 w)) = (dat0 (En0 m ρ) c).arrAt w cfg0.N := by
  unfold St2; exact Pipeline.withArrays_arr spec0 launch0.win.arr_inj c _ _ w
theorem St2_of_ne (c : Dev nD) (b : Ref sig .tc) (hb : ∀ w, Pipeline.arrRef spec0 w ≠ b) :
    St2 m ρ c (Proc.devRef .tc b) = St1 m ρ c (Proc.devRef .tc b) := by
  unfold St2; exact Pipeline.withArrays_of_ne spec0 c _ _ b hb
/-- The same read at the TensorCore's references (pipeline 0's exit contents). -/
abbrev Ex0 : (c : Dev nD) → (b : Ref sig .tc) → Buf (Elt F) ((c : Thread nD τ).loc b) := fun c b => St2 m ρ c b
/-- At pipeline 0's exit each of its arrays holds what the pipeline leaves and every other buffer what it held at
    entry. -/
theorem hF0 (c : Dev nD) (w : Fin cfg0.W) : (dat0 (En0 m ρ) c).arrAt w cfg0.N = Ex0 m ρ c (Pipeline.arrRef spec0 w) :=
  (St2_arr m ρ c w).symm
theorem hrest0 (c : Dev nD) : ∀ b, b ∉ Finset.univ.image (Pipeline.arrRef spec0) → Ex0 m ρ c b = En0 m ρ c b :=
  fun b hb => St2_of_ne m ρ c b fun w e => hb (Finset.mem_image.mpr ⟨w, Finset.mem_univ _, e⟩)

/-- Pipeline 1 is entered directly after pipeline 0: its entry contents are pipeline 0's exit contents. -/
abbrev En1 : (c : Dev nD) → (b : Ref sig .tc) → Buf (Elt F) ((c : Thread nD τ).loc b) := fun c b => St2 m ρ c b

/-- At pipeline 1's exit: its arrays at what the pipeline leaves (the inputs as entered, each output's write-backs
    folded), every other buffer as entered. -/
def St3 (c : Dev nD) : Valuation τ sig (Elt F) :=
  Pipeline.withArrays spec1 c (St2 m ρ c) fun w => (dat1 (En1 m ρ) c).arrAt w cfg1.N
theorem St3_arr (c : Dev nD) (w : Fin cfg1.W) :
    St3 m ρ c (Proc.devRef .tc (Pipeline.arrRef spec1 w)) = (dat1 (En1 m ρ) c).arrAt w cfg1.N := by
  unfold St3; exact Pipeline.withArrays_arr spec1 launch1.win.arr_inj c _ _ w
theorem St3_of_ne (c : Dev nD) (b : Ref sig .tc) (hb : ∀ w, Pipeline.arrRef spec1 w ≠ b) :
    St3 m ρ c (Proc.devRef .tc b) = St2 m ρ c (Proc.devRef .tc b) := by
  unfold St3; exact Pipeline.withArrays_of_ne spec1 c _ _ b hb
/-- The same read at the TensorCore's references (pipeline 1's exit contents). -/
abbrev Ex1 : (c : Dev nD) → (b : Ref sig .tc) → Buf (Elt F) ((c : Thread nD τ).loc b) := fun c b => St3 m ρ c b
/-- At pipeline 1's exit each of its arrays holds what the pipeline leaves and every other buffer what it held at
    entry. -/
theorem hF1 (c : Dev nD) (w : Fin cfg1.W) : (dat1 (En1 m ρ) c).arrAt w cfg1.N = Ex1 m ρ c (Pipeline.arrRef spec1 w) :=
  (St3_arr m ρ c w).symm
theorem hrest1 (c : Dev nD) : ∀ b, b ∉ Finset.univ.image (Pipeline.arrRef spec1) → Ex1 m ρ c b = En1 m ρ c b :=
  fun b hb => St3_of_ne m ρ c b fun w e => hb (Finset.mem_image.mpr ⟨w, Finset.mem_univ _, e⟩)

/-- After the second host stretch (pipeline 2's entry). -/
abbrev St4 : Dev nD → Valuation τ sig (Elt F) := fun c => StableHlo.after hostOps2 (St3 m ρ c)
/-- The same read at the TensorCore's references (what pipeline 2's proof data take). -/
abbrev En2 : (c : Dev nD) → (b : Ref sig .tc) → Buf (Elt F) ((c : Thread nD τ).loc b) := fun c b => St4 m ρ c b

/-- At pipeline 2's exit: its arrays at what the pipeline leaves (the inputs as entered, each output's write-backs
    folded), every other buffer as entered. -/
def St5 (c : Dev nD) : Valuation τ sig (Elt F) :=
  Pipeline.withArrays spec2 c (St4 m ρ c) fun w => (dat2 (En2 m ρ) c).arrAt w cfg2.N
theorem St5_arr (c : Dev nD) (w : Fin cfg2.W) :
    St5 m ρ c (Proc.devRef .tc (Pipeline.arrRef spec2 w)) = (dat2 (En2 m ρ) c).arrAt w cfg2.N := by
  unfold St5; exact Pipeline.withArrays_arr spec2 launch2.win.arr_inj c _ _ w
theorem St5_of_ne (c : Dev nD) (b : Ref sig .tc) (hb : ∀ w, Pipeline.arrRef spec2 w ≠ b) :
    St5 m ρ c (Proc.devRef .tc b) = St4 m ρ c (Proc.devRef .tc b) := by
  unfold St5; exact Pipeline.withArrays_of_ne spec2 c _ _ b hb
/-- The same read at the TensorCore's references (pipeline 2's exit contents). -/
abbrev Ex2 : (c : Dev nD) → (b : Ref sig .tc) → Buf (Elt F) ((c : Thread nD τ).loc b) := fun c b => St5 m ρ c b
/-- At pipeline 2's exit each of its arrays holds what the pipeline leaves and every other buffer what it held at
    entry. -/
theorem hF2 (c : Dev nD) (w : Fin cfg2.W) : (dat2 (En2 m ρ) c).arrAt w cfg2.N = Ex2 m ρ c (Pipeline.arrRef spec2 w) :=
  (St5_arr m ρ c w).symm
theorem hrest2 (c : Dev nD) : ∀ b, b ∉ Finset.univ.image (Pipeline.arrRef spec2) → Ex2 m ρ c b = En2 m ρ c b :=
  fun b hb => St5_of_ne m ρ c b fun w e => hb (Finset.mem_image.mpr ⟨w, Finset.mem_univ _, e⟩)

/-- After the last host stretch: what the program returns with. -/
abbrev St6 : Dev nD → Valuation τ sig (Elt F) := fun c => StableHlo.after hostOps3 (St5 m ρ c)

/-! ### What a host stretch keeps: a reference none of its operations writes -/

theorem St1_keep (c : Dev nD) (r : Ref sig .tc) (h : r ∉ hostOps0_W) :
    St1 m ρ c (Proc.devRef .tc r) = St0 m ρ c (Proc.devRef .tc r) :=
  StableHlo.after_of_writes_sub hostOps0 _ hostOps0_writes h
theorem St4_keep (c : Dev nD) (r : Ref sig .tc) (h : r ∉ hostOps2_W) :
    St4 m ρ c (Proc.devRef .tc r) = St3 m ρ c (Proc.devRef .tc r) :=
  StableHlo.after_of_writes_sub hostOps2 _ hostOps2_writes h
theorem St6_keep (c : Dev nD) (r : Ref sig .tc) (h : r ∉ hostOps3_W) :
    St6 m ρ c (Proc.devRef .tc r) = St5 m ρ c (Proc.devRef .tc r) :=
  StableHlo.after_of_writes_sub hostOps3 _ hostOps3_writes h

/-! ### The arguments end as launched: no host operation writes one, and a pipeline reads the first through an input
    window and bypasses the others, so the fold at an argument's buffer walks back to the launch memory -/

theorem St6_main_arg0 (c : Dev nD) : St6 m ρ c (Proc.devRef .tc main_arg0) = m ((c : Thread nD τ).loc main_arg0) :=
  calc St6 m ρ c (Proc.devRef .tc main_arg0)
    _ = St5 m ρ c (Proc.devRef .tc main_arg0) := St6_keep m ρ c main_arg0 (by decide)
    _ = St4 m ρ c (Proc.devRef .tc main_arg0) := St5_of_ne m ρ c main_arg0 (by decide)
    _ = St3 m ρ c (Proc.devRef .tc main_arg0) := St4_keep m ρ c main_arg0 (by decide)
    _ = St2 m ρ c (Proc.devRef .tc main_arg0) := St3_of_ne m ρ c main_arg0 (by decide)
    _ = St1 m ρ c (Proc.devRef .tc main_arg0) := (St2_arr m ρ c 0).trans (((dat0 (En0 m ρ) c).arrAt_in 0 rfl _).trans (A_eq0 (En0 m ρ) c 0))
    _ = St0 m ρ c (Proc.devRef .tc main_arg0) := St1_keep m ρ c main_arg0 (by decide)
    _ = m ((c : Thread nD τ).loc main_arg0) := rfl

theorem St6_main_arg1 (c : Dev nD) : St6 m ρ c (Proc.devRef .tc main_arg1) = m ((c : Thread nD τ).loc main_arg1) :=
  calc St6 m ρ c (Proc.devRef .tc main_arg1)
    _ = St5 m ρ c (Proc.devRef .tc main_arg1) := St6_keep m ρ c main_arg1 (by decide)
    _ = St4 m ρ c (Proc.devRef .tc main_arg1) := St5_of_ne m ρ c main_arg1 (by decide)
    _ = St3 m ρ c (Proc.devRef .tc main_arg1) := St4_keep m ρ c main_arg1 (by decide)
    _ = St2 m ρ c (Proc.devRef .tc main_arg1) := St3_of_ne m ρ c main_arg1 (by decide)
    _ = St1 m ρ c (Proc.devRef .tc main_arg1) := St2_of_ne m ρ c main_arg1 (by decide)
    _ = St0 m ρ c (Proc.devRef .tc main_arg1) := St1_keep m ρ c main_arg1 (by decide)
    _ = m ((c : Thread nD τ).loc main_arg1) := rfl

theorem St6_main_arg2 (c : Dev nD) : St6 m ρ c (Proc.devRef .tc main_arg2) = m ((c : Thread nD τ).loc main_arg2) :=
  calc St6 m ρ c (Proc.devRef .tc main_arg2)
    _ = St5 m ρ c (Proc.devRef .tc main_arg2) := St6_keep m ρ c main_arg2 (by decide)
    _ = St4 m ρ c (Proc.devRef .tc main_arg2) := St5_of_ne m ρ c main_arg2 (by decide)
    _ = St3 m ρ c (Proc.devRef .tc main_arg2) := St4_keep m ρ c main_arg2 (by decide)
    _ = St2 m ρ c (Proc.devRef .tc main_arg2) := St3_of_ne m ρ c main_arg2 (by decide)
    _ = St1 m ρ c (Proc.devRef .tc main_arg2) := St2_of_ne m ρ c main_arg2 (by decide)
    _ = St0 m ρ c (Proc.devRef .tc main_arg2) := St1_keep m ρ c main_arg2 (by decide)
    _ = m ((c : Thread nD τ).loc main_arg2) := rfl

theorem St6_main_arg3 (c : Dev nD) : St6 m ρ c (Proc.devRef .tc main_arg3) = m ((c : Thread nD τ).loc main_arg3) :=
  calc St6 m ρ c (Proc.devRef .tc main_arg3)
    _ = St5 m ρ c (Proc.devRef .tc main_arg3) := St6_keep m ρ c main_arg3 (by decide)
    _ = St4 m ρ c (Proc.devRef .tc main_arg3) := St5_of_ne m ρ c main_arg3 (by decide)
    _ = St3 m ρ c (Proc.devRef .tc main_arg3) := St4_keep m ρ c main_arg3 (by decide)
    _ = St2 m ρ c (Proc.devRef .tc main_arg3) := St3_of_ne m ρ c main_arg3 (by decide)
    _ = St1 m ρ c (Proc.devRef .tc main_arg3) := St2_of_ne m ρ c main_arg3 (by decide)
    _ = St0 m ρ c (Proc.devRef .tc main_arg3) := St1_keep m ρ c main_arg3 (by decide)
    _ = m ((c : Thread nD τ).loc main_arg3) := rfl

theorem St6_main_arg4 (c : Dev nD) : St6 m ρ c (Proc.devRef .tc main_arg4) = m ((c : Thread nD τ).loc main_arg4) :=
  calc St6 m ρ c (Proc.devRef .tc main_arg4)
    _ = St5 m ρ c (Proc.devRef .tc main_arg4) := St6_keep m ρ c main_arg4 (by decide)
    _ = St4 m ρ c (Proc.devRef .tc main_arg4) := St5_of_ne m ρ c main_arg4 (by decide)
    _ = St3 m ρ c (Proc.devRef .tc main_arg4) := St4_keep m ρ c main_arg4 (by decide)
    _ = St2 m ρ c (Proc.devRef .tc main_arg4) := St3_of_ne m ρ c main_arg4 (by decide)
    _ = St1 m ρ c (Proc.devRef .tc main_arg4) := St2_of_ne m ρ c main_arg4 (by decide)
    _ = St0 m ρ c (Proc.devRef .tc main_arg4) := St1_keep m ρ c main_arg4 (by decide)
    _ = m ((c : Thread nD τ).loc main_arg4) := rfl

theorem St6_main_arg5 (c : Dev nD) : St6 m ρ c (Proc.devRef .tc main_arg5) = m ((c : Thread nD τ).loc main_arg5) :=
  calc St6 m ρ c (Proc.devRef .tc main_arg5)
    _ = St5 m ρ c (Proc.devRef .tc main_arg5) := St6_keep m ρ c main_arg5 (by decide)
    _ = St4 m ρ c (Proc.devRef .tc main_arg5) := St5_of_ne m ρ c main_arg5 (by decide)
    _ = St3 m ρ c (Proc.devRef .tc main_arg5) := St4_keep m ρ c main_arg5 (by decide)
    _ = St2 m ρ c (Proc.devRef .tc main_arg5) := St3_of_ne m ρ c main_arg5 (by decide)
    _ = St1 m ρ c (Proc.devRef .tc main_arg5) := St2_of_ne m ρ c main_arg5 (by decide)
    _ = St0 m ρ c (Proc.devRef .tc main_arg5) := St1_keep m ρ c main_arg5 (by decide)
    _ = m ((c : Thread nD τ).loc main_arg5) := rfl

theorem St6_main_arg6 (c : Dev nD) : St6 m ρ c (Proc.devRef .tc main_arg6) = m ((c : Thread nD τ).loc main_arg6) :=
  calc St6 m ρ c (Proc.devRef .tc main_arg6)
    _ = St5 m ρ c (Proc.devRef .tc main_arg6) := St6_keep m ρ c main_arg6 (by decide)
    _ = St4 m ρ c (Proc.devRef .tc main_arg6) := St5_of_ne m ρ c main_arg6 (by decide)
    _ = St3 m ρ c (Proc.devRef .tc main_arg6) := St4_keep m ρ c main_arg6 (by decide)
    _ = St2 m ρ c (Proc.devRef .tc main_arg6) := St3_of_ne m ρ c main_arg6 (by decide)
    _ = St1 m ρ c (Proc.devRef .tc main_arg6) := St2_of_ne m ρ c main_arg6 (by decide)
    _ = St0 m ρ c (Proc.devRef .tc main_arg6) := St1_keep m ρ c main_arg6 (by decide)
    _ = m ((c : Thread nD τ).loc main_arg6) := rfl

theorem St6_main_arg7 (c : Dev nD) : St6 m ρ c (Proc.devRef .tc main_arg7) = m ((c : Thread nD τ).loc main_arg7) :=
  calc St6 m ρ c (Proc.devRef .tc main_arg7)
    _ = St5 m ρ c (Proc.devRef .tc main_arg7) := St6_keep m ρ c main_arg7 (by decide)
    _ = St4 m ρ c (Proc.devRef .tc main_arg7) := St5_of_ne m ρ c main_arg7 (by decide)
    _ = St3 m ρ c (Proc.devRef .tc main_arg7) := St4_keep m ρ c main_arg7 (by decide)
    _ = St2 m ρ c (Proc.devRef .tc main_arg7) := St3_of_ne m ρ c main_arg7 (by decide)
    _ = St1 m ρ c (Proc.devRef .tc main_arg7) := St2_of_ne m ρ c main_arg7 (by decide)
    _ = St0 m ρ c (Proc.devRef .tc main_arg7) := St1_keep m ρ c main_arg7 (by decide)
    _ = m ((c : Thread nD τ).loc main_arg7) := rfl

theorem St6_main_arg8 (c : Dev nD) : St6 m ρ c (Proc.devRef .tc main_arg8) = m ((c : Thread nD τ).loc main_arg8) :=
  calc St6 m ρ c (Proc.devRef .tc main_arg8)
    _ = St5 m ρ c (Proc.devRef .tc main_arg8) := St6_keep m ρ c main_arg8 (by decide)
    _ = St4 m ρ c (Proc.devRef .tc main_arg8) := St5_of_ne m ρ c main_arg8 (by decide)
    _ = St3 m ρ c (Proc.devRef .tc main_arg8) := St4_keep m ρ c main_arg8 (by decide)
    _ = St2 m ρ c (Proc.devRef .tc main_arg8) := St3_of_ne m ρ c main_arg8 (by decide)
    _ = St1 m ρ c (Proc.devRef .tc main_arg8) := St2_of_ne m ρ c main_arg8 (by decide)
    _ = St0 m ρ c (Proc.devRef .tc main_arg8) := St1_keep m ρ c main_arg8 (by decide)
    _ = m ((c : Thread nD τ).loc main_arg8) := rfl

/-! ## The proof data family and the thread state -/

/-- Every pipeline's proof data, each at its region's entry contents: a literal `match`, so that the family at a
    numeral reduces to that pipeline's data. -/
def pdats : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a pipeline's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents after its operations, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (St6 m ρ c) ∗ ∃ r, prngReg c r)

/-- The last host stretch's exit state is the last thread state beside the core owing nothing. -/
theorem last_link (c : Dev nD) :
    iprop(StableHlo.held (c : Thread nD τ) (Pipeline.ucRefs τ sig) (St6 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

-- a library lemma stated over the pinned configuration unifies with the printed one only when unification may
-- unfold plain definitions in a metavariable's type
set_option backward.isDefEq.respectTransparency.types false in
/-- PIPELINE 0 (the fused projection) over the thread state: entered from every unscoped buffer at `St1`, left at
    `St2`. Its arrays are split out of the unscoped buffers and put back at the exit contents; the generator register
    goes into the class's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (St1 m ρ c) ∗ R c)
  post c := iprop(StableHlo.held (c : Thread nD τ) (Pipeline.ucRefs τ sig) (St2 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun w => A_eq0 (En0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- PIPELINE 1 (the attention core) over the thread state: entered from every unscoped buffer at `St2`, left at `St3`.
    Its invariant carries the accumulator between points; the class's invariant makes it before the first point and
    is given back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (St2 m ρ c) ∗ R c)
  post c := iprop(StableHlo.held (c : Thread nD τ) (Pipeline.ucRefs τ sig) (St3 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun w => A_eq1 (En1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (En1 m ρ) c).Φ 0 from rfl]
    have h := hin1 (En1 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (En1 m ρ) c).Φ (Fin.last cfg1.N) from rfl]
    have h := hout1 (En1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- PIPELINE 2 (the output projection) over the thread state: entered from every unscoped buffer at `St4`, left at
    `St5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ L lv 2 fun _ _ => rfl
  pre c := iprop(StableHlo.held (c : Thread nD τ) (Pipeline.ucRefs τ sig) (St4 m ρ c) ∗ R c)
  post c := iprop(StableHlo.held (c : Thread nD τ) (Pipeline.ucRefs τ sig) (St5 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En2 m ρ c) fun w => A_eq2 (En2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 6 segments in order: a host segment per stretch from its boundary's contents, a region per pipeline. -/
abbrev segs : List (Pipeline.Seg (pcfgs (F := F)) adm (pdats m ρ) () defs₀ 𝒱₀ L lv) :=
  [ .host (hseg hostOps0 hostOps0_sub hostOps0_fresh (St0 m ρ)),
    .region (reg0 m ρ),
    .region (reg1 m ρ),
    .host (hseg hostOps2 hostOps2_sub hostOps2_fresh (St3 m ρ)),
    .region (reg2 m ρ),
    .host (hseg hostOps3 hostOps3_sub hostOps3_fresh (St5 m ρ)) ]
/-- The program IS the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of the program on the
    TensorCores terminates, nothing faulting, and every final state holds each unscoped buffer at the last valuation
    of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ R c)) (Tₙ := Tₙ m ρ)
    (hch := ⟨fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St6 m ρ c b)
    (hfin := fun c s' => by
      iintro ⟨⟨Hh, -⟩, HSI⟩
      unfold StableHlo.held
      imodintro
      iapply (pointsTo_read_all (Pipeline.ucRefs τ sig) (fun b => (((c : Thread nD τ)).1, b)) (St6 m ρ c) s')
      isplitl [Hh] <;> iassumption)
    (hQ := fun _ h => h)

/-- THE FRAME: the program runs (terminates, no fault) and its nine argument arrays end holding their launch contents:
    each argument's buffer is unscoped, so the run's post reads it at the last valuation, which has it as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (St6_main_arg0 m ρ c),
     (h c _ (mem_uc main_arg1 (by decide))).trans (St6_main_arg1 m ρ c),
     (h c _ (mem_uc main_arg2 (by decide))).trans (St6_main_arg2 m ρ c),
     (h c _ (mem_uc main_arg3 (by decide))).trans (St6_main_arg3 m ρ c),
     (h c _ (mem_uc main_arg4 (by decide))).trans (St6_main_arg4 m ρ c),
     (h c _ (mem_uc main_arg5 (by decide))).trans (St6_main_arg5 m ρ c),
     (h c _ (mem_uc main_arg6 (by decide))).trans (St6_main_arg6 m ρ c),
     (h c _ (mem_uc main_arg7 (by decide))).trans (St6_main_arg7 m ρ c),
     (h c _ (mem_uc main_arg8 (by decide))).trans (St6_main_arg8 m ρ c)⟩) (run_all m ρ)

end Cert.KernelIdeal.Hand

end
-- ==== Proof.Spec.lean ====
/- The mathematics both programs compute, over the extended reals, on plain coordinates.

   Inputs: x[b, s, e] (4 × 2048 × 1024), four square weights W[e, f] (1024 × 1024) and four biases b[f].
   A projection is x·W + b.  Heads: feature f = 64·h + d (16 heads of width 64), or, pairing heads two by two,
   f = 128·hp + j with lane j = 64·half + d (8 pairs, two halves).
   Scores are the dot product of a key row and a query row over d, scaled by 1/√64; the softmax runs over the KEY
   axis for each query; the aggregation then contracts the QUERY axis:  out[k, d] = Σ_q w[k, q] · v[q, d].
   `KG` writes this the way the tiled kernel computes it (scores as key·query times the word 0.125; four query
   tiles of 512 accumulated one after the other onto a zero accumulator; features grouped by head pair), `RG` the way
   the reference does (query·key divided by √64; one sum over the 2048 queries; features grouped by head), and
   `KG_eq_RG` says they are one function. -/
import Idealize.ShloMosaic.PureOps.Ideal
import Idealize.ShloMosaic.PureOps.Ideal.Laws
import Idealize.ShloMosaic.Lib.ValueIdx

noncomputable section

namespace Cert.Spec

open Idealize.ShloMosaic
open scoped BigOperators

/-- Arrays as functions of their coordinates. -/
abbrev A3 : Type := Fin 4 → Fin 2048 → Fin 1024 → EReal
abbrev A4 : Type := Fin 4 → Fin 8 → Fin 2048 → Fin 128 → EReal
abbrev M2 : Type := Fin 1024 → Fin 1024 → EReal
abbrev B1 : Type := Fin 1024 → EReal

/-- An array of extended reals indexed by a shape's index, read at its coordinates. -/
def of3 (a : (⟨3, ![4, 2048, 1024]⟩ : Shape).Idx → EReal) : A3 := fun bi s f => a (ValueIdx.ix3 bi s f)
def of4 (a : (⟨4, ![4, 8, 2048, 128]⟩ : Shape).Idx → EReal) : A4 := fun bi hp s j => a (ValueIdx.ix4 bi hp s j)
def of2 (a : (⟨2, ![1024, 1024]⟩ : Shape).Idx → EReal) : M2 := fun e f => a (ValueIdx.ix2 e f)
def of1 (a : (⟨1, ![1024]⟩ : Shape).Idx → EReal) : B1 := fun f => a (ValueIdx.ix1 f)
/-- A bias kept as one row [1, 1024]. -/
def ofRow (a : (⟨2, ![1, 1024]⟩ : Shape).Idx → EReal) : B1 := fun f => a (ValueIdx.ix2 0 f)

/-- Feature 128·hp + j of head pair hp, lane j. -/
def feat (hp : Fin 8) (j : Fin 128) : Fin 1024 := ⟨hp.val * 128 + j.val, by omega⟩
/-- Lane 64·half + d of a head pair. -/
def lane (hf : Fin 2) (d : Fin 64) : Fin 128 := ⟨hf.val * 64 + d.val, by omega⟩
/-- Feature 64·h + d of head h. -/
def hfeat (h : Fin 16) (d : Fin 64) : Fin 1024 := ⟨h.val * 64 + d.val, by omega⟩
/-- Query 512·qi + q of query tile qi. -/
def qrow (qi : Fin 4) (q : Fin 512) : Fin 2048 := ⟨qi.val * 512 + q.val, by omega⟩
/-- Row 2048·b + s of the flattened tokens. -/
def row (b : Fin 4) (s : Fin 2048) : Fin 8192 := ⟨b.val * 2048 + s.val, by omega⟩

/-- A projection: x·W + b. -/
def proj (x : A3) (W : M2) (b : B1) : A3 := fun bi s f => (∑ e : Fin 1024, x bi s e * W e f) + b f

/-- A projection laid out by head pairs: [b, hp, s, j] is the projection's feature 128·hp + j of token (b, s). -/
def pairs (y : A3) : A4 := fun bi hp s j => y bi s (feat hp j)

/-! ## The kernel's arrangement -/

/-- Scores of one half of a head pair, keys first: (Σ_d K[k, d]·Q[q, d]) · 0.125. -/
def kscore (Q K : A4) (bi : Fin 4) (hp : Fin 8) (hf : Fin 2) (k q : Fin 2048) : EReal :=
  (∑ d : Fin 64, K bi hp k (lane hf d) * Q bi hp q (lane hf d)) * Ideal.ofBits .f32 0x3E000000#32

/-- The largest score of a query of tile qi over the keys (a fold of max from −∞). -/
def kmax (S : Fin 2048 → Fin 2048 → EReal) (qi : Fin 4) (q : Fin 512) : EReal :=
  (Finset.univ : Finset (Fin 2048)).fold max (Ideal.ofBits .f32 0xFF800000#32) (fun k => S k (qrow qi q))

def kexp (S : Fin 2048 → Fin 2048 → EReal) (qi : Fin 4) (k : Fin 2048) (q : Fin 512) : EReal :=
  Ideal.exp (S k (qrow qi q) - kmax S qi q)

/-- The softmax weight of key k for query q of tile qi. -/
def kw (S : Fin 2048 → Fin 2048 → EReal) (qi : Fin 4) (k : Fin 2048) (q : Fin 512) : EReal :=
  Ideal.div (kexp S qi k q) (∑ k' : Fin 2048, kexp S qi k' q)

/-- What query tile qi adds to out[k, d] of one half: Σ_q w[k, q]·V[q, d] over the tile's 512 queries. -/
def kcontrib (Q K V : A4) (bi : Fin 4) (hp : Fin 8) (hf : Fin 2) (qi : Fin 4) (k : Fin 2048) (d : Fin 64) : EReal :=
  ∑ q : Fin 512, kw (kscore Q K bi hp hf) qi k q * V bi hp (qrow qi q) (lane hf d)

/-- The accumulator after the four tiles, from zero, one tile after the other. -/
def kacc (Q K V : A4) (bi : Fin 4) (hp : Fin 8) (hf : Fin 2) (k : Fin 2048) (d : Fin 64) : EReal :=
  (((0 + kcontrib Q K V bi hp hf 0 k d) + kcontrib Q K V bi hp hf 1 k d) + kcontrib Q K V bi hp hf 2 k d)
    + kcontrib Q K V bi hp hf 3 k d

/-- The attention output in head-pair layout: lane j holds half j / 64, column j % 64. -/
def kattn (Q K V : A4) : A4 := fun bi hp k j =>
  kacc Q K V bi hp ⟨j.val / 64, by omega⟩ k ⟨j.val % 64, Nat.mod_lt _ (by decide)⟩

/-- The kernel's result: the attention output, features 128·hp + j, projected by Wo, bo. -/
def KG (x : A3) (Wq : M2) (bq : B1) (Wk : M2) (bk : B1) (Wv : M2) (bv : B1) (Wo : M2) (bo : B1) : A3 := fun bi s f =>
  (∑ e : Fin 1024, kattn (pairs (proj x Wq bq)) (pairs (proj x Wk bk)) (pairs (proj x Wv bv)) bi
      ⟨e.val / 128, by omega⟩ s ⟨e.val % 128, Nat.mod_lt _ (by decide)⟩ * Wo e f) + bo f

/-! ## The reference's arrangement -/

/-- Scores of head h, queries first: (Σ_d q[q, d]·k[k, d]) / √64. -/
def rscore (Qp Kp : A3) (bi : Fin 4) (h : Fin 16) (q k : Fin 2048) : EReal :=
  Ideal.div (∑ d : Fin 64, Qp bi q (hfeat h d) * Kp bi k (hfeat h d)) (Ideal.sqrt (Ideal.ofBits .f32 0x42800000#32))

def rmax (S : Fin 2048 → Fin 2048 → EReal) (q : Fin 2048) : EReal :=
  max (Ideal.ofBits .f32 0xFF800000#32)
    ((Finset.univ : Finset (Fin 2048)).fold max (Ideal.ofBits .f32 0xFF800000#32) (fun k => S q k))

def rexp (S : Fin 2048 → Fin 2048 → EReal) (q k : Fin 2048) : EReal := Ideal.exp (S q k - rmax S q)

def rw (S : Fin 2048 → Fin 2048 → EReal) (q k : Fin 2048) : EReal :=
  Ideal.div (rexp S q k) (Ideal.ofBits .f32 0x00000000#32 + ∑ k' : Fin 2048, rexp S q k')

/-- out[k, d] of head h: Σ_q w[q, k]·v[q, d] over all 2048 queries. -/
def rattn (Qp Kp Vp : A3) (bi : Fin 4) (h : Fin 16) (k : Fin 2048) (d : Fin 64) : EReal :=
  ∑ q : Fin 2048, rw (rscore Qp Kp bi h) q k * Vp bi q (hfeat h d)

/-- The reference's result. -/
def RG (x : A3) (Wq : M2) (bq : B1) (Wk : M2) (bk : B1) (Wv : M2) (bv : B1) (Wo : M2) (bo : B1) : A3 := fun bi s f =>
  (∑ e : Fin 1024, rattn (proj x Wq bq) (proj x Wk bk) (proj x Wv bv) bi
      ⟨e.val / 64, by omega⟩ s ⟨e.val % 64, Nat.mod_lt _ (by decide)⟩ * Wo e f) + bo f

end Cert.Spec

end
-- ==== Proof.ValProj0.lean ====
/- The values, over the extended reals, that region 0 (the fused q, k, v projection) leaves in its three output
   arrays: each is the projection x·W + b of the activation array, laid out by head pairs. -/
import proofs.«403051_j18691697672859_3_alg».proof.Proof.KIReg0
import proofs.«403051_j18691697672859_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The projection of the activations `x` by the weights `w` and the bias row `b`, laid out by head pairs:
    element [bi, hp, s, j] is feature 128·hp + j of token (bi, s). -/
def G0 (x : Vec Ideal S4x2048x1024 .f32) (w : Vec Ideal S1024x1024 .bf16) (b : Vec Ideal S1x1024 .f32) : Vec Ideal S4x8x2048x128 .bf16 :=
  fun i => Cert.Spec.pairs (Cert.Spec.proj (Cert.Spec.of3 x) (Cert.Spec.of2 w) (Cert.Spec.ofRow b)) (i 0) (i 1) (i 2) (i 3)

/-! ## The body's payloads at an index -/

/-- The product's operand indices at output index `i` and contraction index `q`, coordinate by coordinate. -/
theorem lhs_qkv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_qkv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_qkv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_qkv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The body's product onto the zero accumulator, read at (r, j): the row of the left operand times the column of
    the right one. -/
theorem matmul_qkv_apply (a : FVec Ideal S1024x1024 .bf16) (b : FVec Ideal S1024x128 .bf16) (r : Fin 1024) (j : Fin 128) :
    matmul (F := Ideal) dot_S1024x1024_S1024x128_S1024x128_1_0_0_1_n_n none a b (constant S1024x128 .f32 0x00000000#32) (ix2 r j)
      = ∑ e : Fin 1024, a (ix2 r e) * b (ix2 e j) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r j) ((ValueIdx.contrEquiv1 dot_S1024x1024_S1024x128_S1024x128_1_0_0_1_n_n 1024 rfl rfl).symm k) = ix2 r k := funext fun a => Fin.ext (by
    match a with
    | ⟨0, _⟩ => exact lhs_qkv_0 _ _
    | ⟨1, _⟩ => exact (lhs_qkv_1 _ _).trans hk)
  have er : dot_S1024x1024_S1024x128_S1024x128_1_0_0_1_n_n.rhsIdx (ix2 r j) ((ValueIdx.contrEquiv1 dot_S1024x1024_S1024x128_S1024x128_1_0_0_1_n_n 1024 rfl rfl).symm k) = ix2 k j := funext fun a => Fin.ext (by
    match a with
    | ⟨0, _⟩ => exact (rhs_qkv_0 _ _).trans hk
    | ⟨1, _⟩ => exact rhs_qkv_1 _ _)
  rw [el, er]

/-- An [a, b] array cast to [1, 1, a, b] reads, at (u, u', i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- The activation block rounded for the product, read at (r, e). -/
theorem pay2_p0_apply (v0 : Vec Ideal S1x1024x1024 .f32) (r e : Fin 1024) :
    k0_pay2 (F := Ideal) v0 (ix2 r e) = v0 (ix3 0 r e) := by
  unfold k0_pay2
  rw [truncf_apply, shapeCast_1ab_ab_apply]

/-- The q payload at (u, u', r, j): row r of the activation block times column j of the weight block, plus the bias
    row at j. -/
theorem pay3_p0_apply (v0 : Vec Ideal S1x1024x1024 .f32) (v3 : Vec Ideal S1024x128 .bf16) (v6 : Vec Ideal S1x128 .f32)
    (u u' : Fin 1) (r : Fin 1024) (j : Fin 128) :
    k0_pay3 (F := Ideal) v0 v3 v6 (ix4 u u' r j) = (∑ e : Fin 1024, v0 (ix3 0 r e) * v3 (ix2 e j)) + v6 (ix2 0 j) := by
  unfold k0_pay3
  rw [shapeCast_ab_11ab_apply, truncf_apply, addf_apply, matmul_qkv_apply, broadcastTo_1b_ab_apply, shapeCast_self, shapeCast_self]
  simp only [pay2_p0_apply]

/-- The k payload at (u, u', r, j): the same of k's weight block and bias row. -/
theorem pay4_p0_apply (v0 : Vec Ideal S1x1024x1024 .f32) (v14 : Vec Ideal S1024x128 .bf16) (v17 : Vec Ideal S1x128 .f32)
    (u u' : Fin 1) (r : Fin 1024) (j : Fin 128) :
    k0_pay4 (F := Ideal) v0 v14 v17 (ix4 u u' r j) = (∑ e : Fin 1024, v0 (ix3 0 r e) * v14 (ix2 e j)) + v17 (ix2 0 j) := by
  unfold k0_pay4
  rw [shapeCast_ab_11ab_apply, truncf_apply, addf_apply, matmul_qkv_apply, broadcastTo_1b_ab_apply, shapeCast_self, shapeCast_self]
  simp only [pay2_p0_apply]

/-- The v product, formed in the body's first part, at (r, j). -/
theorem pay5_p0_apply (v0 : Vec Ideal S1x1024x1024 .f32) (v25 : Vec Ideal S1024x128 .bf16) (r : Fin 1024) (j : Fin 128) :
    k0_pay5 (F := Ideal) v0 v25 (ix2 r j) = ∑ e : Fin 1024, v0 (ix3 0 r e) * v25 (ix2 e j) := by
  unfold k0_pay5
  rw [matmul_qkv_apply, shapeCast_self]
  simp only [pay2_p0_apply]

/-- The v payload at (u, u', r, j): the product at (r, j) plus the bias row at j. -/
theorem pay1_p0_apply (v27 : FVec Ideal S1024x128 .f32) (v28 : Vec Ideal S1x128 .f32) (u u' : Fin 1) (r : Fin 1024) (j : Fin 128) :
    k0_pay1 (F := Ideal) v27 v28 (ix4 u u' r j) = v27 (ix2 r j) + v28 (ix2 0 j) := by
  unfold k0_pay1
  rw [shapeCast_ab_11ab_apply, truncf_apply, addf_apply, broadcastTo_1b_ab_apply, shapeCast_self]

/-! ## From blocks to the arrays -/

theorem hz2_p0 : (![0, 0] : Fin 2 → Nat) = fun _ => 0 := funext fun a => by fin_cases a <;> rfl
theorem hz3_p0 : (![0, 0, 0] : Fin 3 → Nat) = fun _ => 0 := funext fun a => by fin_cases a <;> rfl
theorem hz4_p0 : (![0, 0, 0, 0] : Fin 4 → Nat) = fun _ => 0 := funext fun a => by fin_cases a <;> rfl

section Region0
variable (V : (c : Dev nD) → (b : Ref sig .tc) → Buf (Elt Ideal) ((c : Thread nD τ).loc b))

/-! ## Output window 7 (the q projection) -/

/-- The printed index maps, decided over the grid: the activation window follows output window 7's batch and
    token-tile coordinates, the weight and bias windows its head-pair coordinate, and the output's block indices stay in
    their ranges. -/
theorem idx_facts7 : ∀ t : Fin cfg0.N,
    win0_0.index t (0 : Fin 3) = win0_7.index t (0 : Fin 4)
    ∧ win0_0.index t (1 : Fin 3) = win0_7.index t (2 : Fin 4)
    ∧ win0_0.index t (2 : Fin 3) = 0
    ∧ win0_1.index t (0 : Fin 2) = 0
    ∧ win0_1.index t (1 : Fin 2) = win0_7.index t (1 : Fin 4)
    ∧ win0_2.index t (0 : Fin 2) = 0
    ∧ win0_2.index t (1 : Fin 2) = win0_7.index t (1 : Fin 4)
    ∧ win0_7.index t (0 : Fin 4) ≤ 3 ∧ win0_7.index t (1 : Fin 4) ≤ 7
    ∧ win0_7.index t (2 : Fin 4) ≤ 1 ∧ win0_7.index t (3 : Fin 4) = 0 :=
  (by decide +kernel : ∀ t : Fin grid0.N, _)

/-- Every block of the output array is SOME point's. -/
theorem idx_onto7 : ∀ (q0 : Fin 4) (q1 : Fin 8) (q2 : Fin 2), ∃ t : Fin cfg0.N, win0_7.index t = ![q0.val, q1.val, q2.val, 0] :=
  (by decide +kernel : ∀ (q0 : Fin 4) (q1 : Fin 8) (q2 : Fin 2), ∃ t : Fin grid0.N, win0_7.index t = ![q0.val, q1.val, q2.val, 0])

set_option maxHeartbeats 1000000 in
/-- The body's result for window 7 at point `t`, from the three arrays' blocks there, is block `t` of their
    projection: each input block is its array read where the output block's rectangle says. -/
theorem point7 (x : Vec Ideal S4x2048x1024 .f32) (w : Vec Ideal S1024x1024 .bf16) (b : Vec Ideal S1x1024 .f32)
    (t : Fin cfg0.N) (y : S1x1x1024x128.Idx) :
    k0_pay3 (F := Ideal) (((cfg0.win 0).blk t).view.read (Elt Ideal) x) (((cfg0.win 1).blk t).view.read (Elt Ideal) w) (((cfg0.win 2).blk t).view.read (Elt Ideal) b) y
      = G0 x w b (((cfg0.win 7).blk t).view.emb y) := by
  obtain ⟨e0, e1, e2, e3, e4, e5, e6, b0, b1, b2, b3⟩ := idx_facts7 t
  obtain ⟨u, u', r, j, rfl⟩ : ∃ (u u' : Fin 1) (r : Fin 1024) (j : Fin 128), y = ix4 u u' r j := ⟨y 0, y 1, y 2, y 3, eq_ix4 y⟩
  have hu : u.val = 0 := by omega
  have hu' : u'.val = 0 := by omega
  have hr : r.val < 1024 := r.isLt
  have hj : j.val < 128 := j.isLt
  rw [pay3_p0_apply]
  obtain ⟨I, hI⟩ : ∃ I : S4x8x2048x128.Idx, ((cfg0.win 7).blk t).view.emb (ix4 u u' r j) = I := ⟨_, rfl⟩
  have hI0 : (I 0).val = win0_7.index t (0 : Fin 4) * 1 + 1 * u.val := by rw [← hI]; rfl
  have hI1 : (I 1).val = win0_7.index t (1 : Fin 4) * 1 + 1 * u'.val := by rw [← hI]; rfl
  have hI2 : (I 2).val = win0_7.index t (2 : Fin 4) * 1024 + 1 * r.val := by rw [← hI]; rfl
  have hI3 : (I 3).val = win0_7.index t (3 : Fin 4) * 128 + 1 * j.val := by rw [← hI]; rfl
  rw [hI]
  have hx : ∀ e : Fin 1024, ((cfg0.win 0).blk t).view.emb (ix3 (0 : Fin 1) r e) = ix3 (I 0) (I 2) e := by
    intro e; funext a; apply Fin.ext
    match a with
    | ⟨0, _⟩ => show win0_0.index t (0 : Fin 3) * 1 + 1 * 0 = (I 0).val; omega
    | ⟨1, _⟩ => show win0_0.index t (1 : Fin 3) * 1024 + 1 * r.val = (I 2).val; omega
    | ⟨2, _⟩ => show win0_0.index t (2 : Fin 3) * 1024 + 1 * e.val = e.val; omega
  have hw : ∀ e : Fin 1024, ((cfg0.win 1).blk t).view.emb (ix2 e j) = ix2 e (Cert.Spec.feat (I 1) (I 3)) := by
    intro e; funext a; apply Fin.ext
    match a with
    | ⟨0, _⟩ => show win0_1.index t (0 : Fin 2) * 1024 + 1 * e.val = e.val; omega
    | ⟨1, _⟩ => show win0_1.index t (1 : Fin 2) * 128 + 1 * j.val = (I 1).val * 128 + (I 3).val; omega
  have hb : ((cfg0.win 2).blk t).view.emb (ix2 (0 : Fin 1) j) = ix2 0 (Cert.Spec.feat (I 1) (I 3)) := by
    funext a; apply Fin.ext
    match a with
    | ⟨0, _⟩ => show win0_2.index t (0 : Fin 2) * 1 + 1 * 0 = 0; omega
    | ⟨1, _⟩ => show win0_2.index t (1 : Fin 2) * 128 + 1 * j.val = (I 1).val * 128 + (I 3).val; omega
  show (∑ e : Fin 1024, x (((cfg0.win 0).blk t).view.emb (ix3 (0 : Fin 1) r e)) * w (((cfg0.win 1).blk t).view.emb (ix2 e j)))
      + b (((cfg0.win 2).blk t).view.emb (ix2 (0 : Fin 1) j))
    = (∑ e : Fin 1024, x (ix3 (I 0) (I 2) e) * w (ix2 e (Cert.Spec.feat (I 1) (I 3)))) + b (ix2 0 (Cert.Spec.feat (I 1) (I 3)))
  rw [hb]
  exact congrArg (· + _) (Finset.sum_congr rfl fun e _ => by rw [hx e, hw e]; rfl)

/-- WHAT POINT `t` WRITES BACK is block `t` of the projection of the arrays as the region finds them. -/
theorem flushed7_eq (c : Dev nD) (t : Fin cfg0.N) :
    (dat0 (F := Ideal) V c).flushed 7 t = ((cfg0.win 7).blk t).view.read (Elt Ideal)
      (G0 (V c (Pipeline.arrRef spec0 0)) (V c (Pipeline.arrRef spec0 1)) (V c (Pipeline.arrRef spec0 2))) := by
  show (cfg0.win 7).cut (grid0.coords t) ((dat0 V c).after 7 t) = _
  rw [after0_7]
  unfold out0_7
  rw [View.canon_unit_zero hz4_p0]
  simp only [View.ld_unit_zero (S := S1x1024x1024) hz3_p0, View.ld_unit_zero (S := S1024x128) hz2_p0, View.ld_unit_zero (S := S1x128) hz2_p0]
  funext y
  exact point7 (V c (Pipeline.arrRef spec0 0)) (V c (Pipeline.arrRef spec0 1)) (V c (Pipeline.arrRef spec0 2)) t y

/-- An index of the array is in point `t`'s block iff each coordinate is in the block's range on its axis. -/
theorem mem_blk7 (t : Fin cfg0.N) (i : S4x8x2048x128.Idx) :
    i ∈ ((cfg0.win 7).blk t).view.set ↔ ∀ a : Fin 4, win0_7.index t a * S1x1x1024x128.size a ≤ (i a).val ∧ (i a).val < win0_7.index t a * S1x1x1024x128.size a + S1x1x1024x128.size a := by
  show i ∈ ((View.whole (Pipeline.arrRef spec0 7)).slice (win0_7.rect t)).set ↔ _
  rw [View.set_slice_whole, Rect.mem_set_unit]
  exact Iff.rfl

/-- Every index of the array is in some point's block: the blocks tile it. -/
theorem cover7 (i : S4x8x2048x128.Idx) : ∃ t : Fin cfg0.N, (cfg0.win 7).flush t = true ∧ i ∈ ((cfg0.win 7).blk t).view.set := by
  have hi0 : (i 0).val < 4 := (i 0).isLt
  have hi1 : (i 1).val < 8 := (i 1).isLt
  have hi2 : (i 2).val < 2048 := (i 2).isLt
  have hi3 : (i 3).val < 128 := (i 3).isLt
  obtain ⟨t, ht⟩ := idx_onto7 ⟨(i 0).val, hi0⟩ ⟨(i 1).val, hi1⟩ ⟨(i 2).val / 1024, by omega⟩
  have q0 : win0_7.index t (0 : Fin 4) = (i 0).val := congrFun ht 0
  have q1 : win0_7.index t (1 : Fin 4) = (i 1).val := congrFun ht 1
  have q2 : win0_7.index t (2 : Fin 4) = (i 2).val / 1024 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 1024 ≤ (i 2).val ∧ (i 2).val < win0_7.index t (2 : Fin 4) * 1024 + 1024; omega
  | ⟨3, _⟩ => show win0_7.index t (3 : Fin 4) * 128 ≤ (i 3).val ∧ (i 3).val < win0_7.index t (3 : Fin 4) * 128 + 128; omega

/-- The q output array after the region: the projection of the activation array by q's weights and bias. -/
theorem final0_7 (c : Dev nD) : (dat0 (F := Ideal) V c).arrAt 7 cfg0.N
    = G0 (V c (Pipeline.arrRef spec0 0)) (V c (Pipeline.arrRef spec0 1)) (V c (Pipeline.arrRef spec0 2)) :=
  (dat0 (F := Ideal) V c).arrAt_eq_of_cover 7 _ (fun t _ => flushed7_eq V c t) cover7

/-! ## Output window 8 (the k projection) -/

/-- The printed index maps, decided over the grid: the activation window follows output window 8's batch and
    token-tile coordinates, the weight and bias windows its head-pair coordinate, and the output's block indices stay in
    their ranges. -/
theorem idx_facts8 : ∀ t : Fin cfg0.N,
    win0_0.index t (0 : Fin 3) = win0_8.index t (0 : Fin 4)
    ∧ win0_0.index t (1 : Fin 3) = win0_8.index t (2 : Fin 4)
    ∧ win0_0.index t (2 : Fin 3) = 0
    ∧ win0_3.index t (0 : Fin 2) = 0
    ∧ win0_3.index t (1 : Fin 2) = win0_8.index t (1 : Fin 4)
    ∧ win0_4.index t (0 : Fin 2) = 0
    ∧ win0_4.index t (1 : Fin 2) = win0_8.index t (1 : Fin 4)
    ∧ win0_8.index t (0 : Fin 4) ≤ 3 ∧ win0_8.index t (1 : Fin 4) ≤ 7
    ∧ win0_8.index t (2 : Fin 4) ≤ 1 ∧ win0_8.index t (3 : Fin 4) = 0 :=
  (by decide +kernel : ∀ t : Fin grid0.N, _)

/-- Every block of the output array is SOME point's. -/
theorem idx_onto8 : ∀ (q0 : Fin 4) (q1 : Fin 8) (q2 : Fin 2), ∃ t : Fin cfg0.N, win0_8.index t = ![q0.val, q1.val, q2.val, 0] :=
  (by decide +kernel : ∀ (q0 : Fin 4) (q1 : Fin 8) (q2 : Fin 2), ∃ t : Fin grid0.N, win0_8.index t = ![q0.val, q1.val, q2.val, 0])

set_option maxHeartbeats 1000000 in
/-- The body's result for window 8 at point `t`, from the three arrays' blocks there, is block `t` of their
    projection: each input block is its array read where the output block's rectangle says. -/
theorem point8 (x : Vec Ideal S4x2048x1024 .f32) (w : Vec Ideal S1024x1024 .bf16) (b : Vec Ideal S1x1024 .f32)
    (t : Fin cfg0.N) (y : S1x1x1024x128.Idx) :
    k0_pay4 (F := Ideal) (((cfg0.win 0).blk t).view.read (Elt Ideal) x) (((cfg0.win 3).blk t).view.read (Elt Ideal) w) (((cfg0.win 4).blk t).view.read (Elt Ideal) b) y
      = G0 x w b (((cfg0.win 8).blk t).view.emb y) := by
  obtain ⟨e0, e1, e2, e3, e4, e5, e6, b0, b1, b2, b3⟩ := idx_facts8 t
  obtain ⟨u, u', r, j, rfl⟩ : ∃ (u u' : Fin 1) (r : Fin 1024) (j : Fin 128), y = ix4 u u' r j := ⟨y 0, y 1, y 2, y 3, eq_ix4 y⟩
  have hu : u.val = 0 := by omega
  have hu' : u'.val = 0 := by omega
  have hr : r.val < 1024 := r.isLt
  have hj : j.val < 128 := j.isLt
  rw [pay4_p0_apply]
  obtain ⟨I, hI⟩ : ∃ I : S4x8x2048x128.Idx, ((cfg0.win 8).blk t).view.emb (ix4 u u' r j) = I := ⟨_, rfl⟩
  have hI0 : (I 0).val = win0_8.index t (0 : Fin 4) * 1 + 1 * u.val := by rw [← hI]; rfl
  have hI1 : (I 1).val = win0_8.index t (1 : Fin 4) * 1 + 1 * u'.val := by rw [← hI]; rfl
  have hI2 : (I 2).val = win0_8.index t (2 : Fin 4) * 1024 + 1 * r.val := by rw [← hI]; rfl
  have hI3 : (I 3).val = win0_8.index t (3 : Fin 4) * 128 + 1 * j.val := by rw [← hI]; rfl
  rw [hI]
  have hx : ∀ e : Fin 1024, ((cfg0.win 0).blk t).view.emb (ix3 (0 : Fin 1) r e) = ix3 (I 0) (I 2) e := by
    intro e; funext a; apply Fin.ext
    match a with
    | ⟨0, _⟩ => show win0_0.index t (0 : Fin 3) * 1 + 1 * 0 = (I 0).val; omega
    | ⟨1, _⟩ => show win0_0.index t (1 : Fin 3) * 1024 + 1 * r.val = (I 2).val; omega
    | ⟨2, _⟩ => show win0_0.index t (2 : Fin 3) * 1024 + 1 * e.val = e.val; omega
  have hw : ∀ e : Fin 1024, ((cfg0.win 3).blk t).view.emb (ix2 e j) = ix2 e (Cert.Spec.feat (I 1) (I 3)) := by
    intro e; funext a; apply Fin.ext
    match a with
    | ⟨0, _⟩ => show win0_3.index t (0 : Fin 2) * 1024 + 1 * e.val = e.val; omega
    | ⟨1, _⟩ => show win0_3.index t (1 : Fin 2) * 128 + 1 * j.val = (I 1).val * 128 + (I 3).val; omega
  have hb : ((cfg0.win 4).blk t).view.emb (ix2 (0 : Fin 1) j) = ix2 0 (Cert.Spec.feat (I 1) (I 3)) := by
    funext a; apply Fin.ext
    match a with
    | ⟨0, _⟩ => show win0_4.index t (0 : Fin 2) * 1 + 1 * 0 = 0; omega
    | ⟨1, _⟩ => show win0_4.index t (1 : Fin 2) * 128 + 1 * j.val = (I 1).val * 128 + (I 3).val; omega
  show (∑ e : Fin 1024, x (((cfg0.win 0).blk t).view.emb (ix3 (0 : Fin 1) r e)) * w (((cfg0.win 3).blk t).view.emb (ix2 e j)))
      + b (((cfg0.win 4).blk t).view.emb (ix2 (0 : Fin 1) j))
    = (∑ e : Fin 1024, x (ix3 (I 0) (I 2) e) * w (ix2 e (Cert.Spec.feat (I 1) (I 3)))) + b (ix2 0 (Cert.Spec.feat (I 1) (I 3)))
  rw [hb]
  exact congrArg (· + _) (Finset.sum_congr rfl fun e _ => by rw [hx e, hw e]; rfl)

/-- WHAT POINT `t` WRITES BACK is block `t` of the projection of the arrays as the region finds them. -/
theorem flushed8_eq (c : Dev nD) (t : Fin cfg0.N) :
    (dat0 (F := Ideal) V c).flushed 8 t = ((cfg0.win 8).blk t).view.read (Elt Ideal)
      (G0 (V c (Pipeline.arrRef spec0 0)) (V c (Pipeline.arrRef spec0 3)) (V c (Pipeline.arrRef spec0 4))) := by
  show (cfg0.win 8).cut (grid0.coords t) ((dat0 V c).after 8 t) = _
  rw [after0_8]
  unfold out0_8
  rw [View.canon_unit_zero hz4_p0]
  simp only [View.ld_unit_zero (S := S1x1024x1024) hz3_p0, View.ld_unit_zero (S := S1024x128) hz2_p0, View.ld_unit_zero (S := S1x128) hz2_p0]
  funext y
  exact point8 (V c (Pipeline.arrRef spec0 0)) (V c (Pipeline.arrRef spec0 3)) (V c (Pipeline.arrRef spec0 4)) t y

/-- An index of the array is in point `t`'s block iff each coordinate is in the block's range on its axis. -/
theorem mem_blk8 (t : Fin cfg0.N) (i : S4x8x2048x128.Idx) :
    i ∈ ((cfg0.win 8).blk t).view.set ↔ ∀ a : Fin 4, win0_8.index t a * S1x1x1024x128.size a ≤ (i a).val ∧ (i a).val < win0_8.index t a * S1x1x1024x128.size a + S1x1x1024x128.size a := by
  show i ∈ ((View.whole (Pipeline.arrRef spec0 8)).slice (win0_8.rect t)).set ↔ _
  rw [View.set_slice_whole, Rect.mem_set_unit]
  exact Iff.rfl

/-- Every index of the array is in some point's block: the blocks tile it. -/
theorem cover8 (i : S4x8x2048x128.Idx) : ∃ t : Fin cfg0.N, (cfg0.win 8).flush t = true ∧ i ∈ ((cfg0.win 8).blk t).view.set := by
  have hi0 : (i 0).val < 4 := (i 0).isLt
  have hi1 : (i 1).val < 8 := (i 1).isLt
  have hi2 : (i 2).val < 2048 := (i 2).isLt
  have hi3 : (i 3).val < 128 := (i 3).isLt
  obtain ⟨t, ht⟩ := idx_onto8 ⟨(i 0).val, hi0⟩ ⟨(i 1).val, hi1⟩ ⟨(i 2).val / 1024, by omega⟩
  have q0 : win0_8.index t (0 : Fin 4) = (i 0).val := congrFun ht 0
  have q1 : win0_8.index t (1 : Fin 4) = (i 1).val := congrFun ht 1
  have q2 : win0_8.index t (2 : Fin 4) = (i 2).val / 1024 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 1024 ≤ (i 2).val ∧ (i 2).val < win0_8.index t (2 : Fin 4) * 1024 + 1024; omega
  | ⟨3, _⟩ => show win0_8.index t (3 : Fin 4) * 128 ≤ (i 3).val ∧ (i 3).val < win0_8.index t (3 : Fin 4) * 128 + 128; omega

/-- The k output array after the region: the projection of the activation array by k's weights and bias. -/
theorem final0_8 (c : Dev nD) : (dat0 (F := Ideal) V c).arrAt 8 cfg0.N
    = G0 (V c (Pipeline.arrRef spec0 0)) (V c (Pipeline.arrRef spec0 3)) (V c (Pipeline.arrRef spec0 4)) :=
  (dat0 (F := Ideal) V c).arrAt_eq_of_cover 8 _ (fun t _ => flushed8_eq V c t) cover8

/-! ## Output window 9 (the v projection) -/

/-- The printed index maps, decided over the grid: the activation window follows output window 9's batch and
    token-tile coordinates, the weight and bias windows its head-pair coordinate, and the output's block indices stay in
    their ranges. -/
theorem idx_facts9 : ∀ t : Fin cfg0.N,
    win0_0.index t (0 : Fin 3) = win0_9.index t (0 : Fin 4)
    ∧ win0_0.index t (1 : Fin 3) = win0_9.index t (2 : Fin 4)
    ∧ win0_0.index t (2 : Fin 3) = 0
    ∧ win0_5.index t (0 : Fin 2) = 0
    ∧ win0_5.index t (1 : Fin 2) = win0_9.index t (1 : Fin 4)
    ∧ win0_6.index t (0 : Fin 2) = 0
    ∧ win0_6.index t (1 : Fin 2) = win0_9.index t (1 : Fin 4)
    ∧ win0_9.index t (0 : Fin 4) ≤ 3 ∧ win0_9.index t (1 : Fin 4) ≤ 7
    ∧ win0_9.index t (2 : Fin 4) ≤ 1 ∧ win0_9.index t (3 : Fin 4) = 0 :=
  (by decide +kernel : ∀ t : Fin grid0.N, _)

/-- Every block of the output array is SOME point's. -/
theorem idx_onto9 : ∀ (q0 : Fin 4) (q1 : Fin 8) (q2 : Fin 2), ∃ t : Fin cfg0.N, win0_9.index t = ![q0.val, q1.val, q2.val, 0] :=
  (by decide +kernel : ∀ (q0 : Fin 4) (q1 : Fin 8) (q2 : Fin 2), ∃ t : Fin grid0.N, win0_9.index t = ![q0.val, q1.val, q2.val, 0])

set_option maxHeartbeats 1000000 in
/-- The body's result for window 9 at point `t`, from the three arrays' blocks there, is block `t` of their
    projection: each input block is its array read where the output block's rectangle says. -/
theorem point9 (x : Vec Ideal S4x2048x1024 .f32) (w : Vec Ideal S1024x1024 .bf16) (b : Vec Ideal S1x1024 .f32)
    (t : Fin cfg0.N) (y : S1x1x1024x128.Idx) :
    k0_pay1 (F := Ideal) (k0_pay5 (F := Ideal) (((cfg0.win 0).blk t).view.read (Elt Ideal) x) (((cfg0.win 5).blk t).view.read (Elt Ideal) w)) (((cfg0.win 6).blk t).view.read (Elt Ideal) b) y
      = G0 x w b (((cfg0.win 9).blk t).view.emb y) := by
  obtain ⟨e0, e1, e2, e3, e4, e5, e6, b0, b1, b2, b3⟩ := idx_facts9 t
  obtain ⟨u, u', r, j, rfl⟩ : ∃ (u u' : Fin 1) (r : Fin 1024) (j : Fin 128), y = ix4 u u' r j := ⟨y 0, y 1, y 2, y 3, eq_ix4 y⟩
  have hu : u.val = 0 := by omega
  have hu' : u'.val = 0 := by omega
  have hr : r.val < 1024 := r.isLt
  have hj : j.val < 128 := j.isLt
  rw [pay1_p0_apply, pay5_p0_apply]
  obtain ⟨I, hI⟩ : ∃ I : S4x8x2048x128.Idx, ((cfg0.win 9).blk t).view.emb (ix4 u u' r j) = I := ⟨_, rfl⟩
  have hI0 : (I 0).val = win0_9.index t (0 : Fin 4) * 1 + 1 * u.val := by rw [← hI]; rfl
  have hI1 : (I 1).val = win0_9.index t (1 : Fin 4) * 1 + 1 * u'.val := by rw [← hI]; rfl
  have hI2 : (I 2).val = win0_9.index t (2 : Fin 4) * 1024 + 1 * r.val := by rw [← hI]; rfl
  have hI3 : (I 3).val = win0_9.index t (3 : Fin 4) * 128 + 1 * j.val := by rw [← hI]; rfl
  rw [hI]
  have hx : ∀ e : Fin 1024, ((cfg0.win 0).blk t).view.emb (ix3 (0 : Fin 1) r e) = ix3 (I 0) (I 2) e := by
    intro e; funext a; apply Fin.ext
    match a with
    | ⟨0, _⟩ => show win0_0.index t (0 : Fin 3) * 1 + 1 * 0 = (I 0).val; omega
    | ⟨1, _⟩ => show win0_0.index t (1 : Fin 3) * 1024 + 1 * r.val = (I 2).val; omega
    | ⟨2, _⟩ => show win0_0.index t (2 : Fin 3) * 1024 + 1 * e.val = e.val; omega
  have hw : ∀ e : Fin 1024, ((cfg0.win 5).blk t).view.emb (ix2 e j) = ix2 e (Cert.Spec.feat (I 1) (I 3)) := by
    intro e; funext a; apply Fin.ext
    match a with
    | ⟨0, _⟩ => show win0_5.index t (0 : Fin 2) * 1024 + 1 * e.val = e.val; omega
    | ⟨1, _⟩ => show win0_5.index t (1 : Fin 2) * 128 + 1 * j.val = (I 1).val * 128 + (I 3).val; omega
  have hb : ((cfg0.win 6).blk t).view.emb (ix2 (0 : Fin 1) j) = ix2 0 (Cert.Spec.feat (I 1) (I 3)) := by
    funext a; apply Fin.ext
    match a with
    | ⟨0, _⟩ => show win0_6.index t (0 : Fin 2) * 1 + 1 * 0 = 0; omega
    | ⟨1, _⟩ => show win0_6.index t (1 : Fin 2) * 128 + 1 * j.val = (I 1).val * 128 + (I 3).val; omega
  show (∑ e : Fin 1024, x (((cfg0.win 0).blk t).view.emb (ix3 (0 : Fin 1) r e)) * w (((cfg0.win 5).blk t).view.emb (ix2 e j)))
      + b (((cfg0.win 6).blk t).view.emb (ix2 (0 : Fin 1) j))
    = (∑ e : Fin 1024, x (ix3 (I 0) (I 2) e) * w (ix2 e (Cert.Spec.feat (I 1) (I 3)))) + b (ix2 0 (Cert.Spec.feat (I 1) (I 3)))
  rw [hb]
  exact congrArg (· + _) (Finset.sum_congr rfl fun e _ => by rw [hx e, hw e]; rfl)

/-- WHAT POINT `t` WRITES BACK is block `t` of the projection of the arrays as the region finds them. -/
theorem flushed9_eq (c : Dev nD) (t : Fin cfg0.N) :
    (dat0 (F := Ideal) V c).flushed 9 t = ((cfg0.win 9).blk t).view.read (Elt Ideal)
      (G0 (V c (Pipeline.arrRef spec0 0)) (V c (Pipeline.arrRef spec0 5)) (V c (Pipeline.arrRef spec0 6))) := by
  show (cfg0.win 9).cut (grid0.coords t) ((dat0 V c).after 9 t) = _
  rw [after0_9]
  unfold out0_9
  rw [View.canon_unit_zero hz4_p0]
  simp only [View.ld_unit_zero (S := S1x1024x1024) hz3_p0, View.ld_unit_zero (S := S1024x128) hz2_p0, View.ld_unit_zero (S := S1x128) hz2_p0]
  funext y
  exact point9 (V c (Pipeline.arrRef spec0 0)) (V c (Pipeline.arrRef spec0 5)) (V c (Pipeline.arrRef spec0 6)) t y

/-- An index of the array is in point `t`'s block iff each coordinate is in the block's range on its axis. -/
theorem mem_blk9 (t : Fin cfg0.N) (i : S4x8x2048x128.Idx) :
    i ∈ ((cfg0.win 9).blk t).view.set ↔ ∀ a : Fin 4, win0_9.index t a * S1x1x1024x128.size a ≤ (i a).val ∧ (i a).val < win0_9.index t a * S1x1x1024x128.size a + S1x1x1024x128.size a := by
  show i ∈ ((View.whole (Pipeline.arrRef spec0 9)).slice (win0_9.rect t)).set ↔ _
  rw [View.set_slice_whole, Rect.mem_set_unit]
  exact Iff.rfl

/-- Every index of the array is in some point's block: the blocks tile it. -/
theorem cover9 (i : S4x8x2048x128.Idx) : ∃ t : Fin cfg0.N, (cfg0.win 9).flush t = true ∧ i ∈ ((cfg0.win 9).blk t).view.set := by
  have hi0 : (i 0).val < 4 := (i 0).isLt
  have hi1 : (i 1).val < 8 := (i 1).isLt
  have hi2 : (i 2).val < 2048 := (i 2).isLt
  have hi3 : (i 3).val < 128 := (i 3).isLt
  obtain ⟨t, ht⟩ := idx_onto9 ⟨(i 0).val, hi0⟩ ⟨(i 1).val, hi1⟩ ⟨(i 2).val / 1024, by omega⟩
  have q0 : win0_9.index t (0 : Fin 4) = (i 0).val := congrFun ht 0
  have q1 : win0_9.index t (1 : Fin 4) = (i 1).val := congrFun ht 1
  have q2 : win0_9.index t (2 : Fin 4) = (i 2).val / 1024 := congrFun ht 2
  have q3 : win0_9.index t (3 : Fin 4) = 0 := congrFun ht 3
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 1024 ≤ (i 2).val ∧ (i 2).val < win0_9.index t (2 : Fin 4) * 1024 + 1024; omega
  | ⟨3, _⟩ => show win0_9.index t (3 : Fin 4) * 128 ≤ (i 3).val ∧ (i 3).val < win0_9.index t (3 : Fin 4) * 128 + 128; omega

/-- The v output array after the region: the projection of the activation array by v's weights and bias. -/
theorem final0_9 (c : Dev nD) : (dat0 (F := Ideal) V c).arrAt 9 cfg0.N
    = G0 (V c (Pipeline.arrRef spec0 0)) (V c (Pipeline.arrRef spec0 5)) (V c (Pipeline.arrRef spec0 6)) :=
  (dat0 (F := Ideal) V c).arrAt_eq_of_cover 9 _ (fun t _ => flushed9_eq V c t) cover9

end Region0

end Cert.KernelIdeal.Hand

end
-- ==== Proof.ValAttnPoint.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import proofs.«403051_j18691697672859_3_alg».proof.Proof.KIReg1
import proofs.«403051_j18691697672859_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! # The attention core's value at one grid point

The body of a point (batch b, head pair hp, query tile qi) adds to the accumulator, for each half of the head
pair, the tile's  Σ_q w[k, q] · v[q, d]  where w is the softmax over the KEY axis of the scaled scores
(Σ_d K[k, d] · Q[q, d]) · 0.125. -/

/-! ## One tile's mathematics on plain coordinates -/

/-- Scores of one half of a tile, keys first: (Σ_d K[k, d]·Q[q, d]) · 0.125. -/
def tscore (Qt : Fin 512 → Fin 128 → EReal) (Kt : Fin 2048 → Fin 128 → EReal) (hf : Fin 2) (k : Fin 2048) (q : Fin 512) : EReal :=
  (∑ d : Fin 64, Kt k (Cert.Spec.lane hf d) * Qt q (Cert.Spec.lane hf d)) * Ideal.ofBits .f32 0x3E000000#32

/-- The largest score of a query over the keys (a fold of max from −∞). -/
def tmax (S : Fin 2048 → Fin 512 → EReal) (q : Fin 512) : EReal :=
  (Finset.univ : Finset (Fin 2048)).fold max (Ideal.ofBits .f32 0xFF800000#32) (fun k => S k q)

def texp (S : Fin 2048 → Fin 512 → EReal) (k : Fin 2048) (q : Fin 512) : EReal :=
  Ideal.exp (S k q - tmax S q)

/-- The softmax weight of key k for query q of the tile. -/
def tw (S : Fin 2048 → Fin 512 → EReal) (k : Fin 2048) (q : Fin 512) : EReal :=
  Ideal.div (texp S k q) (∑ k' : Fin 2048, texp S k' q)

/-- What the tile adds to out[k, d] of one half: Σ_q w[k, q]·V[q, d] over the tile's 512 queries. -/
def tcontrib (Qt : Fin 512 → Fin 128 → EReal) (Kt : Fin 2048 → Fin 128 → EReal) (Vt : Fin 512 → Fin 128 → EReal)
    (hf : Fin 2) (k : Fin 2048) (d : Fin 64) : EReal :=
  ∑ q : Fin 512, tw (tscore Qt Kt hf) k q * Vt q (Cert.Spec.lane hf d)

/-- The half and the column inside the half of lane j. -/
abbrev halfOf (j : Fin 128) : Fin 2 := ⟨j.val / 64, by omega⟩
abbrev colOf (j : Fin 128) : Fin 64 := ⟨j.val % 64, Nat.mod_lt _ (by decide)⟩

/-! ## The operations of one half, read at an index -/

section Pieces
open Idealize.ShloMosaic.ValueIdx

/-! ### The two contractions: where the operands are read -/

theorem sdot_lhs_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem sdot_lhs_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem sdot_rhs_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem sdot_rhs_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

theorem vdot_lhs_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem vdot_lhs_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem vdot_rhs_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem vdot_rhs_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The score contraction at (k, q): Σ_d K[k, d]·Q[q, d]. -/
theorem smatmul_apply (Kh : FVec Ideal S2048x64 .bf16) (Qh : FVec Ideal S512x64 .bf16) (k : Fin 2048) (q : Fin 512) :
    (matmul dot_S2048x64_S512x64_S2048x512_1_1_0_0_n_n none Kh Qh (constant S2048x512 .f32 0x00000000#32) : FVec Ideal S2048x512 .f32) (ix2 k q)
      = ∑ d : Fin 64, Kh (ix2 k d) * Qh (ix2 q d) := by
  simp only [matmul]
  rw [Ideal.matmul_constant_zero_apply, ← Equiv.sum_comp (contrEquiv1 dot_S2048x64_S512x64_S2048x512_1_1_0_0_n_n 64 rfl rfl).symm]
  refine Finset.sum_congr rfl fun d _ => ?_
  have hk := contrEquiv1_symm_val dot_S2048x64_S512x64_S2048x512_1_1_0_0_n_n 64 rfl rfl d
  have el : dot_S2048x64_S512x64_S2048x512_1_1_0_0_n_n.lhsIdx (ix2 k q) ((contrEquiv1 dot_S2048x64_S512x64_S2048x512_1_1_0_0_n_n 64 rfl rfl).symm d) = ix2 k d := funext fun a => Fin.ext (by
    match a with
    | ⟨0, _⟩ => exact sdot_lhs_0 _ _
    | ⟨1, _⟩ => exact (sdot_lhs_1 _ _).trans hk)
  have er : dot_S2048x64_S512x64_S2048x512_1_1_0_0_n_n.rhsIdx (ix2 k q) ((contrEquiv1 dot_S2048x64_S512x64_S2048x512_1_1_0_0_n_n 64 rfl rfl).symm d) = ix2 q d := funext fun a => Fin.ext (by
    match a with
    | ⟨0, _⟩ => exact sdot_rhs_0 _ _
    | ⟨1, _⟩ => exact (sdot_rhs_1 _ _).trans hk)
  rw [el, er]

/-- The value contraction at (k, d): Σ_q W[k, q]·V[q, d]. -/
theorem vmatmul_apply (W : FVec Ideal S2048x512 .bf16) (Vh : FVec Ideal S512x64 .bf16) (k : Fin 2048) (d : Fin 64) :
    (matmul dot_S2048x512_S512x64_S2048x64_1_0_0_1_n_n none W Vh (constant S2048x64 .f32 0x00000000#32) : FVec Ideal S2048x64 .f32) (ix2 k d)
      = ∑ q : Fin 512, W (ix2 k q) * Vh (ix2 q d) := by
  simp only [matmul]
  rw [Ideal.matmul_constant_zero_apply, ← Equiv.sum_comp (contrEquiv1 dot_S2048x512_S512x64_S2048x64_1_0_0_1_n_n 512 rfl rfl).symm]
  refine Finset.sum_congr rfl fun q _ => ?_
  have hk := contrEquiv1_symm_val dot_S2048x512_S512x64_S2048x64_1_0_0_1_n_n 512 rfl rfl q
  have el : dot_S2048x512_S512x64_S2048x64_1_0_0_1_n_n.lhsIdx (ix2 k d) ((contrEquiv1 dot_S2048x512_S512x64_S2048x64_1_0_0_1_n_n 512 rfl rfl).symm q) = ix2 k q := funext fun a => Fin.ext (by
    match a with
    | ⟨0, _⟩ => exact vdot_lhs_0 _ _
    | ⟨1, _⟩ => exact (vdot_lhs_1 _ _).trans hk)
  have er : dot_S2048x512_S512x64_S2048x64_1_0_0_1_n_n.rhsIdx (ix2 k d) ((contrEquiv1 dot_S2048x512_S512x64_S2048x64_1_0_0_1_n_n 512 rfl rfl).symm q) = ix2 q d := funext fun a => Fin.ext (by
    match a with
    | ⟨0, _⟩ => exact (vdot_rhs_0 _ _).trans hk
    | ⟨1, _⟩ => exact vdot_rhs_1 _ _)
  rw [el, er]

/-! ### The reductions over the key axis, spread back over the rows -/

/-- The reduced index q with key k' put back is (k', q). -/
theorem lift_col (q : Fin 512) (k' : Fin 2048) : reduces_S2048x512_S512.lift (ix1 q) k' = ix2 k' q :=
  funext fun c => Fin.ext (by match c with | ⟨0, _⟩ => rfl | ⟨1, _⟩ => rfl)

/-- A column's maximum over the keys, as every row reads it. -/
def colmax (X : FVec Ideal S2048x512 .f32) : FVec Ideal S2048x512 .f32 :=
  broadcastTo S2048x512
    (shapeCast S1x512 (multiReduction .maximumf [0] S512 X 0xFF800000#32 reduces_S2048x512_S512 (.inl rfl) rfl) shapeCasts_S512_S1x512)
    broadcasts_S1x512_S2048x512

theorem colmax_apply (X : FVec Ideal S2048x512 .f32) (k : Fin 2048) (q : Fin 512) :
    colmax X (ix2 k q) = (Finset.univ : Finset (Fin 2048)).fold max (Ideal.ofBits .f32 0xFF800000#32) (fun k' => X (ix2 k' q)) := by
  unfold colmax
  rw [broadcastTo_1b_ab_apply, shapeCast_a_1a_apply]
  refine (Ideal.multiReduction_maximumf_single X _ reduces_S2048x512_S512 _ _ (ix1 q)).trans ?_
  have hf : (X ∘ reduces_S2048x512_S512.lift (ix1 q)) = fun k' : Fin 2048 => X (ix2 k' q) :=
    funext fun k' => congrArg X (lift_col q k')
  exact congrArg (fun f => Finset.fold max (Ideal.ofBits .f32 0xFF800000#32) f (Finset.univ : Finset (Fin 2048))) hf

/-- A column's sum over the keys, as every row reads it. -/
def colsum (X : FVec Ideal S2048x512 .f32) : FVec Ideal S2048x512 .f32 :=
  broadcastTo S2048x512
    (shapeCast S1x512 (multiReduction .add [0] S512 X 0x00000000#32 reduces_S2048x512_S512 (.inl rfl) rfl) shapeCasts_S512_S1x512)
    broadcasts_S1x512_S2048x512

theorem colsum_apply (X : FVec Ideal S2048x512 .f32) (k : Fin 2048) (q : Fin 512) :
    colsum X (ix2 k q) = ∑ k' : Fin 2048, X (ix2 k' q) := by
  unfold colsum
  rw [broadcastTo_1b_ab_apply, shapeCast_a_1a_apply]
  refine (Ideal.multiReduction_add_single X _ reduces_S2048x512_S512 _ _ (ix1 q)).trans ?_
  exact Finset.sum_congr rfl fun k' _ => congrArg X (lift_col q k')

/-! ### One half's output -/

/-- The scaled scores of one half: K_half·Q_halfᵀ times the word 0.125. -/
def hscore (Qh : FVec Ideal S512x64 .bf16) (Kh : FVec Ideal S2048x64 .bf16) : FVec Ideal S2048x512 .f32 :=
  mulf (matmul dot_S2048x64_S512x64_S2048x512_1_1_0_0_n_n none Kh Qh (constant S2048x512 .f32 0x00000000#32))
    (broadcast S2048x512 (Scalar.ofBits .f32 0x3E000000#32))

/-- The exponentials of the scores less their column's maximum. -/
def hexp (Qh : FVec Ideal S512x64 .bf16) (Kh : FVec Ideal S2048x64 .bf16) : FVec Ideal S2048x512 .f32 :=
  exp (subf (hscore Qh Kh) (colmax (hscore Qh Kh)))

/-- One half's output: the softmax weights, rounded, times the value half. -/
def halfOut (Qh : FVec Ideal S512x64 .bf16) (Kh : FVec Ideal S2048x64 .bf16) (Vh : FVec Ideal S512x64 .bf16) : FVec Ideal S2048x64 .f32 :=
  matmul dot_S2048x512_S512x64_S2048x64_1_0_0_1_n_n none
    (truncf .bf16 (divf (hexp Qh Kh) (colsum (hexp Qh Kh))) bitsLt_bf16_f32)
    Vh (constant S2048x64 .f32 0x00000000#32)

/-- The scores of a half over plain coordinates. -/
def hS (Qh : FVec Ideal S512x64 .bf16) (Kh : FVec Ideal S2048x64 .bf16) (k : Fin 2048) (q : Fin 512) : EReal :=
  (∑ d : Fin 64, Kh (ix2 k d) * Qh (ix2 q d)) * Ideal.ofBits .f32 0x3E000000#32

theorem hscore_apply (Qh : FVec Ideal S512x64 .bf16) (Kh : FVec Ideal S2048x64 .bf16) (k : Fin 2048) (q : Fin 512) :
    hscore Qh Kh (ix2 k q) = hS Qh Kh k q := by
  unfold hscore hS
  rw [mulf_apply, smatmul_apply]
  rfl

theorem hexp_apply (Qh : FVec Ideal S512x64 .bf16) (Kh : FVec Ideal S2048x64 .bf16) (k : Fin 2048) (q : Fin 512) :
    hexp Qh Kh (ix2 k q) = texp (hS Qh Kh) k q := by
  show Ideal.exp (hscore Qh Kh (ix2 k q) - colmax (hscore Qh Kh) (ix2 k q)) = _
  rw [hscore_apply, colmax_apply]
  simp only [hscore_apply]
  rfl

theorem halfOut_apply (Qh : FVec Ideal S512x64 .bf16) (Kh : FVec Ideal S2048x64 .bf16) (Vh : FVec Ideal S512x64 .bf16)
    (k : Fin 2048) (d : Fin 64) :
    halfOut Qh Kh Vh (ix2 k d) = ∑ q : Fin 512, tw (hS Qh Kh) k q * Vh (ix2 q d) := by
  unfold halfOut
  rw [vmatmul_apply]
  refine Finset.sum_congr rfl fun q _ => ?_
  congr 1
  show Ideal.div (hexp Qh Kh (ix2 k q)) (colsum (hexp Qh Kh) (ix2 k q)) = _
  rw [hexp_apply, colsum_apply]
  simp only [hexp_apply]
  rfl

/-! ### The blocks' halves -/

/-- A [1, 1, 512, 128] block read as a [512, 128] matrix. -/
theorem cast512_apply (x : Vec Ideal S1x1x512x128 .bf16) (q : Fin 512) (l : Fin 128) :
    shapeCast S512x128 x shapeCasts_S1x1x512x128_S512x128 (ix2 q l) = x (ix4 0 0 q l) :=
  shapeCast_apply x _ _ _ (by
    rw [Shape.rowMajor_val_four, Shape.rowMajor_val_two]
    show ((0 * 1 + 0) * 512 + q.val) * 128 + l.val = q.val * 128 + l.val
    omega)

/-- A [1, 1, 2048, 128] block read as a [2048, 128] matrix. -/
theorem cast2048_apply (x : Vec Ideal S1x1x2048x128 .bf16) (k : Fin 2048) (l : Fin 128) :
    shapeCast S2048x128 x shapeCasts_S1x1x2048x128_S2048x128 (ix2 k l) = x (ix4 0 0 k l) :=
  shapeCast_apply x _ _ _ (by
    rw [Shape.rowMajor_val_four, Shape.rowMajor_val_two]
    show ((0 * 1 + 0) * 2048 + k.val) * 128 + l.val = k.val * 128 + l.val
    omega)

/-- The first 64 lanes of a [512, 128] matrix are half 0's. -/
theorem slice512_0 (X : FVec Ideal S512x128 .bf16) (q : Fin 512) (d : Fin 64) :
    extractStridedSlice S512x64 ![0, 0] X slices_S512x128_o0_0_S512x64 (ix2 q d) = X (ix2 q (Cert.Spec.lane 0 d)) :=
  slice2_axis1_apply 0 X _ q d (Cert.Spec.lane 0 d) (by show 0 * 64 + d.val = 0 + d.val; omega)
/-- The last 64 lanes are half 1's. -/
theorem slice512_1 (X : FVec Ideal S512x128 .bf16) (q : Fin 512) (d : Fin 64) :
    extractStridedSlice S512x64 ![0, 64] X slices_S512x128_o0_64_S512x64 (ix2 q d) = X (ix2 q (Cert.Spec.lane 1 d)) :=
  slice2_axis1_apply 64 X _ q d (Cert.Spec.lane 1 d) (by show 1 * 64 + d.val = 64 + d.val; omega)
theorem slice2048_0 (X : FVec Ideal S2048x128 .bf16) (k : Fin 2048) (d : Fin 64) :
    extractStridedSlice S2048x64 ![0, 0] X slices_S2048x128_o0_0_S2048x64 (ix2 k d) = X (ix2 k (Cert.Spec.lane 0 d)) :=
  slice2_axis1_apply 0 X _ k d (Cert.Spec.lane 0 d) (by show 0 * 64 + d.val = 0 + d.val; omega)
theorem slice2048_1 (X : FVec Ideal S2048x128 .bf16) (k : Fin 2048) (d : Fin 64) :
    extractStridedSlice S2048x64 ![0, 64] X slices_S2048x128_o0_64_S2048x64 (ix2 k d) = X (ix2 k (Cert.Spec.lane 1 d)) :=
  slice2_axis1_apply 64 X _ k d (Cert.Spec.lane 1 d) (by show 1 * 64 + d.val = 64 + d.val; omega)

/-- One half's output over the blocks' coordinates is the tile's contribution for that half. -/
theorem half_tcontrib (xq : Vec Ideal S1x1x512x128 .bf16) (xk : Vec Ideal S1x1x2048x128 .bf16) (xv : Vec Ideal S1x1x512x128 .bf16)
    (hf : Fin 2) (Qh : FVec Ideal S512x64 .bf16) (Kh : FVec Ideal S2048x64 .bf16) (Vh : FVec Ideal S512x64 .bf16)
    (hQ : ∀ (q : Fin 512) (d : Fin 64), Qh (ix2 q d) = xq (ix4 0 0 q (Cert.Spec.lane hf d)))
    (hK : ∀ (k : Fin 2048) (d : Fin 64), Kh (ix2 k d) = xk (ix4 0 0 k (Cert.Spec.lane hf d)))
    (hV : ∀ (q : Fin 512) (d : Fin 64), Vh (ix2 q d) = xv (ix4 0 0 q (Cert.Spec.lane hf d)))
    (k : Fin 2048) (d : Fin 64) :
    halfOut Qh Kh Vh (ix2 k d) = tcontrib (fun q l => xq (ValueIdx.ix4 0 0 q l)) (fun k' l => xk (ValueIdx.ix4 0 0 k' l)) (fun q l => xv (ValueIdx.ix4 0 0 q l)) hf k d := by
  rw [halfOut_apply]
  have hS' : hS Qh Kh = tscore (fun q l => xq (ValueIdx.ix4 0 0 q l)) (fun k' l => xk (ValueIdx.ix4 0 0 k' l)) hf :=
    funext fun k => funext fun q => by unfold hS tscore; simp only [hQ, hK]
  rw [hS']
  unfold tcontrib
  simp only [hV]

/-- The body's contribution is the two halves' outputs side by side. -/
theorem contrib1_halves (xq : Vec Ideal S1x1x512x128 .bf16) (xk : Vec Ideal S1x1x2048x128 .bf16) (xv : Vec Ideal S1x1x512x128 .bf16) :
    contrib1 (F := Ideal) xq xk xv
      = concatenate S2048x128 1
          [⟨S2048x64, halfOut (extractStridedSlice S512x64 ![0, 0] (k1_pay4 xq) slices_S512x128_o0_0_S512x64) (extractStridedSlice S2048x64 ![0, 0] (k1_pay5 xk) slices_S2048x128_o0_0_S2048x64) (extractStridedSlice S512x64 ![0, 0] (k1_pay6 xv) slices_S512x128_o0_0_S512x64)⟩,
           ⟨S2048x64, halfOut (extractStridedSlice S512x64 ![0, 64] (k1_pay4 xq) slices_S512x128_o0_64_S512x64) (extractStridedSlice S2048x64 ![0, 64] (k1_pay5 xk) slices_S2048x128_o0_64_S2048x64) (extractStridedSlice S512x64 ![0, 64] (k1_pay6 xv) slices_S512x128_o0_64_S512x64)⟩]
          concatenates_S2048x64_S2048x64_S2048x128_d1 := rfl

end Pieces

/-! ## The body's contribution at an index -/

/-- What a point adds to the accumulator, read at row k, lane j: the tile's contribution for the
    half and column of lane j, over the three blocks read at their coordinates. -/
theorem contrib1_apply (xq : Vec Ideal S1x1x512x128 .bf16) (xk : Vec Ideal S1x1x2048x128 .bf16) (xv : Vec Ideal S1x1x512x128 .bf16)
    (k : Fin 2048) (j : Fin 128) :
    contrib1 (F := Ideal) xq xk xv (ValueIdx.ix2 k j)
      = tcontrib (fun q l => xq (ValueIdx.ix4 0 0 q l)) (fun k' l => xk (ValueIdx.ix4 0 0 k' l)) (fun q l => xv (ValueIdx.ix4 0 0 q l))
          (halfOf j) k (colOf j) := by
  rw [contrib1_halves]
  by_cases hlt : j.val < 64
  · rw [concatenate_pair_apply_left 1 _ _ concatenates_S2048x64_S2048x64_S2048x128_d1 (ValueIdx.ix2 k j) rfl
      (ValueIdx.ix2 k (⟨j.val, hlt⟩ : Fin 64)) (fun b => by match b with | ⟨0, _⟩ => rfl | ⟨1, _⟩ => rfl)]
    have h1 : halfOf j = (0 : Fin 2) := Fin.ext (Nat.div_eq_of_lt hlt)
    have h2 : colOf j = (⟨j.val, hlt⟩ : Fin 64) := Fin.ext (Nat.mod_eq_of_lt hlt)
    rw [h1, h2]
    exact half_tcontrib xq xk xv 0 _ _ _
      (fun q d => (slice512_0 _ q d).trans (cast512_apply xq q _))
      (fun k' d => (slice2048_0 _ k' d).trans (cast2048_apply xk k' _))
      (fun q d => (slice512_0 _ q d).trans (cast512_apply xv q _)) k _
  · have hge : 64 ≤ j.val := Nat.le_of_not_lt hlt
    have hj := j.isLt
    rw [concatenate_pair_apply_right 1 _ _ concatenates_S2048x64_S2048x64_S2048x128_d1 (ValueIdx.ix2 k j) rfl rfl
      (ValueIdx.ix2 k (⟨j.val - 64, by omega⟩ : Fin 64))
      (fun b hb => by match b with | ⟨0, _⟩ => rfl | ⟨1, _⟩ => exact absurd rfl hb)
      (by show (j.val - 64) + 64 = j.val; omega)]
    have h1 : halfOf j = (1 : Fin 2) := Fin.ext (by show j.val / 64 = 1; omega)
    have h2 : colOf j = (⟨j.val - 64, by omega⟩ : Fin 64) := Fin.ext (by show j.val % 64 = j.val - 64; omega)
    rw [h1, h2]
    exact half_tcontrib xq xk xv 1 _ _ _
      (fun q d => (slice512_1 _ q d).trans (cast512_apply xq q _))
      (fun k' d => (slice2048_1 _ k' d).trans (cast2048_apply xk k' _))
      (fun q d => (slice512_1 _ q d).trans (cast512_apply xv q _)) k _

end Cert.KernelIdeal.Hand

end
-- ==== Proof.ValAttn.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import proofs.«403051_j18691697672859_3_alg».proof.Proof.KIReg1
import proofs.«403051_j18691697672859_3_alg».proof.Proof.Spec
import proofs.«403051_j18691697672859_3_alg».proof.Proof.ValAttnPoint
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! # The attention core's value: what region 1 leaves in its output array

A point (batch b, head pair hp, query tile qi) adds the tile's contribution to the accumulator, which starts from
zero at qi = 0 and is stored, rounded, at qi = 3. So the accumulator after the point of tile qi is the partial sum
of the specification's contributions up to qi (an induction over the four points of a block's run), what is written
back at qi = 3 is the block of the specification's attention output, and the blocks of the last points cover the
output array. -/

/-- The specification's contribution of query tile qi is the tile's, at the arrays' rows of that tile. -/
theorem kcontrib_eq_tcontrib (Q K V : Cert.Spec.A4) (bi : Fin 4) (hp : Fin 8) (hf : Fin 2) (qi : Fin 4) (k : Fin 2048) (d : Fin 64) :
    Cert.Spec.kcontrib Q K V bi hp hf qi k d
      = tcontrib (fun q l => Q bi hp (Cert.Spec.qrow qi q) l) (fun k' l => K bi hp k' l) (fun q l => V bi hp (Cert.Spec.qrow qi q) l) hf k d := rfl

section Region1Value
variable (V : (c : Dev nD) → (b : Ref sig .tc) → Buf (Elt Ideal) ((c : Thread nD τ).loc b))

/-- The three input arrays of the region as the specification reads them. -/
abbrev Qarr (c : Dev nD) : Cert.Spec.A4 := Cert.Spec.of4 (V c (Pipeline.arrRef spec1 0))
abbrev Karr (c : Dev nD) : Cert.Spec.A4 := Cert.Spec.of4 (V c (Pipeline.arrRef spec1 1))
abbrev Varr (c : Dev nD) : Cert.Spec.A4 := Cert.Spec.of4 (V c (Pipeline.arrRef spec1 2))

/-- The grid point of batch b, head pair hp, query tile qi. -/
def pt1 (b : Fin 4) (hp : Fin 8) (qi : Fin 4) : Fin cfg1.N :=
  ⟨(b.val * 8 + hp.val) * 4 + qi.val, by rw [show cfg1.N = 128 from N_1]; omega⟩

theorem pt1_val (b : Fin 4) (hp : Fin 8) (qi : Fin 4) : (pt1 b hp qi).val = (b.val * 8 + hp.val) * 4 + qi.val := rfl

/-- The accumulator's partial sums over the query tiles, from zero, one tile after the other. -/
def kaccTo (Q K W : Cert.Spec.A4) (bi : Fin 4) (hp : Fin 8) (hf : Fin 2) (k : Fin 2048) (d : Fin 64) : (n : ℕ) → n < 4 → EReal
  | 0, h => 0 + Cert.Spec.kcontrib Q K W bi hp hf ⟨0, h⟩ k d
  | n + 1, h => kaccTo Q K W bi hp hf k d n (Nat.lt_of_succ_lt h) + Cert.Spec.kcontrib Q K W bi hp hf ⟨n + 1, h⟩ k d

theorem kaccTo_three (Q K W : Cert.Spec.A4) (bi : Fin 4) (hp : Fin 8) (hf : Fin 2) (k : Fin 2048) (d : Fin 64) :
    kaccTo Q K W bi hp hf k d 3 (by decide) = Cert.Spec.kacc Q K W bi hp hf k d := rfl

/-- The printed index maps of the region's four windows, decided once over the grid: the point's batch, head pair
    and query tile. -/
theorem idx_facts1 : ∀ t : Fin cfg1.N,
    win1_0.index t (0 : Fin 4) = t.val / 32 ∧ win1_0.index t (1 : Fin 4) = t.val / 4 % 8 ∧ win1_0.index t (2 : Fin 4) = t.val % 4 ∧ win1_0.index t (3 : Fin 4) = 0
    ∧ win1_1.index t (0 : Fin 4) = t.val / 32 ∧ win1_1.index t (1 : Fin 4) = t.val / 4 % 8 ∧ win1_1.index t (2 : Fin 4) = 0 ∧ win1_1.index t (3 : Fin 4) = 0
    ∧ win1_2.index t (0 : Fin 4) = t.val / 32 ∧ win1_2.index t (1 : Fin 4) = t.val / 4 % 8 ∧ win1_2.index t (2 : Fin 4) = t.val % 4 ∧ win1_2.index t (3 : Fin 4) = 0
    ∧ win1_3.index t (0 : Fin 4) = t.val / 32 ∧ win1_3.index t (1 : Fin 4) = t.val / 4 % 8 ∧ win1_3.index t (2 : Fin 4) = 0 ∧ win1_3.index t (3 : Fin 4) = 0 :=
  (by decide +kernel : ∀ t : Fin grid1.N, _)

/-- An element of the query block of a point is the array's at the point's batch, head pair and tile row. -/
theorem iblk1_0_apply (c : Dev nD) (b : Fin 4) (hp : Fin 8) (qi : Fin 4) (q : Fin 512) (l : Fin 128) :
    iblk1 V c 0 (pt1 b hp qi) (ValueIdx.ix4 0 0 q l) = Qarr V c b hp (Cert.Spec.qrow qi q) l := by
  obtain ⟨e0, e1, e2, e3, -⟩ := idx_facts1 (pt1 b hp qi)
  rw [pt1_val] at e0 e1 e2
  show V c (Pipeline.arrRef spec1 0) (((cfg1.win 0).blk (pt1 b hp qi)).view.emb (ValueIdx.ix4 0 0 q l)) = V c (Pipeline.arrRef spec1 0) (ValueIdx.ix4 b hp (Cert.Spec.qrow qi q) l)
  refine congrArg _ (funext fun a => Fin.ext ?_)
  match a with
  | ⟨0, _⟩ => show win1_0.index (pt1 b hp qi) (0 : Fin 4) * 1 + 1 * 0 = b.val; omega
  | ⟨1, _⟩ => show win1_0.index (pt1 b hp qi) (1 : Fin 4) * 1 + 1 * 0 = hp.val; omega
  | ⟨2, _⟩ => show win1_0.index (pt1 b hp qi) (2 : Fin 4) * 512 + 1 * q.val = qi.val * 512 + q.val; omega
  | ⟨3, _⟩ => show win1_0.index (pt1 b hp qi) (3 : Fin 4) * 128 + 1 * l.val = l.val; omega

/-- An element of the key block of a point is the array's at the point's batch and head pair. -/
theorem iblk1_1_apply (c : Dev nD) (b : Fin 4) (hp : Fin 8) (qi : Fin 4) (k : Fin 2048) (l : Fin 128) :
    iblk1 V c 1 (pt1 b hp qi) (ValueIdx.ix4 0 0 k l) = Karr V c b hp k l := by
  obtain ⟨-, -, -, -, e0, e1, e2, e3, -⟩ := idx_facts1 (pt1 b hp qi)
  rw [pt1_val] at e0 e1
  show V c (Pipeline.arrRef spec1 1) (((cfg1.win 1).blk (pt1 b hp qi)).view.emb (ValueIdx.ix4 0 0 k l)) = V c (Pipeline.arrRef spec1 1) (ValueIdx.ix4 b hp k l)
  refine congrArg _ (funext fun a => Fin.ext ?_)
  match a with
  | ⟨0, _⟩ => show win1_1.index (pt1 b hp qi) (0 : Fin 4) * 1 + 1 * 0 = b.val; omega
  | ⟨1, _⟩ => show win1_1.index (pt1 b hp qi) (1 : Fin 4) * 1 + 1 * 0 = hp.val; omega
  | ⟨2, _⟩ => show win1_1.index (pt1 b hp qi) (2 : Fin 4) * 2048 + 1 * k.val = k.val; omega
  | ⟨3, _⟩ => show win1_1.index (pt1 b hp qi) (3 : Fin 4) * 128 + 1 * l.val = l.val; omega

/-- An element of the value block of a point is the array's at the point's batch, head pair and tile row. -/
theorem iblk1_2_apply (c : Dev nD) (b : Fin 4) (hp : Fin 8) (qi : Fin 4) (q : Fin 512) (l : Fin 128) :
    iblk1 V c 2 (pt1 b hp qi) (ValueIdx.ix4 0 0 q l) = Varr V c b hp (Cert.Spec.qrow qi q) l := by
  obtain ⟨-, -, -, -, -, -, -, -, e0, e1, e2, e3, -⟩ := idx_facts1 (pt1 b hp qi)
  rw [pt1_val] at e0 e1 e2
  show V c (Pipeline.arrRef spec1 2) (((cfg1.win 2).blk (pt1 b hp qi)).view.emb (ValueIdx.ix4 0 0 q l)) = V c (Pipeline.arrRef spec1 2) (ValueIdx.ix4 b hp (Cert.Spec.qrow qi q) l)
  refine congrArg _ (funext fun a => Fin.ext ?_)
  match a with
  | ⟨0, _⟩ => show win1_2.index (pt1 b hp qi) (0 : Fin 4) * 1 + 1 * 0 = b.val; omega
  | ⟨1, _⟩ => show win1_2.index (pt1 b hp qi) (1 : Fin 4) * 1 + 1 * 0 = hp.val; omega
  | ⟨2, _⟩ => show win1_2.index (pt1 b hp qi) (2 : Fin 4) * 512 + 1 * q.val = qi.val * 512 + q.val; omega
  | ⟨3, _⟩ => show win1_2.index (pt1 b hp qi) (3 : Fin 4) * 128 + 1 * l.val = l.val; omega

/-- The point's contribution, read at row k, lane j, is the specification's for the point's batch, head pair and
    query tile. -/
theorem contrib1_at (c : Dev nD) (b : Fin 4) (hp : Fin 8) (qi : Fin 4) (k : Fin 2048) (j : Fin 128) :
    contrib1 (F := Ideal) (iblk1 V c 0 (pt1 b hp qi)) (iblk1 V c 1 (pt1 b hp qi)) (iblk1 V c 2 (pt1 b hp qi)) (ValueIdx.ix2 k j)
      = Cert.Spec.kcontrib (Qarr V c) (Karr V c) (Varr V c) b hp (halfOf j) qi k (colOf j) := by
  rw [contrib1_apply, kcontrib_eq_tcontrib]
  have hq : (fun (q : Fin 512) (l : Fin 128) => iblk1 V c 0 (pt1 b hp qi) (ValueIdx.ix4 0 0 q l)) = fun q l => Qarr V c b hp (Cert.Spec.qrow qi q) l :=
    funext fun q => funext fun l => iblk1_0_apply V c b hp qi q l
  have hk : (fun (k' : Fin 2048) (l : Fin 128) => iblk1 V c 1 (pt1 b hp qi) (ValueIdx.ix4 0 0 k' l)) = fun k' l => Karr V c b hp k' l :=
    funext fun k' => funext fun l => iblk1_1_apply V c b hp qi k' l
  have hv : (fun (q : Fin 512) (l : Fin 128) => iblk1 V c 2 (pt1 b hp qi) (ValueIdx.ix4 0 0 q l)) = fun q l => Varr V c b hp (Cert.Spec.qrow qi q) l :=
    funext fun q => funext fun l => iblk1_2_apply V c b hp qi q l
  rw [hq, hk, hv]

/-- The accumulator's contents depend on the point's number only. -/
theorem accAt1_congr (c : Dev nD) (n n' : ℕ) (h : n = n') (hn : n < cfg1.N) (hn' : n' < cfg1.N) :
    accAt1 (F := Ideal) V c n hn = accAt1 (F := Ideal) V c n' hn' := by
  subst h; rfl

/-- The zero block the reset stores reads 0 everywhere. -/
theorem k1_pay3_apply (i : S2048x128.Idx) : k1_pay3 (F := Ideal) i = 0 := by
  show Ideal.ofBits .f32 0x00000000#32 = 0
  exact Ideal.ofBits_zero_f32

/-- The accumulator after the point of (b, hp, qi), read at row k, lane j: the partial sum up to tile qi. -/
theorem accAt1_apply (c : Dev nD) (b : Fin 4) (hp : Fin 8) (k : Fin 2048) (j : Fin 128) :
    ∀ (n : ℕ) (hn : n < 4), accAt1 (F := Ideal) V c (pt1 b hp ⟨n, hn⟩).val (pt1 b hp ⟨n, hn⟩).isLt (ValueIdx.ix2 k j)
      = kaccTo (Qarr V c) (Karr V c) (Varr V c) b hp (halfOf j) k (colOf j) n hn
  | 0, hn => by
    rw [accAt1_zero V c _ _ (by rw [pt1_val]; show ((b.val * 8 + hp.val) * 4 + 0) % 4 = 0; omega)]
    rw [ValueIdx.addf_apply, k1_pay3_apply]
    exact congrArg (0 + ·) (contrib1_at V c b hp ⟨0, hn⟩ k j)
  | n + 1, hn => by
    rw [accAt1_succ V c _ _ (by rw [pt1_val]; show ((b.val * 8 + hp.val) * 4 + (n + 1)) % 4 ≠ 0; omega)]
    rw [ValueIdx.addf_apply]
    rw [accAt1_congr V c ((pt1 b hp ⟨n + 1, hn⟩).val - 1) (pt1 b hp ⟨n, Nat.lt_of_succ_lt hn⟩).val (by rw [pt1_val, pt1_val]; show (b.val * 8 + hp.val) * 4 + (n + 1) - 1 = (b.val * 8 + hp.val) * 4 + n; omega) _ (pt1 b hp ⟨n, Nat.lt_of_succ_lt hn⟩).isLt]
    rw [accAt1_apply c b hp k j n (Nat.lt_of_succ_lt hn), contrib1_at V c b hp ⟨n + 1, hn⟩ k j]
    rfl

/-! ## From the blocks to the array -/

/-- The stored block (the accumulator rounded, with two unit axes in front) reads the accumulator at its row and lane. -/
theorem out1_3_apply (acc : Vec Ideal S2048x128 .f32) (u v : Fin 1) (k : Fin 2048) (j : Fin 128) :
    out1_3 (F := Ideal) acc (ValueIdx.ix4 u v k j) = acc (ValueIdx.ix2 k j) := by
  rw [out1_3_eq]
  refine (shapeCast_apply _ _ _ (ValueIdx.ix2 k j) ?_).trans ?_
  · rw [Shape.rowMajor_val_two, Shape.rowMajor_val_four]
    have hu : u.val = 0 := by omega
    have hv : v.val = 0 := by omega
    show k.val * 128 + j.val = ((u.val * 1 + v.val) * 2048 + k.val) * 128 + j.val
    omega
  · rfl

/-- What the output array ends holding: the specification's attention output of the three input arrays. -/
abbrev G1 (c : Dev nD) : S4x8x2048x128.Idx → EReal := fun i =>
  Cert.Spec.kattn (Qarr V c) (Karr V c) (Varr V c) (i 0) (i 1) (i 2) (i 3)

/-- What a storing point leaves in the output's buffer, element by element, is the attention output at the
    element's place in the array. -/
theorem out1_3_blk (c : Dev nD) (t : Fin cfg1.N) (h3 : t.val % 4 = 3) (y : S1x1x2048x128.Idx) :
    out1_3 (F := Ideal) (accAt1 (F := Ideal) V c t.val t.isLt) y = G1 V c (((cfg1.win 3).blk t).view.emb y) := by
  obtain ⟨u, v, k, j, rfl⟩ : ∃ (u : Fin 1) (v : Fin 1) (k : Fin 2048) (j : Fin 128), y = ValueIdx.ix4 u v k j :=
    ⟨y 0, y 1, y 2, y 3, ValueIdx.eq_ix4 y⟩
  have ht : t.val < 128 := lt_of_lt_of_eq t.isLt N_1
  obtain ⟨-, -, -, -, -, -, -, -, -, -, -, -, e0, e1, e2, e3⟩ := idx_facts1 t
  have hu : u.val = 0 := by omega
  have hv : v.val = 0 := by omega
  have hemb : ((cfg1.win 3).blk t).view.emb (ValueIdx.ix4 u v k j)
      = ValueIdx.ix4 (⟨t.val / 32, by omega⟩ : Fin 4) (⟨t.val / 4 % 8, by omega⟩ : Fin 8) k j := by
    refine funext fun a => Fin.ext ?_
    match a with
    | ⟨0, _⟩ => show win1_3.index t (0 : Fin 4) * 1 + 1 * u.val = t.val / 32; omega
    | ⟨1, _⟩ => show win1_3.index t (1 : Fin 4) * 1 + 1 * v.val = t.val / 4 % 8; omega
    | ⟨2, _⟩ => show win1_3.index t (2 : Fin 4) * 2048 + 1 * k.val = k.val; omega
    | ⟨3, _⟩ => show win1_3.index t (3 : Fin 4) * 128 + 1 * j.val = j.val; omega
  rw [hemb, out1_3_apply]
  rw [accAt1_congr V c t.val (pt1 ⟨t.val / 32, by omega⟩ ⟨t.val / 4 % 8, by omega⟩ ⟨3, by decide⟩).val
    (by rw [pt1_val]; show t.val = (t.val / 32 * 8 + t.val / 4 % 8) * 4 + 3; omega) t.isLt (pt1 _ _ _).isLt]
  rw [accAt1_apply V c _ _ k j 3 (by decide)]
  exact kaccTo_three _ _ _ _ _ _ _ _

/-- WHAT A STORING POINT WRITES BACK is its block of the attention output. -/
theorem flushed1_3_eq (c : Dev nD) (t : Fin cfg1.N) (hf : (cfg1.win 3).flush t = true) :
    (dat1 (F := Ideal) V c).flushed 3 t = ((cfg1.win 3).blk t).view.read (Elt Ideal) (G1 V c) := by
  have h3 : t.val % 4 = 3 := (flush1_3 t).mp hf
  show (cfg1.win 3).cut (grid1.coords t) ((dat1 (F := Ideal) V c).after 3 t) = _
  rw [after1_3]
  exact funext fun y => out1_3_blk V c t h3 y

/-- An index of the array is in point t's block iff each coordinate is in the block's range on its axis. -/
theorem mem_blk1_3 (t : Fin cfg1.N) (i : S4x8x2048x128.Idx) :
    i ∈ ((cfg1.win 3).blk t).view.set ↔ ∀ a : Fin 4, win1_3.index t a * S1x1x2048x128.size a ≤ (i a).val ∧ (i a).val < win1_3.index t a * S1x1x2048x128.size a + S1x1x2048x128.size a := by
  show i ∈ ((View.whole main_v8).slice (win1_3.rect t)).set ↔ _
  rw [View.set_slice_whole, Rect.mem_set_unit]
  exact Iff.rfl

/-- Every index of the output array is in the block of the last point of its batch and head pair. -/
theorem cover1_3 (i : S4x8x2048x128.Idx) :
    ∃ t : Fin cfg1.N, (cfg1.win 3).flush t = true ∧ i ∈ ((cfg1.win 3).blk t).view.set := by
  obtain ⟨b, hp, k, j, rfl⟩ : ∃ (b : Fin 4) (hp : Fin 8) (k : Fin 2048) (j : Fin 128), i = ValueIdx.ix4 b hp k j :=
    ⟨i 0, i 1, i 2, i 3, ValueIdx.eq_ix4 i⟩
  refine ⟨pt1 b hp ⟨3, by decide⟩, (flush1_3 _).mpr (by rw [pt1_val]; show ((b.val * 8 + hp.val) * 4 + 3) % 4 = 3; omega), ?_⟩
  obtain ⟨-, -, -, -, -, -, -, -, -, -, -, -, e0, e1, e2, e3⟩ := idx_facts1 (pt1 b hp ⟨3, by decide⟩)
  rw [pt1_val] at e0 e1
  rw [mem_blk1_3]
  intro a
  match a with
  | ⟨0, _⟩ => show win1_3.index (pt1 b hp ⟨3, by decide⟩) (0 : Fin 4) * 1 ≤ b.val ∧ b.val < win1_3.index (pt1 b hp ⟨3, by decide⟩) (0 : Fin 4) * 1 + 1; omega
  | ⟨1, _⟩ => show win1_3.index (pt1 b hp ⟨3, by decide⟩) (1 : Fin 4) * 1 ≤ hp.val ∧ hp.val < win1_3.index (pt1 b hp ⟨3, by decide⟩) (1 : Fin 4) * 1 + 1; omega
  | ⟨2, _⟩ => show win1_3.index (pt1 b hp ⟨3, by decide⟩) (2 : Fin 4) * 2048 ≤ k.val ∧ k.val < win1_3.index (pt1 b hp ⟨3, by decide⟩) (2 : Fin 4) * 2048 + 2048; omega
  | ⟨3, _⟩ => show win1_3.index (pt1 b hp ⟨3, by decide⟩) (3 : Fin 4) * 128 ≤ j.val ∧ j.val < win1_3.index (pt1 b hp ⟨3, by decide⟩) (3 : Fin 4) * 128 + 128; omega

/-- THE OUTPUT ARRAY after the region: the specification's attention output of the three input arrays. -/
theorem final1_3 (c : Dev nD) :
    (dat1 (F := Ideal) V c).arrAt 3 cfg1.N
      = fun i => Cert.Spec.kattn (Cert.Spec.of4 (V c (Pipeline.arrRef spec1 0))) (Cert.Spec.of4 (V c (Pipeline.arrRef spec1 1)))
          (Cert.Spec.of4 (V c (Pipeline.arrRef spec1 2))) (i 0) (i 1) (i 2) (i 3) :=
  (dat1 (F := Ideal) V c).arrAt_eq_of_cover 3 (G1 V c) (fun t hf => flushed1_3_eq V c t hf) cover1_3

end Region1Value

end Cert.KernelIdeal.Hand

end
-- ==== Proof.ValProj2.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import proofs.«403051_j18691697672859_3_alg».proof.Proof.KIReg2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

/-! # Region 2 of the program, read: what the output projection leaves in its output array

At the ideal values (extended reals, every operation exact) the third pipeline's output array ends holding, at row
`r` and column `j`, the sum over `e` of the activations at `(r, e)` times the weights at `(e, j)`, plus the bias at
`j`: each of the eight points writes the block of 1024 rows it computed, and the eight blocks tile the array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- The output projection as one function of the whole arrays: row `i 0` of the activations against column `i 1` of
    the weights, plus the bias at `i 1`. -/
def G2 (o : Vec Ideal S8192x1024 .bf16) (w : Vec Ideal S1024x1024 .bf16) (b : Vec Ideal S1x1024 .f32) : Vec Ideal S8192x1024 .f32 :=
  fun i => (∑ e : Fin 1024, o (ValueIdx.ix2 (i 0) e) * w (ValueIdx.ix2 e (i 1))) + b (ValueIdx.ix2 0 (i 1))

/-- `G2` at row `r`, column `j`. -/
theorem G2_apply (o : Vec Ideal S8192x1024 .bf16) (w : Vec Ideal S1024x1024 .bf16) (b : Vec Ideal S1x1024 .f32)
    (r : Fin 8192) (j : Fin 1024) :
    G2 o w b (ValueIdx.ix2 r j) = (∑ e : Fin 1024, o (ValueIdx.ix2 r e) * w (ValueIdx.ix2 e j)) + b (ValueIdx.ix2 0 j) := rfl

/-! ## The payload at an index -/

theorem hz2_3 : (![0, 0] : Fin 2 → Nat) = fun _ => 0 := funext fun a => by fin_cases a <;> rfl

/-- The product's left operand is read at the output's row … -/
theorem lhs2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and the contraction index, -/
theorem lhs2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the contraction index … -/
theorem rhs2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and the output's column. -/
theorem rhs2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's payload at row `r`, column `j` of the block: the row of the first block against the column of the second,
    plus the third block's entry at the column. -/
theorem pay2_apply (x0 : Vec Ideal S1024x1024 .bf16) (x1 : Vec Ideal S1024x1024 .bf16) (x2 : Vec Ideal S1x1024 .f32)
    (r j : Fin 1024) :
    k2_pay1 (F := Ideal) x0 x1 x2 (ValueIdx.ix2 r j)
      = (∑ e : Fin 1024, x0 (ValueIdx.ix2 r e) * x1 (ValueIdx.ix2 e j)) + x2 (ValueIdx.ix2 0 j) := by
  unfold k2_pay1
  rw [ValueIdx.addf_apply]
  simp only [matmul]
  rw [Ideal.matmul_constant_zero_apply, ← Equiv.sum_comp (ValueIdx.contrEquiv1 dot_S1024x1024_S1024x1024_S1024x1024_1_0_0_1_n_n 1024 rfl rfl).symm]
  congr 1
  · refine Finset.sum_congr rfl fun k _ => ?_
    have hk := ValueIdx.contrEquiv1_symm_val dot_S1024x1024_S1024x1024_S1024x1024_1_0_0_1_n_n 1024 rfl rfl k
    have el : dot_S1024x1024_S1024x1024_S1024x1024_1_0_0_1_n_n.lhsIdx (ValueIdx.ix2 r j) ((ValueIdx.contrEquiv1 dot_S1024x1024_S1024x1024_S1024x1024_1_0_0_1_n_n 1024 rfl rfl).symm k) = ValueIdx.ix2 r k := funext fun a => Fin.ext (by
      match a with
      | ⟨0, _⟩ => exact lhs2_0 _ _
      | ⟨1, _⟩ => exact (lhs2_1 _ _).trans hk)
    have er : dot_S1024x1024_S1024x1024_S1024x1024_1_0_0_1_n_n.rhsIdx (ValueIdx.ix2 r j) ((ValueIdx.contrEquiv1 dot_S1024x1024_S1024x1024_S1024x1024_1_0_0_1_n_n 1024 rfl rfl).symm k) = ValueIdx.ix2 k j := funext fun a => Fin.ext (by
      match a with
      | ⟨0, _⟩ => exact (rhs2_0 _ _).trans hk
      | ⟨1, _⟩ => exact rhs2_1 _ _)
    rw [el, er]
    rw [shapeCast_apply x0 shapeCasts_S1024x1024_S1024x1024 _ (ValueIdx.ix2 r k) rfl,
      shapeCast_apply x1 shapeCasts_S1024x1024_S1024x1024 _ (ValueIdx.ix2 k j) rfl]
  · rw [broadcastTo_apply _ broadcasts_S1x1024_S1024x1024 (ValueIdx.ix2 r j) (ValueIdx.ix2 0 j) (fun a => by
      match a with
      | ⟨0, _⟩ => rfl
      | ⟨1, _⟩ => rfl)]
    rw [shapeCast_apply x2 shapeCasts_S1x1024_S1x1024 _ (ValueIdx.ix2 0 j) rfl]

section Regions
variable (V : (c : Dev nD) → (b : Ref sig .tc) → Buf (Elt Ideal) ((c : Thread nD τ).loc b))

/-! ## From blocks to the array -/

/-- The printed index maps, decided over the grid: the row block of the activations moves with the output's, at
    point `t` block `t`; the weights, the bias and every column block stay at block 0. -/
theorem idx_facts2_3 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `G2` of the arrays as the region finds them. -/
theorem flushed2_3_eq (c : Dev nD) (t : Fin cfg2.N) :
    (dat2 (F := Ideal) V c).flushed 3 t
      = ((cfg2.win 3).blk t).view.read (Elt Ideal)
          (G2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz2_3]
  simp only [View.ld_unit_zero (S := S1024x1024) hz2_3, View.ld_unit_zero (S := S1x1024) hz2_3]
  obtain ⟨e0, e1, e2, e3, e4, e5, e6, e7⟩ := idx_facts2_3 t
  funext j
  -- the block index by its coordinates: row r, column q of the block
  obtain ⟨r, q, rfl⟩ : ∃ (r q : Fin 1024), j = ValueIdx.ix2 r q :=
    ⟨⟨(j 0).val, (j 0).isLt⟩, ⟨(j 1).val, (j 1).isLt⟩, by funext a; match a with | ⟨0, _⟩ => rfl | ⟨1, _⟩ => rfl⟩
  show k2_pay1 (F := Ideal) (iblk2 V c 0 t) (iblk2 V c 1 t) (iblk2 V c 2 t) (ValueIdx.ix2 r q)
    = G2 (V c (Pipeline.arrRef spec2 0)) (V c (Pipeline.arrRef spec2 1)) (V c (Pipeline.arrRef spec2 2))
        (((cfg2.win 3).blk t).view.emb (ValueIdx.ix2 r q))
  have ht : t.val < 8 := lt_of_lt_of_eq t.isLt N_2
  have hr : r.val < 1024 := r.isLt
  have hq : q.val < 1024 := q.isLt
  -- the output block's index in the array: row 1024·t + r, column q
  have h3 : ((cfg2.win 3).blk t).view.emb (ValueIdx.ix2 (n0 := 1024) (n1 := 1024) r q)
      = ValueIdx.ix2 (n0 := 8192) (n1 := 1024) ⟨t.val * 1024 + r.val, by omega⟩ q := by
    funext a; apply Fin.ext
    match a with
    | ⟨0, _⟩ => show win2_3.index t (0 : Fin 2) * 1024 + 1 * r.val = t.val * 1024 + r.val; omega
    | ⟨1, _⟩ => show win2_3.index t (1 : Fin 2) * 1024 + 1 * q.val = q.val; omega
  -- the activations' block reads the same rows, every column
  have h0 : ∀ e : Fin 1024, ((cfg2.win 0).blk t).view.emb (ValueIdx.ix2 (n0 := 1024) (n1 := 1024) r e)
      = ValueIdx.ix2 (n0 := 8192) (n1 := 1024) ⟨t.val * 1024 + r.val, by omega⟩ e := by
    intro e
    have he : e.val < 1024 := e.isLt
    funext a; apply Fin.ext
    match a with
    | ⟨0, _⟩ => show win2_0.index t (0 : Fin 2) * 1024 + 1 * r.val = t.val * 1024 + r.val; omega
    | ⟨1, _⟩ => show win2_0.index t (1 : Fin 2) * 1024 + 1 * e.val = e.val; omega
  -- the weights' block is the whole matrix
  have h1 : ∀ e : Fin 1024, ((cfg2.win 1).blk t).view.emb (ValueIdx.ix2 (n0 := 1024) (n1 := 1024) e q)
      = ValueIdx.ix2 (n0 := 1024) (n1 := 1024) e q := by
    intro e
    have he : e.val < 1024 := e.isLt
    funext a; apply Fin.ext
    match a with
    | ⟨0, _⟩ => show win2_1.index t (0 : Fin 2) * 1024 + 1 * e.val = e.val; omega
    | ⟨1, _⟩ => show win2_1.index t (1 : Fin 2) * 1024 + 1 * q.val = q.val; omega
  -- the bias block is the whole row
  have h2 : ((cfg2.win 2).blk t).view.emb (ValueIdx.ix2 (n0 := 1) (n1 := 1024) 0 q)
      = ValueIdx.ix2 (n0 := 1) (n1 := 1024) 0 q := by
    funext a; apply Fin.ext
    match a with
    | ⟨0, _⟩ => show win2_2.index t (0 : Fin 2) * 1 + 1 * 0 = 0; omega
    | ⟨1, _⟩ => show win2_2.index t (1 : Fin 2) * 1024 + 1 * q.val = q.val; omega
  -- each block read through its window is the array read at the window's index
  have g0 : ∀ e : Fin 1024, iblk2 V c 0 t (ValueIdx.ix2 (n0 := 1024) (n1 := 1024) r e)
      = (V c (Pipeline.arrRef spec2 0) : Vec Ideal S8192x1024 .bf16)
          (ValueIdx.ix2 (n0 := 8192) (n1 := 1024) ⟨t.val * 1024 + r.val, by omega⟩ e) :=
    fun e => congrArg (V c (Pipeline.arrRef spec2 0)) (h0 e)
  have g1 : ∀ e : Fin 1024, iblk2 V c 1 t (ValueIdx.ix2 (n0 := 1024) (n1 := 1024) e q)
      = (V c (Pipeline.arrRef spec2 1) : Vec Ideal S1024x1024 .bf16) (ValueIdx.ix2 (n0 := 1024) (n1 := 1024) e q) :=
    fun e => congrArg (V c (Pipeline.arrRef spec2 1)) (h1 e)
  have g2 : iblk2 V c 2 t (ValueIdx.ix2 (n0 := 1) (n1 := 1024) 0 q)
      = (V c (Pipeline.arrRef spec2 2) : Vec Ideal S1x1024 .f32) (ValueIdx.ix2 (n0 := 1) (n1 := 1024) 0 q) :=
    congrArg (V c (Pipeline.arrRef spec2 2)) h2
  rw [h3, pay2_apply, G2_apply, g2]
  congr 1
  exact Finset.sum_congr rfl fun e _ => by rw [g0 e, g1 e]

/-- An index of the array is in point `t`'s block iff each coordinate is in the block's range on its axis. -/
theorem mem_blk2_3 (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v12).slice (win2_3.rect t)).set ↔ _
  rw [View.set_slice_whole, Rect.mem_set_unit]
  exact Iff.rfl

/-- THE COVER: row `i 0` lies in the block of point `i 0 / 1024`, and every point writes its block back. -/
theorem covered2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : (i 0).val / 1024 < cfg2.N := lt_of_lt_of_eq (by omega : (i 0).val / 1024 < 8) N_2.symm
  obtain ⟨-, -, -, -, -, -, e6, e7⟩ := idx_facts2_3 ⟨(i 0).val / 1024, hN⟩
  have e6' : win2_3.index ⟨(i 0).val / 1024, hN⟩ (0 : Fin 2) = (i 0).val / 1024 := e6
  refine ⟨⟨(i 0).val / 1024, hN⟩, flush2_3 _, ?_⟩
  rw [mem_blk2_3]
  intro a
  match a with
  | ⟨0, _⟩ =>
    show win2_3.index ⟨(i 0).val / 1024, hN⟩ (0 : Fin 2) * 1024 ≤ (i 0).val
      ∧ (i 0).val < win2_3.index ⟨(i 0).val / 1024, hN⟩ (0 : Fin 2) * 1024 + 1024
    omega
  | ⟨1, _⟩ =>
    show win2_3.index ⟨(i 0).val / 1024, hN⟩ (1 : Fin 2) * 1024 ≤ (i 1).val
      ∧ (i 1).val < win2_3.index ⟨(i 0).val / 1024, hN⟩ (1 : Fin 2) * 1024 + 1024
    omega

/-- THE ARRAY after the run of region 2: the projection of the region-entry arrays. -/
theorem final2_3 (c : Dev nD) :
    (dat2 (F := Ideal) V c).arrAt 3 cfg2.N
      = G2 (V c (Pipeline.arrRef spec2 0)) (V c (Pipeline.arrRef spec2 1)) (V c (Pipeline.arrRef spec2 2)) :=
  (dat2 (F := Ideal) V c).arrAt_eq_of_cover 3 _ (fun t _ => flushed2_3_eq V c t) covered2_3

end Regions

end Cert.KernelIdeal.Hand

end
-- ==== Proof.ValMain.lean ====
import proofs.«403051_j18691697672859_3_alg».proof.Proof.Gen.KernelIdeal.Launch
import proofs.«403051_j18691697672859_3_alg».proof.Proof.Gen.KernelIdeal.Skeleton
import proofs.«403051_j18691697672859_3_alg».proof.Proof.Gen.KernelIdeal.Points
import proofs.«403051_j18691697672859_3_alg».proof.Proof.KIRun
import proofs.«403051_j18691697672859_3_alg».proof.Proof.ValProj0
import proofs.«403051_j18691697672859_3_alg».proof.Proof.ValAttn
import proofs.«403051_j18691697672859_3_alg».proof.Proof.ValProj2
import proofs.«403051_j18691697672859_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.StableHlo.Run
import Idealize.ShloMosaic.Lib.Ring
import Idealize.ShloMosaic.Lib.Tactic

set_option maxRecDepth 16384

noncomputable section

/-! # The value of the program's result

At the ideal floats (every operation exact on the extended reals, a change of format the identity) the fold of the
buffer contents through the program's six items is read off item by item: the first host stretch leaves the four
weight matrices as they are and the three bias vectors as rows; the fused projection leaves the three projections laid
out by head pairs; the attention core leaves the attention output in the same layout; the second host stretch moves the
head-pair axis behind the token axis and flattens tokens and features, so that row 2048·b + s, column 128·hp + j holds
the attention output of batch b, pair hp, token s, lane j; the output projection contracts the feature axis against
the last weight matrix and adds the last bias; the last reshape splits the row back into batch and token. The
result is the specification's function of the nine arguments. -/

namespace Cert.KernelIdeal.Hand
open Cert.KernelIdeal Cert.KernelIdeal.Gen
open Idealize.ShloMosaic Idealize.ShloMosaic.TcCoe Idealize.ShloMosaic.Tactic
open Idealize.ShloMosaic.ValueIdx
open scoped BigOperators

/-! ## The three regions' results as functions of their input arrays -/

/-- A projection laid out by head pairs, as an array: what the fused projection leaves in each of its outputs. -/
def vm_projArr (x : S4x2048x1024.Idx → EReal) (w : S1024x1024.Idx → EReal) (b : S1x1024.Idx → EReal) : S4x8x2048x128.Idx → EReal :=
  fun i => Spec.pairs (Spec.proj (Spec.of3 x) (Spec.of2 w) (Spec.ofRow b)) (i 0) (i 1) (i 2) (i 3)
/-- The attention output in head-pair layout, as an array. -/
def vm_attnArr (q k v : S4x8x2048x128.Idx → EReal) : S4x8x2048x128.Idx → EReal :=
  fun i => Spec.kattn (Spec.of4 q) (Spec.of4 k) (Spec.of4 v) (i 0) (i 1) (i 2) (i 3)
/-- The output projection of the flattened tokens, as an array. -/
def vm_outArr (o : S8192x1024.Idx → EReal) (w : S1024x1024.Idx → EReal) (b : S1x1024.Idx → EReal) : S8192x1024.Idx → EReal :=
  fun i => (∑ e : Fin 1024, o (ix2 (i 0) e) * w (ix2 e (i 1))) + b (ix2 0 (i 1))

theorem vm_of4_projArr (x : S4x2048x1024.Idx → EReal) (w : S1024x1024.Idx → EReal) (b : S1x1024.Idx → EReal) :
    Spec.of4 (vm_projArr x w b) = Spec.pairs (Spec.proj (Spec.of3 x) (Spec.of2 w) (Spec.ofRow b)) := rfl

/-- A bias reshaped to one row, read as a row, is the bias. -/
theorem vm_ofRow_shapeCast (b : S1024.Idx → EReal) : Spec.ofRow (shapeCast S1x1024 b shapeCasts_S1024_S1x1024) = Spec.of1 b := by
  funext f
  unfold Spec.ofRow Spec.of1
  refine shapeCast_apply _ _ _ _ ?_
  rw [Shape.rowMajor_val_one, Shape.rowMajor_val_two]
  show f.val = 0 * 1024 + f.val
  omega

/-- The output projection's row read at equal coordinates. -/
theorem vm_row_congr (A : Spec.A4) (W : Spec.M2) (bb : Spec.B1) (b' b : Fin 4) (s' s : Fin 2048) (f' f : Fin 1024)
    (hb : b' = b) (hs : s' = s) (hf : f' = f) :
    (∑ e : Fin 1024, A b' (⟨e.val / 128, by omega⟩ : Fin 8) s' (⟨e.val % 128, Nat.mod_lt _ (by decide)⟩ : Fin 128) * W e f') + bb f'
      = (∑ e : Fin 1024, A b (⟨e.val / 128, by omega⟩ : Fin 8) s (⟨e.val % 128, Nat.mod_lt _ (by decide)⟩ : Fin 128) * W e f) + bb f := by
  subst hb hs hf
  rfl

section Values
variable (m : (ℓ : Loc nD τ sig) → Buf (Elt Ideal) ℓ) (ρ : Dev nD → PrngReg) (c : Dev nD)

/-! ## The nine arguments on plain coordinates -/
abbrev vm_aX : Spec.A3 := Spec.of3 (m ((c : Thread nD τ).loc main_arg0))
abbrev vm_aWq : Spec.M2 := Spec.of2 (m ((c : Thread nD τ).loc main_arg1))
abbrev vm_aBq : Spec.B1 := Spec.of1 (m ((c : Thread nD τ).loc main_arg2))
abbrev vm_aWk : Spec.M2 := Spec.of2 (m ((c : Thread nD τ).loc main_arg3))
abbrev vm_aBk : Spec.B1 := Spec.of1 (m ((c : Thread nD τ).loc main_arg4))
abbrev vm_aWv : Spec.M2 := Spec.of2 (m ((c : Thread nD τ).loc main_arg5))
abbrev vm_aBv : Spec.B1 := Spec.of1 (m ((c : Thread nD τ).loc main_arg6))
abbrev vm_aWo : Spec.M2 := Spec.of2 (m ((c : Thread nD τ).loc main_arg7))
abbrev vm_aBo : Spec.B1 := Spec.of1 (m ((c : Thread nD τ).loc main_arg8))
/-- The three projections by head pairs. -/
abbrev vm_aQ : Spec.A4 := Spec.pairs (Spec.proj (vm_aX m c) (vm_aWq m c) (vm_aBq m c))
abbrev vm_aK : Spec.A4 := Spec.pairs (Spec.proj (vm_aX m c) (vm_aWk m c) (vm_aBk m c))
abbrev vm_aV : Spec.A4 := Spec.pairs (Spec.proj (vm_aX m c) (vm_aWv m c) (vm_aBv m c))

/-! ## After the first host stretch -/

theorem vm_St1_v0 : (St1 (F := Ideal) m ρ c (Proc.devRef .tc main_v0) : S1024x1024.Idx → EReal)
    = (m ((c : Thread nD τ).loc main_arg1) : S1024x1024.Idx → EReal) := by
  show StableHlo.after hostOps0 (St0 m ρ c) (Proc.devRef .tc main_v0) = _
  after_results
  rfl
theorem vm_St1_v1 : (St1 (F := Ideal) m ρ c (Proc.devRef .tc main_v1) : S1024x1024.Idx → EReal)
    = (m ((c : Thread nD τ).loc main_arg3) : S1024x1024.Idx → EReal) := by
  show StableHlo.after hostOps0 (St0 m ρ c) (Proc.devRef .tc main_v1) = _
  after_results
  rfl
theorem vm_St1_v2 : (St1 (F := Ideal) m ρ c (Proc.devRef .tc main_v2) : S1024x1024.Idx → EReal)
    = (m ((c : Thread nD τ).loc main_arg5) : S1024x1024.Idx → EReal) := by
  show StableHlo.after hostOps0 (St0 m ρ c) (Proc.devRef .tc main_v2) = _
  after_results
  rfl
theorem vm_St1_v3 : (St1 (F := Ideal) m ρ c (Proc.devRef .tc main_v3) : S1024x1024.Idx → EReal)
    = (m ((c : Thread nD τ).loc main_arg7) : S1024x1024.Idx → EReal) := by
  show StableHlo.after hostOps0 (St0 m ρ c) (Proc.devRef .tc main_v3) = _
  after_results
  rfl
theorem vm_St1_v4 : (St1 (F := Ideal) m ρ c (Proc.devRef .tc main_v4) : S1x1024.Idx → EReal)
    = shapeCast S1x1024 (m ((c : Thread nD τ).loc main_arg2) : S1024.Idx → EReal) shapeCasts_S1024_S1x1024 := by
  show StableHlo.after hostOps0 (St0 m ρ c) (Proc.devRef .tc main_v4) = _
  after_results
  rfl
theorem vm_St1_v5 : (St1 (F := Ideal) m ρ c (Proc.devRef .tc main_v5) : S1x1024.Idx → EReal)
    = shapeCast S1x1024 (m ((c : Thread nD τ).loc main_arg4) : S1024.Idx → EReal) shapeCasts_S1024_S1x1024 := by
  show StableHlo.after hostOps0 (St0 m ρ c) (Proc.devRef .tc main_v5) = _
  after_results
  rfl
theorem vm_St1_v6 : (St1 (F := Ideal) m ρ c (Proc.devRef .tc main_v6) : S1x1024.Idx → EReal)
    = shapeCast S1x1024 (m ((c : Thread nD τ).loc main_arg6) : S1024.Idx → EReal) shapeCasts_S1024_S1x1024 := by
  show StableHlo.after hostOps0 (St0 m ρ c) (Proc.devRef .tc main_v6) = _
  after_results
  rfl
theorem vm_St1_arg0 : St1 (F := Ideal) m ρ c (Proc.devRef .tc main_arg0) = m ((c : Thread nD τ).loc main_arg0) :=
  St1_keep m ρ c main_arg0 (by decide)

/-- One output of the fused projection, from the contents of its three input arrays at the region's entry. -/
theorem vm_projArr_entry (x : S4x2048x1024.Idx → EReal) (w : S1024x1024.Idx → EReal) (b : S1x1024.Idx → EReal)
    (x' : S4x2048x1024.Idx → EReal) (w' : S1024x1024.Idx → EReal) (b' : S1024.Idx → EReal)
    (hx : x = x') (hw : w = w') (hb : b = shapeCast S1x1024 b' shapeCasts_S1024_S1x1024) :
    vm_projArr x w b = fun i => Spec.pairs (Spec.proj (Spec.of3 x') (Spec.of2 w') (Spec.of1 b')) (i 0) (i 1) (i 2) (i 3) := by
  subst hx hw hb
  unfold vm_projArr
  rw [vm_ofRow_shapeCast]

/-! ## The regions' results, taken as hypotheses here -/
variable
  (h07 : ∀ (V : (c : Dev nD) → (b : Ref sig .tc) → Buf (Elt Ideal) ((c : Thread nD τ).loc b)) (c : Dev nD),
    ((dat0 V c).arrAt 7 cfg0.N : S4x8x2048x128.Idx → EReal)
      = vm_projArr (V c (Pipeline.arrRef spec0 0)) (V c (Pipeline.arrRef spec0 1)) (V c (Pipeline.arrRef spec0 2)))
  (h08 : ∀ (V : (c : Dev nD) → (b : Ref sig .tc) → Buf (Elt Ideal) ((c : Thread nD τ).loc b)) (c : Dev nD),
    ((dat0 V c).arrAt 8 cfg0.N : S4x8x2048x128.Idx → EReal)
      = vm_projArr (V c (Pipeline.arrRef spec0 0)) (V c (Pipeline.arrRef spec0 3)) (V c (Pipeline.arrRef spec0 4)))
  (h09 : ∀ (V : (c : Dev nD) → (b : Ref sig .tc) → Buf (Elt Ideal) ((c : Thread nD τ).loc b)) (c : Dev nD),
    ((dat0 V c).arrAt 9 cfg0.N : S4x8x2048x128.Idx → EReal)
      = vm_projArr (V c (Pipeline.arrRef spec0 0)) (V c (Pipeline.arrRef spec0 5)) (V c (Pipeline.arrRef spec0 6)))
  (h13 : ∀ (V : (c : Dev nD) → (b : Ref sig .tc) → Buf (Elt Ideal) ((c : Thread nD τ).loc b)) (c : Dev nD),
    ((dat1 V c).arrAt 3 cfg1.N : S4x8x2048x128.Idx → EReal)
      = vm_attnArr (V c (Pipeline.arrRef spec1 0)) (V c (Pipeline.arrRef spec1 1)) (V c (Pipeline.arrRef spec1 2)))
  (h23 : ∀ (V : (c : Dev nD) → (b : Ref sig .tc) → Buf (Elt Ideal) ((c : Thread nD τ).loc b)) (c : Dev nD),
    ((dat2 V c).arrAt 3 cfg2.N : S8192x1024.Idx → EReal)
      = vm_outArr (V c (Pipeline.arrRef spec2 0)) (V c (Pipeline.arrRef spec2 1)) (V c (Pipeline.arrRef spec2 2)))

/-! ## After the fused projection -/
include h07 in
theorem vm_St2_v7_0 : (St2 (F := Ideal) m ρ c (Proc.devRef .tc main_v7_0) : S4x8x2048x128.Idx → EReal)
    = fun i => vm_aQ m c (i 0) (i 1) (i 2) (i 3) :=
  (St2_arr m ρ c 7).trans ((h07 (En0 m ρ) c).trans
    (vm_projArr_entry _ _ _ _ _ _ (vm_St1_arg0 m ρ c) (vm_St1_v0 m ρ c) (vm_St1_v4 m ρ c)))
include h08 in
theorem vm_St2_v7_1 : (St2 (F := Ideal) m ρ c (Proc.devRef .tc main_v7_1) : S4x8x2048x128.Idx → EReal)
    = fun i => vm_aK m c (i 0) (i 1) (i 2) (i 3) :=
  (St2_arr m ρ c 8).trans ((h08 (En0 m ρ) c).trans
    (vm_projArr_entry _ _ _ _ _ _ (vm_St1_arg0 m ρ c) (vm_St1_v1 m ρ c) (vm_St1_v5 m ρ c)))
include h09 in
theorem vm_St2_v7_2 : (St2 (F := Ideal) m ρ c (Proc.devRef .tc main_v7_2) : S4x8x2048x128.Idx → EReal)
    = fun i => vm_aV m c (i 0) (i 1) (i 2) (i 3) :=
  (St2_arr m ρ c 9).trans ((h09 (En0 m ρ) c).trans
    (vm_projArr_entry _ _ _ _ _ _ (vm_St1_arg0 m ρ c) (vm_St1_v2 m ρ c) (vm_St1_v6 m ρ c)))

/-! ## After the attention core -/
theorem vm_attnArr_entry (q k v : S4x8x2048x128.Idx → EReal) (Q K V : Spec.A4)
    (hq : q = fun i => Q (i 0) (i 1) (i 2) (i 3)) (hk : k = fun i => K (i 0) (i 1) (i 2) (i 3))
    (hv : v = fun i => V (i 0) (i 1) (i 2) (i 3)) :
    vm_attnArr q k v = fun i => Spec.kattn Q K V (i 0) (i 1) (i 2) (i 3) := by
  subst hq hk hv
  rfl

include h07 h08 h09 h13 in
theorem vm_St3_v8 : (St3 (F := Ideal) m ρ c (Proc.devRef .tc main_v8) : S4x8x2048x128.Idx → EReal)
    = fun i => Spec.kattn (vm_aQ m c) (vm_aK m c) (vm_aV m c) (i 0) (i 1) (i 2) (i 3) :=
  (St3_arr m ρ c 3).trans ((h13 (En1 m ρ) c).trans
    (vm_attnArr_entry _ _ _ _ _ _ (vm_St2_v7_0 m ρ c h07) (vm_St2_v7_1 m ρ c h08) (vm_St2_v7_2 m ρ c h09)))

/-! ## After the second host stretch -/

theorem vm_St4_v10_raw : (St4 (F := Ideal) m ρ c (Proc.devRef .tc main_v10) : S8192x1024.Idx → EReal)
    = shapeCast S8192x1024 (transpose S4x2048x8x128 [0, 2, 1, 3]
        (St3 (F := Ideal) m ρ c (Proc.devRef .tc main_v8) : S4x8x2048x128.Idx → EReal)
        transposes_S4x8x2048x128_S4x2048x8x128_0_2_1_3) shapeCasts_S4x2048x8x128_S8192x1024 := by
  show StableHlo.after hostOps2 (St3 m ρ c) (Proc.devRef .tc main_v10) = _
  after_results
  rfl

/-- The transposition followed by the flattening, read at row r and column e: the operand at batch r / 2048, head
    pair e / 128, token r % 2048, lane e % 128. -/
theorem vm_flat_apply (a : S4x8x2048x128.Idx → EReal) (j : S8192x1024.Idx) :
    shapeCast S8192x1024 (transpose S4x2048x8x128 [0, 2, 1, 3] a transposes_S4x8x2048x128_S4x2048x8x128_0_2_1_3)
        shapeCasts_S4x2048x8x128_S8192x1024 j
      = a (ix4 (⟨(j 0).val / 2048, by have := idx2_lt0 j; omega⟩ : Fin 4) (⟨(j 1).val / 128, by have := idx2_lt1 j; omega⟩ : Fin 8)
            (⟨(j 0).val % 2048, Nat.mod_lt _ (by decide)⟩ : Fin 2048) (⟨(j 1).val % 128, Nat.mod_lt _ (by decide)⟩ : Fin 128)) := by
  have h0 := idx2_lt0 j
  have h1 := idx2_lt1 j
  refine (shapeCast_apply _ _ j
    (ix4 (⟨(j 0).val / 2048, by omega⟩ : Fin 4) (⟨(j 0).val % 2048, Nat.mod_lt _ (by decide)⟩ : Fin 2048)
      (⟨(j 1).val / 128, by omega⟩ : Fin 8) (⟨(j 1).val % 128, Nat.mod_lt _ (by decide)⟩ : Fin 128)) ?_).trans ?_
  · rw [Shape.rowMajor_val_four, Shape.rowMajor_val_two]
    show (((j 0).val / 2048 * 2048 + (j 0).val % 2048) * 8 + (j 1).val / 128) * 128 + (j 1).val % 128 = (j 0).val * 1024 + (j 1).val
    omega
  · exact transpose_apply _ _ _ _ _ (fun b => match b with | ⟨0, _⟩ => rfl | ⟨1, _⟩ => rfl | ⟨2, _⟩ => rfl | ⟨3, _⟩ => rfl)

include h07 h08 h09 h13 in
theorem vm_St4_v10 (j : S8192x1024.Idx) : (St4 (F := Ideal) m ρ c (Proc.devRef .tc main_v10) : S8192x1024.Idx → EReal) j
    = Spec.kattn (vm_aQ m c) (vm_aK m c) (vm_aV m c) (⟨(j 0).val / 2048, by have := idx2_lt0 j; omega⟩ : Fin 4)
        (⟨(j 1).val / 128, by have := idx2_lt1 j; omega⟩ : Fin 8)
        (⟨(j 0).val % 2048, Nat.mod_lt _ (by decide)⟩ : Fin 2048) (⟨(j 1).val % 128, Nat.mod_lt _ (by decide)⟩ : Fin 128) := by
  rw [vm_St4_v10_raw, vm_flat_apply, vm_St3_v8 m ρ c h07 h08 h09 h13]
  rfl

theorem vm_St4_v3 : (St4 (F := Ideal) m ρ c (Proc.devRef .tc main_v3) : S1024x1024.Idx → EReal)
    = (m ((c : Thread nD τ).loc main_arg7) : S1024x1024.Idx → EReal) :=
  calc St4 (F := Ideal) m ρ c (Proc.devRef .tc main_v3)
    _ = St3 m ρ c (Proc.devRef .tc main_v3) := St4_keep m ρ c main_v3 (by decide)
    _ = St2 m ρ c (Proc.devRef .tc main_v3) := St3_of_ne m ρ c main_v3 (by decide)
    _ = St1 m ρ c (Proc.devRef .tc main_v3) := St2_of_ne m ρ c main_v3 (by decide)
    _ = _ := vm_St1_v3 m ρ c

theorem vm_St3_arg8 : St3 (F := Ideal) m ρ c (Proc.devRef .tc main_arg8) = m ((c : Thread nD τ).loc main_arg8) :=
  calc St3 (F := Ideal) m ρ c (Proc.devRef .tc main_arg8)
    _ = St2 m ρ c (Proc.devRef .tc main_arg8) := St3_of_ne m ρ c main_arg8 (by decide)
    _ = St1 m ρ c (Proc.devRef .tc main_arg8) := St2_of_ne m ρ c main_arg8 (by decide)
    _ = St0 m ρ c (Proc.devRef .tc main_arg8) := St1_keep m ρ c main_arg8 (by decide)
    _ = m ((c : Thread nD τ).loc main_arg8) := rfl

theorem vm_St4_v11 : (St4 (F := Ideal) m ρ c (Proc.devRef .tc main_v11) : S1x1024.Idx → EReal)
    = shapeCast S1x1024 (m ((c : Thread nD τ).loc main_arg8) : S1024.Idx → EReal) shapeCasts_S1024_S1x1024 := by
  have e : (St4 (F := Ideal) m ρ c (Proc.devRef .tc main_v11) : S1x1024.Idx → EReal)
      = shapeCast S1x1024 (St3 (F := Ideal) m ρ c (Proc.devRef .tc main_arg8) : S1024.Idx → EReal) shapeCasts_S1024_S1x1024 := by
    show StableHlo.after hostOps2 (St3 m ρ c) (Proc.devRef .tc main_v11) = _
    after_results
    rfl
  rw [e, vm_St3_arg8]

/-! ## After the output projection -/

/-- The output projection, from the contents of its three input arrays at the region's entry. -/
theorem vm_outArr_entry (o : S8192x1024.Idx → EReal) (w : S1024x1024.Idx → EReal) (b : S1x1024.Idx → EReal)
    (A : Spec.A4) (w' : S1024x1024.Idx → EReal) (b' : S1024.Idx → EReal)
    (ho : ∀ j : S8192x1024.Idx, o j = A (⟨(j 0).val / 2048, by have := idx2_lt0 j; omega⟩ : Fin 4)
        (⟨(j 1).val / 128, by have := idx2_lt1 j; omega⟩ : Fin 8)
        (⟨(j 0).val % 2048, Nat.mod_lt _ (by decide)⟩ : Fin 2048) (⟨(j 1).val % 128, Nat.mod_lt _ (by decide)⟩ : Fin 128))
    (hw : w = w') (hb : b = shapeCast S1x1024 b' shapeCasts_S1024_S1x1024) (i : S8192x1024.Idx) :
    vm_outArr o w b i = (∑ e : Fin 1024, A (⟨(i 0).val / 2048, by have := idx2_lt0 i; omega⟩ : Fin 4) (⟨e.val / 128, by omega⟩ : Fin 8)
        (⟨(i 0).val % 2048, Nat.mod_lt _ (by decide)⟩ : Fin 2048) (⟨e.val % 128, Nat.mod_lt _ (by decide)⟩ : Fin 128) * Spec.of2 w' e (i 1))
      + Spec.of1 b' (i 1) := by
  subst hw hb
  unfold vm_outArr
  have hb := congrFun (vm_ofRow_shapeCast b') (i 1)
  unfold Spec.ofRow at hb
  rw [hb]
  congr 1
  refine Finset.sum_congr rfl fun e _ => ?_
  rw [ho]
  rfl

include h07 h08 h09 h13 h23 in
theorem vm_St5_v12 (i : S8192x1024.Idx) : (St5 (F := Ideal) m ρ c (Proc.devRef .tc main_v12) : S8192x1024.Idx → EReal) i
    = (∑ e : Fin 1024, Spec.kattn (vm_aQ m c) (vm_aK m c) (vm_aV m c) (⟨(i 0).val / 2048, by have := idx2_lt0 i; omega⟩ : Fin 4)
        (⟨e.val / 128, by omega⟩ : Fin 8) (⟨(i 0).val % 2048, Nat.mod_lt _ (by decide)⟩ : Fin 2048)
        (⟨e.val % 128, Nat.mod_lt _ (by decide)⟩ : Fin 128) * vm_aWo m c e (i 1)) + vm_aBo m c (i 1) := by
  have e : (St5 (F := Ideal) m ρ c (Proc.devRef .tc main_v12) : S8192x1024.Idx → EReal)
      = vm_outArr (En2 m ρ c (Pipeline.arrRef spec2 0)) (En2 m ρ c (Pipeline.arrRef spec2 1)) (En2 m ρ c (Pipeline.arrRef spec2 2)) :=
    (St5_arr m ρ c 3).trans (h23 (En2 m ρ) c)
  rw [e]
  exact vm_outArr_entry _ _ _ _ _ _ (vm_St4_v10 m ρ c h07 h08 h09 h13) (vm_St4_v3 m ρ c) (vm_St4_v11 m ρ c) i

/-! ## The result -/

theorem vm_St6_v13_raw : (St6 (F := Ideal) m ρ c (Proc.devRef .tc main_v13) : S4x2048x1024.Idx → EReal)
    = shapeCast S4x2048x1024 (St5 (F := Ideal) m ρ c (Proc.devRef .tc main_v12) : S8192x1024.Idx → EReal)
        shapeCasts_S8192x1024_S4x2048x1024 := by
  show StableHlo.after hostOps3 (St5 m ρ c) (Proc.devRef .tc main_v13) = _
  after_results
  rfl

include h07 h08 h09 h13 h23 in
/-- The result array is the specification's function of the nine argument arrays. -/
theorem vm_St6_main_v13_of : (St6 (F := Ideal) m ρ c (Proc.devRef .tc main_v13) : S4x2048x1024.Idx → EReal)
    = fun i => Cert.Spec.KG (Cert.Spec.of3 (m ((c : Thread nD τ).loc main_arg0))) (Cert.Spec.of2 (m ((c : Thread nD τ).loc main_arg1)))
        (Cert.Spec.of1 (m ((c : Thread nD τ).loc main_arg2))) (Cert.Spec.of2 (m ((c : Thread nD τ).loc main_arg3)))
        (Cert.Spec.of1 (m ((c : Thread nD τ).loc main_arg4))) (Cert.Spec.of2 (m ((c : Thread nD τ).loc main_arg5)))
        (Cert.Spec.of1 (m ((c : Thread nD τ).loc main_arg6))) (Cert.Spec.of2 (m ((c : Thread nD τ).loc main_arg7)))
        (Cert.Spec.of1 (m ((c : Thread nD τ).loc main_arg8))) (i 0) (i 1) (i 2) := by
  refine funext fun (i : S4x2048x1024.Idx) => ?_
  have h0 : (i 0).val < 4 := (i 0).isLt
  have h1 : (i 1).val < 2048 := (i 1).isLt
  have h2 : (i 2).val < 1024 := (i 2).isLt
  rw [vm_St6_v13_raw]
  refine (shapeCast_apply _ _ i
    (ix2 (⟨(i 0).val * 2048 + (i 1).val, by omega⟩ : Fin 8192) (⟨(i 2).val, h2⟩ : Fin 1024) : S8192x1024.Idx) ?_).trans ?_
  · rw [Shape.rowMajor_val_two, Shape.rowMajor_val_three]
    rfl
  refine (vm_St5_v12 m ρ c h07 h08 h09 h13 h23 _).trans ?_
  exact vm_row_congr _ _ _ _ _ _ _ _ _
    (Fin.ext (by show ((i 0).val * 2048 + (i 1).val) / 2048 = (i 0).val; omega))
    (Fin.ext (by show ((i 0).val * 2048 + (i 1).val) % 2048 = (i 1).val; omega)) (Fin.ext rfl)

end Values

/-- THE VALUE of the program's result: with the three regions' results as proved for each, the result array holds
    the specification's function of the nine argument arrays. -/
theorem St6_main_v13 (m : (ℓ : Loc nD τ sig) → Buf (Elt Ideal) ℓ) (ρ : Dev nD → PrngReg) (c : Dev nD) :
    (St6 (F := Ideal) m ρ c (Proc.devRef .tc main_v13) : S4x2048x1024.Idx → EReal)
    = fun i => Cert.Spec.KG (Cert.Spec.of3 (m ((c : Thread nD τ).loc main_arg0))) (Cert.Spec.of2 (m ((c : Thread nD τ).loc main_arg1)))
        (Cert.Spec.of1 (m ((c : Thread nD τ).loc main_arg2))) (Cert.Spec.of2 (m ((c : Thread nD τ).loc main_arg3)))
        (Cert.Spec.of1 (m ((c : Thread nD τ).loc main_arg4))) (Cert.Spec.of2 (m ((c : Thread nD τ).loc main_arg5)))
        (Cert.Spec.of1 (m ((c : Thread nD τ).loc main_arg6))) (Cert.Spec.of2 (m ((c : Thread nD τ).loc main_arg7)))
        (Cert.Spec.of1 (m ((c : Thread nD τ).loc main_arg8))) (i 0) (i 1) (i 2) :=
  vm_St6_main_v13_of m ρ c (fun V c => final0_7 V c) (fun V c => final0_8 V c) (fun V c => final0_9 V c)
    (fun V c => final1_3 V c) (fun V c => final2_3 V c)

end Cert.KernelIdeal.Hand
end
-- ==== Proof.RefIsRG.lean ====
/- The reference program's result, read index by index, is the specification `Cert.Spec.RG`.

   The reference runs 44 host operations.  Each stage is read at explicit coordinates: the three projections x·W + b,
   their head layout (feature 64·h + d), the scores (Σ_d q·k)/√64, the row maximum over the keys (a fold of max from −∞,
   then max with −∞ once more), the exponentials, their sum from the zero word, the quotient, the aggregation over the
   QUERY axis, the return to the feature layout, and the last projection. -/
import proofs.«403051_j18691697672859_3_alg».proof.Proof.Spec
import proofs.«403051_j18691697672859_3_alg».proof.Proof.Gen.ReferenceIdeal.Read
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.ValueIdx
open scoped BigOperators

/-- The argument types of the reference: the tokens, a square weight, a bias. -/
abbrev X3 : Type := (⟨S4x2048x1024, .f32⟩ : BufTy).Contents (Elt Ideal)
abbrev X2 : Type := (⟨S1024x1024, .f32⟩ : BufTy).Contents (Elt Ideal)
abbrev X1 : Type := (⟨S1024, .f32⟩ : BufTy).Contents (Elt Ideal)

/-- A projection x·W + b at token (b, s), feature f. -/
theorem proj_apply (x : X3) (w : X2) (c : X1) (b : Fin 4) (s : Fin 2048) (f : Fin 1024) :
    val_main_v3 (F := Ideal) x w c (ix3 b s f) = Spec.proj (Spec.of3 x) (Spec.of2 w) (Spec.of1 c) b s f := by
  rw [val_main_v3_apply, val_main_v0_apply, val_main_v2_apply, val_main_v1_apply]
  have el : ∀ k : Fin 1024, lidx_main_v0 (ix3 b s f) k = ix3 b s k := fun k => funext fun a => Fin.ext (by match a with | ⟨0, _⟩ => rfl | ⟨1, _⟩ => rfl | ⟨2, _⟩ => rfl)
  have er : ∀ k : Fin 1024, ridx_main_v0 (ix3 b s f) k = ix2 k f := fun k => funext fun a => Fin.ext (by match a with | ⟨0, _⟩ => rfl | ⟨1, _⟩ => rfl)
  have eb : idx_main_v1 (idx_main_v2 (ix3 b s f)) = ix1 f := funext fun a => Fin.ext (by match a with | ⟨0, _⟩ => rfl)
  simp only [el, er, eb, Ideal.addf_def]
  rfl

/-- The projection in head layout: [b, h, s, d] is feature 64·h + d of token (b, s). -/
theorem heads_apply (x : X3) (w : X2) (c : X1) (b : Fin 4) (h : Fin 16) (s : Fin 2048) (d : Fin 64) :
    val_main_v5 (F := Ideal) x w c (ix4 b h s d)
      = Spec.proj (Spec.of3 x) (Spec.of2 w) (Spec.of1 c) b s (Spec.hfeat h d) := by
  rw [val_main_v5_apply, val_main_v4_apply]
  have e : idx_main_v4 (idx_main_v5 (ix4 b h s d)) = ix3 b s (Spec.hfeat h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)
  rw [e]
  exact proj_apply x w c b s (Spec.hfeat h d)

/-- The key and value projections are the same operations as the query's, on their own weights. -/
theorem v11_eq (x : X3) (w : X2) (c : X1) : val_main_v11 (F := Ideal) x w c = val_main_v5 (F := Ideal) x w c := rfl
theorem v17_eq (x : X3) (w : X2) (c : X1) : val_main_v17 (F := Ideal) x w c = val_main_v5 (F := Ideal) x w c := rfl

/-- The scores: (Σ_d q[q, d]·k[k, d]) / √64. -/
theorem score_apply (x0 : X3) (x1 : X2) (x2 : X1) (x3 : X2) (x4 : X1) (b : Fin 4) (h : Fin 16) (q k : Fin 2048) :
    val_main_v21 (F := Ideal) x0 x1 x2 x3 x4 (ix4 b h q k) = Spec.rscore (Spec.proj (Spec.of3 x0) (Spec.of2 x1) (Spec.of1 x2)) (Spec.proj (Spec.of3 x0) (Spec.of2 x3) (Spec.of1 x4)) b h q k := by
  rw [val_main_v21_apply, val_main_v18_apply, val_main_v20_apply, val_main_v19_apply, val_main_cst_apply]
  have el : ∀ d : Fin 64, lidx_main_v18 (ix4 b h q k) d = ix4 b h q d := fun d => funext fun a => Fin.ext (by match a with | ⟨0, _⟩ => rfl | ⟨1, _⟩ => rfl | ⟨2, _⟩ => rfl | ⟨3, _⟩ => rfl)
  have er : ∀ d : Fin 64, ridx_main_v18 (ix4 b h q k) d = ix4 b h k d := fun d => funext fun a => Fin.ext (by match a with | ⟨0, _⟩ => rfl | ⟨1, _⟩ => rfl | ⟨2, _⟩ => rfl | ⟨3, _⟩ => rfl)
  simp only [el, er, v11_eq, heads_apply, Ideal.hostDivf_def, Ideal.hostUnary_sqrt_def, Ideal.ofBits_def]
  rfl

/-- The row maximum over the keys. -/
theorem max_apply (x0 : X3) (x1 : X2) (x2 : X1) (x3 : X2) (x4 : X1) (b : Fin 4) (h : Fin 16) (q : Fin 2048) :
    val_main_v24 (F := Ideal) x0 x1 x2 x3 x4 (ix3 b h q) = Spec.rmax (Spec.rscore (Spec.proj (Spec.of3 x0) (Spec.of2 x1) (Spec.of1 x2)) (Spec.proj (Spec.of3 x0) (Spec.of2 x3) (Spec.of1 x4)) b h) q := by
  have hred : S4x16x2048x2048.Reduces [3] S4x16x2048 := by decide
  have hl : ∀ k : Fin 2048, hred.lift (ix3 b h q) k = ix4 b h q k := fun k => funext fun c => Fin.ext (by
    match c with | ⟨0, _⟩ => rfl | ⟨1, _⟩ => rfl | ⟨2, _⟩ => rfl | ⟨3, _⟩ => rfl)
  have hv : val_main_v22 (F := Ideal) x0 x1 x2 x3 x4 (ix3 b h q)
      = (Finset.univ : Finset (Fin 2048)).fold max (Ideal.ofBits .f32 0xFF800000#32)
          (fun k => Spec.rscore (Spec.proj (Spec.of3 x0) (Spec.of2 x1) (Spec.of1 x2)) (Spec.proj (Spec.of3 x0) (Spec.of2 x3) (Spec.of1 x4)) b h q k) := by
    unfold val_main_v22
    rw [Host.reduce_eq_fold_single FloatOps.maximumf _ _ reducesTo_S4x16x2048x2048_S4x16x2048_d3 hred h_S_]
    have hf : (val_main_v21 (F := Ideal) x0 x1 x2 x3 x4 ∘ hred.lift (ix3 b h q))
        = fun k : Fin 2048 => Spec.rscore (Spec.proj (Spec.of3 x0) (Spec.of2 x1) (Spec.of1 x2)) (Spec.proj (Spec.of3 x0) (Spec.of2 x3) (Spec.of1 x4)) b h q k := funext fun k => by
      show val_main_v21 (F := Ideal) x0 x1 x2 x3 x4 (hred.lift (ix3 b h q) k) = _
      rw [hl k]
      exact score_apply x0 x1 x2 x3 x4 b h q k
    exact congrArg (fun f => Finset.fold max (Ideal.ofBits .f32 0xFF800000#32) f (Finset.univ : Finset (Fin 2048))) hf
  rw [val_main_v24_apply, val_main_v23_apply, val_main_cst_1_apply, hv]
  rfl

/-- The exponential of a score less its row's maximum. -/
theorem exp_apply (x0 : X3) (x1 : X2) (x2 : X1) (x3 : X2) (x4 : X1) (b : Fin 4) (h : Fin 16) (q k : Fin 2048) :
    val_main_v28 (F := Ideal) x0 x1 x2 x3 x4 (ix4 b h q k) = Spec.rexp (Spec.rscore (Spec.proj (Spec.of3 x0) (Spec.of2 x1) (Spec.of1 x2)) (Spec.proj (Spec.of3 x0) (Spec.of2 x3) (Spec.of1 x4)) b h) q k := by
  rw [val_main_v28_apply, val_main_v27_apply, val_main_v26_apply, val_main_v25_apply]
  have e : idx_main_v25 (idx_main_v26 (ix4 b h q k)) = ix3 b h q := funext fun a => Fin.ext (by match a with | ⟨0, _⟩ => rfl | ⟨1, _⟩ => rfl | ⟨2, _⟩ => rfl)
  rw [e, score_apply, max_apply]
  rfl

/-- The softmax weight of key k for query q. -/
theorem weight_apply (x0 : X3) (x1 : X2) (x2 : X1) (x3 : X2) (x4 : X1) (b : Fin 4) (h : Fin 16) (q k : Fin 2048) :
    val_main_v32 (F := Ideal) x0 x1 x2 x3 x4 (ix4 b h q k) = Spec.rw (Spec.rscore (Spec.proj (Spec.of3 x0) (Spec.of2 x1) (Spec.of1 x2)) (Spec.proj (Spec.of3 x0) (Spec.of2 x3) (Spec.of1 x4)) b h) q k := by
  rw [val_main_v32_apply, val_main_v31_apply, val_main_v30_apply, val_main_v29_apply, val_main_cst_2_apply]
  have e : idx_main_v30 (idx_main_v31 (ix4 b h q k)) = ix3 b h q := funext fun a => Fin.ext (by match a with | ⟨0, _⟩ => rfl | ⟨1, _⟩ => rfl | ⟨2, _⟩ => rfl)
  have e2 : ∀ k' : Fin 2048, idx_main_v29 (ix3 b h q) k' = ix4 b h q k' := fun k' => funext fun a => Fin.ext (by match a with | ⟨0, _⟩ => rfl | ⟨1, _⟩ => rfl | ⟨2, _⟩ => rfl | ⟨3, _⟩ => rfl)
  rw [e]
  simp only [e2, exp_apply]
  rfl

/-- The aggregation over the QUERY axis. -/
theorem attn_apply (x0 : X3) (x1 : X2) (x2 : X1) (x3 : X2) (x4 : X1) (x5 : X2) (x6 : X1) (b : Fin 4) (h : Fin 16) (k : Fin 2048) (d : Fin 64) :
    val_main_v33 (F := Ideal) x0 x1 x2 x3 x4 x5 x6 (ix4 b h k d) = Spec.rattn (Spec.proj (Spec.of3 x0) (Spec.of2 x1) (Spec.of1 x2)) (Spec.proj (Spec.of3 x0) (Spec.of2 x3) (Spec.of1 x4)) (Spec.proj (Spec.of3 x0) (Spec.of2 x5) (Spec.of1 x6)) b h k d := by
  rw [val_main_v33_apply]
  have el : ∀ q : Fin 2048, lidx_main_v33 (ix4 b h k d) q = ix4 b h q k := fun q => funext fun a => Fin.ext (by match a with | ⟨0, _⟩ => rfl | ⟨1, _⟩ => rfl | ⟨2, _⟩ => rfl | ⟨3, _⟩ => rfl)
  have er : ∀ q : Fin 2048, ridx_main_v33 (ix4 b h k d) q = ix4 b h q d := fun q => funext fun a => Fin.ext (by match a with | ⟨0, _⟩ => rfl | ⟨1, _⟩ => rfl | ⟨2, _⟩ => rfl | ⟨3, _⟩ => rfl)
  simp only [el, er, v17_eq, weight_apply, heads_apply]
  rfl

/-- Back in feature layout: feature e of token (b, s) is column e % 64 of head e / 64. -/
theorem merged_apply (x0 : X3) (x1 : X2) (x2 : X1) (x3 : X2) (x4 : X1) (x5 : X2) (x6 : X1) (b : Fin 4) (s : Fin 2048) (e : Fin 1024) :
    val_main_v35 (F := Ideal) x0 x1 x2 x3 x4 x5 x6 (ix3 b s e)
      = Spec.rattn (Spec.proj (Spec.of3 x0) (Spec.of2 x1) (Spec.of1 x2)) (Spec.proj (Spec.of3 x0) (Spec.of2 x3) (Spec.of1 x4)) (Spec.proj (Spec.of3 x0) (Spec.of2 x5) (Spec.of1 x6)) b ⟨e.val / 64, by omega⟩ s ⟨e.val % 64, Nat.mod_lt _ (by decide)⟩ := by
  rw [val_main_v35_apply, val_main_v34_apply]
  have e' : idx_main_v34 (idx_main_v35 (ix3 b s e))
      = ix4 b (⟨e.val / 64, by omega⟩ : Fin 16) s (⟨e.val % 64, Nat.mod_lt _ (by decide)⟩ : Fin 64) := funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
  rw [e', attn_apply]

/-- The reference's result is `RG`. -/
theorem ref_is_RG (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    Cert.ReferenceIdeal.Read.val_main_v39 (F := Ideal) x0 x1 x2 x3 x4 x5 x6 x7 x8
      = fun i => Cert.Spec.RG (Cert.Spec.of3 x0) (Cert.Spec.of2 x1) (Cert.Spec.of1 x2) (Cert.Spec.of2 x3) (Cert.Spec.of1 x4)
          (Cert.Spec.of2 x5) (Cert.Spec.of1 x6) (Cert.Spec.of2 x7) (Cert.Spec.of1 x8) (i 0) (i 1) (i 2) := by
  funext i
  obtain ⟨b, s, f, rfl⟩ : ∃ (b : Fin 4) (s : Fin 2048) (f : Fin 1024), i = ix3 b s f := ⟨i 0, i 1, i 2, eq_ix3 i⟩
  rw [val_main_v39_apply, val_main_v36_apply, val_main_v38_apply, val_main_v37_apply]
  have el : ∀ k : Fin 1024, lidx_main_v36 (ix3 b s f) k = ix3 b s k := fun k => funext fun a => Fin.ext (by match a with | ⟨0, _⟩ => rfl | ⟨1, _⟩ => rfl | ⟨2, _⟩ => rfl)
  have er : ∀ k : Fin 1024, ridx_main_v36 (ix3 b s f) k = ix2 k f := fun k => funext fun a => Fin.ext (by match a with | ⟨0, _⟩ => rfl | ⟨1, _⟩ => rfl)
  have eb : idx_main_v37 (idx_main_v38 (ix3 b s f)) = ix1 f := funext fun a => Fin.ext (by match a with | ⟨0, _⟩ => rfl)
  simp only [el, er, eb, merged_apply, Ideal.addf_def]
  rfl

end Cert.ReferenceIdeal.RefValue

end
-- ==== Proof.SpecMath.lean ====
/- The kernel's arrangement of the attention computation and the reference's are one function of the inputs,
   over the extended reals: the constants' values, the score scaling, the softmax pieces, the regrouping of the
   query sum into four tiles of 512 and the regrouping of the features by head pairs. -/
import proofs.«403051_j18691697672859_3_alg».proof.Proof.Spec
import Idealize.ShloMosaic.PureOps.Ideal
import Idealize.ShloMosaic.PureOps.Ideal.Laws
import Mathlib.Algebra.BigOperators.Fin
import Mathlib.Algebra.BigOperators.Group.Finset.Basic
import Mathlib.Analysis.Real.Sqrt
import Mathlib.Data.EReal.Inv

set_option maxRecDepth 16384

noncomputable section

namespace Cert.Spec

open Idealize.ShloMosaic
open scoped BigOperators

/-! ## The three constants -/

/-- The word 0x3E000000 is 1/8. -/
theorem ofBits_eighth : Ideal.ofBits .f32 0x3E000000#32 = ((1 / 8 : ℝ) : EReal) := by
  simp [Ideal.ofBits, Ideal.ieee, -EReal.coe_mul]; norm_num

/-- The word 0xFF800000 is −∞. -/
theorem ofBits_negInf : Ideal.ofBits .f32 0xFF800000#32 = ⊥ := by
  simp [Ideal.ofBits, Ideal.ieee]

/-- The word 0x42800000 is 64. -/
theorem ofBits_sixtyFour : Ideal.ofBits .f32 0x42800000#32 = ((64 : ℝ) : EReal) := by
  simp [Ideal.ofBits, Ideal.ieee, -EReal.coe_mul]; norm_num

/-- √64 = 8, from 8·8 = 64. -/
theorem sqrt_sixtyFour : Ideal.sqrt ((64 : ℝ) : EReal) = ((8 : ℝ) : EReal) := by
  have h : Real.sqrt 64 = 8 := by
    have h64 : (64 : ℝ) = 8 ^ 2 := by norm_num
    rw [h64, Real.sqrt_sq (by norm_num)]
  rw [Ideal.sqrt_coe, if_neg (by norm_num), h]

/-- Dividing by √64 is multiplying by the word 0.125, for every extended real. -/
theorem div_sqrt64 (y : EReal) :
    Ideal.div y (Ideal.sqrt (Ideal.ofBits .f32 0x42800000#32)) = y * Ideal.ofBits .f32 0x3E000000#32 := by
  rw [ofBits_sixtyFour, sqrt_sixtyFour, Ideal.div_coe (by norm_num), ofBits_eighth]

/-! ## Features: head 2·hp + half, column d is lane 64·half + d of pair hp -/

theorem hfeat_eq (hp : Fin 8) (hf : Fin 2) (d : Fin 64) (h : Fin 16) (hh : h.val = 2 * hp.val + hf.val) :
    hfeat h d = feat hp (lane hf d) := by
  apply Fin.ext
  show h.val * 64 + d.val = hp.val * 128 + (hf.val * 64 + d.val)
  omega

/-! ## Scores -/

/-- key·query times 0.125 is query·key over √64, at head 2·hp + half. -/
theorem kscore_eq (Qp Kp : A3) (bi : Fin 4) (hp : Fin 8) (hf : Fin 2) (h : Fin 16)
    (hh : h.val = 2 * hp.val + hf.val) (k q : Fin 2048) :
    kscore (pairs Qp) (pairs Kp) bi hp hf k q = rscore Qp Kp bi h q k := by
  unfold kscore rscore
  rw [div_sqrt64]
  congr 1
  apply Finset.sum_congr rfl
  intro d _
  show Kp bi k (feat hp (lane hf d)) * Qp bi q (feat hp (lane hf d)) = _
  rw [hfeat_eq hp hf d h hh, mul_comm]

/-! ## The softmax, for a score table and its transpose -/

section Softmax
variable (S S' : Fin 2048 → Fin 2048 → EReal) (hS : ∀ k q, S k q = S' q k)
include hS

theorem kmax_eq (qi : Fin 4) (q : Fin 512) : kmax S qi q = rmax S' (qrow qi q) := by
  unfold kmax rmax
  have hf : (fun k => S k (qrow qi q)) = (fun k => S' (qrow qi q) k) := funext (fun k => hS k _)
  rw [ofBits_negInf, max_bot_left, hf]

theorem kexp_eq (qi : Fin 4) (k : Fin 2048) (q : Fin 512) : kexp S qi k q = rexp S' (qrow qi q) k := by
  unfold kexp rexp
  rw [hS, kmax_eq S S' hS]

theorem kw_eq (qi : Fin 4) (k : Fin 2048) (q : Fin 512) : kw S qi k q = Cert.Spec.rw S' (qrow qi q) k := by
  unfold kw Cert.Spec.rw
  rw [Ideal.ofBits_zero_f32, zero_add, kexp_eq S S' hS]
  congr 1
  exact Finset.sum_congr rfl (fun k' _ => kexp_eq S S' hS qi k' q)

end Softmax

/-! ## The query sum in four tiles of 512 -/

/-- Query 512·qi + q, as an equivalence of the pairs (qi, q) with the 2048 queries. -/
def qrowEquiv : Fin 4 × Fin 512 ≃ Fin 2048 where
  toFun p := qrow p.1 p.2
  invFun q := (⟨q.val / 512, by omega⟩, ⟨q.val % 512, Nat.mod_lt _ (by decide)⟩)
  left_inv p := by
    rcases p with ⟨a, b⟩
    apply Prod.ext
    · apply Fin.ext
      show (a.val * 512 + b.val) / 512 = a.val
      omega
    · apply Fin.ext
      show (a.val * 512 + b.val) % 512 = b.val
      omega
  right_inv q := by
    apply Fin.ext
    show q.val / 512 * 512 + q.val % 512 = q.val
    omega

/-- One sum over the 2048 queries is the four tile sums added one after the other onto 0. -/
theorem sum_tiles (g : Fin 2048 → EReal) :
    ∑ q : Fin 2048, g q
      = (((0 + ∑ q : Fin 512, g (qrow 0 q)) + ∑ q : Fin 512, g (qrow 1 q)) + ∑ q : Fin 512, g (qrow 2 q))
          + ∑ q : Fin 512, g (qrow 3 q) := by
  have h1 : ∑ q : Fin 2048, g q = ∑ p : Fin 4 × Fin 512, g (qrow p.1 p.2) :=
    (Fintype.sum_equiv qrowEquiv (fun p => g (qrow p.1 p.2)) g (fun _ => rfl)).symm
  rw [h1, Fintype.sum_prod_type, Fin.sum_univ_four, zero_add]

/-! ## The attention output -/

theorem kacc_eq (Qp Kp Vp : A3) (bi : Fin 4) (hp : Fin 8) (hf : Fin 2) (h : Fin 16)
    (hh : h.val = 2 * hp.val + hf.val) (k : Fin 2048) (d : Fin 64) :
    kacc (pairs Qp) (pairs Kp) (pairs Vp) bi hp hf k d = rattn Qp Kp Vp bi h k d := by
  have hterm : ∀ (qi : Fin 4) (q : Fin 512),
      kw (kscore (pairs Qp) (pairs Kp) bi hp hf) qi k q * pairs Vp bi hp (qrow qi q) (lane hf d)
        = Cert.Spec.rw (rscore Qp Kp bi h) (qrow qi q) k * Vp bi (qrow qi q) (hfeat h d) := by
    intro qi q
    rw [kw_eq _ (rscore Qp Kp bi h) (fun k' q' => kscore_eq Qp Kp bi hp hf h hh k' q'), hfeat_eq hp hf d h hh]
    rfl
  unfold kacc kcontrib rattn
  rw [sum_tiles]
  simp only [hterm]

/-- The kernel's arrangement and the reference's arrangement are the same function. -/
theorem KG_eq_RG (x : A3) (Wq : M2) (bq : B1) (Wk : M2) (bk : B1) (Wv : M2) (bv : B1) (Wo : M2) (bo : B1) :
    KG x Wq bq Wk bk Wv bv Wo bo = RG x Wq bq Wk bk Wv bv Wo bo := by
  funext bi s f
  unfold KG RG
  congr 1
  apply Finset.sum_congr rfl
  intro e _
  congr 1
  show kacc _ _ _ bi ⟨e.val / 128, _⟩ ⟨e.val % 128 / 64, _⟩ s ⟨e.val % 128 % 64, _⟩ = _
  have hd : (⟨e.val % 128 % 64, Nat.mod_lt _ (by decide)⟩ : Fin 64) = ⟨e.val % 64, Nat.mod_lt _ (by decide)⟩ := by
    apply Fin.ext
    show e.val % 128 % 64 = e.val % 64
    omega
  rw [hd]
  exact kacc_eq _ _ _ bi _ _ ⟨e.val / 64, by omega⟩ (by show e.val / 64 = 2 * (e.val / 128) + e.val % 128 / 64; omega) s _

end Cert.Spec

end
-- ==== Proof.lean ====
/- The certificate's five claims, assembled.

   Three programs: the tiled attention kernel read at the word level, the same read over the extended reals, and the jnp
   reference over the extended reals. Each kernel program is host operations around three pipelined regions (the fused
   projections to queries, keys and values laid out by head pairs; the attention core, whose accumulator is carried
   over the four query tiles of a block and stored at the last; the output projection); its run is the regions'
   runs chained through the contents every buffer holds between them, and at the end each argument array is
   what it was. Over the extended reals the result array of the kernel is the function `Cert.Spec.KG` of the arguments and
   the reference's is `Cert.Spec.RG`; the two are one function (scores commute under the sum over the head's width,
   dividing by √64 is multiplying by 0.125, the maximum over the keys from −∞ is one fold either way, and the sum over
   the 2048 queries is the four tile sums added one after the other), so runs from memories agreeing on the
   arguments end with equal results. The idealization rewrote nothing, so `preserves` asks nothing. -/
import proofs.«403051_j18691697672859_3_alg».proof.Defs
import proofs.«403051_j18691697672859_3_alg».proof.Proof.Gen.Kernel
import proofs.«403051_j18691697672859_3_alg».proof.Proof.Gen.KernelIdeal
import proofs.«403051_j18691697672859_3_alg».proof.Proof.Gen.ReferenceIdeal
import proofs.«403051_j18691697672859_3_alg».proof.Proof.Gen.Pre_finite_inputs
import proofs.«403051_j18691697672859_3_alg».proof.Proof.Gen.ReferenceIdeal.Run
import proofs.«403051_j18691697672859_3_alg».proof.Proof.Gen.ReferenceIdeal.Read
import proofs.«403051_j18691697672859_3_alg».proof.Proof.KRun
import proofs.«403051_j18691697672859_3_alg».proof.Proof.KIRun
import proofs.«403051_j18691697672859_3_alg».proof.Proof.ValMain
import proofs.«403051_j18691697672859_3_alg».proof.Proof.RefIsRG
import proofs.«403051_j18691697672859_3_alg».proof.Proof.SpecMath
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Hand.frame (F := Bits) m ρ

/-- So does the kernel over the extended reals. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the same result array: the kernel's is `KG` of its
    arguments, the reference's `RG` of its own, and `KG = RG`. -/
theorem algebraic : Cert.algebraic_KernelIdeal_ReferenceIdeal := by
  intro m ρ m' ρ' _ hagree
  refine ⟨fun c => Cert.KernelIdeal.Hand.St6 (F := Ideal) m ρ c (Proc.devRef .tc Cert.KernelIdeal.main_v13), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v13 (by decide)),
      (h c _ (Cert.KernelIdeal.Hand.mem_uc Cert.KernelIdeal.main_arg0 (by decide))).trans (Cert.KernelIdeal.Hand.St6_main_arg0 m ρ c),
      (h c _ (Cert.KernelIdeal.Hand.mem_uc Cert.KernelIdeal.main_arg1 (by decide))).trans (Cert.KernelIdeal.Hand.St6_main_arg1 m ρ c),
      (h c _ (Cert.KernelIdeal.Hand.mem_uc Cert.KernelIdeal.main_arg2 (by decide))).trans (Cert.KernelIdeal.Hand.St6_main_arg2 m ρ c),
      (h c _ (Cert.KernelIdeal.Hand.mem_uc Cert.KernelIdeal.main_arg3 (by decide))).trans (Cert.KernelIdeal.Hand.St6_main_arg3 m ρ c),
      (h c _ (Cert.KernelIdeal.Hand.mem_uc Cert.KernelIdeal.main_arg4 (by decide))).trans (Cert.KernelIdeal.Hand.St6_main_arg4 m ρ c),
      (h c _ (Cert.KernelIdeal.Hand.mem_uc Cert.KernelIdeal.main_arg5 (by decide))).trans (Cert.KernelIdeal.Hand.St6_main_arg5 m ρ c),
      (h c _ (Cert.KernelIdeal.Hand.mem_uc Cert.KernelIdeal.main_arg6 (by decide))).trans (Cert.KernelIdeal.Hand.St6_main_arg6 m ρ c),
      (h c _ (Cert.KernelIdeal.Hand.mem_uc Cert.KernelIdeal.main_arg7 (by decide))).trans (Cert.KernelIdeal.Hand.St6_main_arg7 m ρ c),
      (h c _ (Cert.KernelIdeal.Hand.mem_uc Cert.KernelIdeal.main_arg8 (by decide))).trans (Cert.KernelIdeal.Hand.St6_main_arg8 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_is_RG,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact ((Cert.KernelIdeal.Hand.St6_main_v13 m ρ c).trans
      (funext fun i => congrFun (congrFun (congrFun (Cert.Spec.KG_eq_RG _ _ _ _ _ _ _ _ _) (i 0)) (i 1)) (i 2))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
